-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x262144 : Shape := ⟨2, ![2, 262144]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S256 .f32) (main_arg6 : FVec F S256x16 .f32) (main_arg7 : FVec F S16 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x16 .f32 := Host.absf main_arg6
  let main_cst_8 : FVec F S_ .f32 := constant S_ .f32 0x7F800000#32
  let main_v25 : FVec F S256x16 .f32 := broadcastInDim S256x16 ![] bcast_S_S256x16 main_cst_8
  let main_v26 : IVec S256x16 1 := cmpf .olt main_v24 main_v25
  let main_c_9 : IVec S_ 1 := constantI S_ 1 1#1
  let main_v27 : IVec S_ 1 := (fun x v => Host.reduce IntOp.andi x v reducesTo_S256x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x128 .f32) (main_arg1 : IVec S2x262144 32) (main_arg2 : FVec F S128x256 .f32) (main_arg3 : FVec F S256 .f32) (main_arg4 : FVec F S256x256 .f32) (main_arg5 : FVec F S256 .f32) (main_arg6 : FVec F S256x16 .f32) (main_arg7 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S16384x128 : Shape := ⟨2, ![16384, 128]⟩
abbrev S2x262144 : Shape := ⟨2, ![2, 262144]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x262144 : Shape := ⟨2, ![1, 262144]⟩
abbrev S262144 : Shape := ⟨1, ![262144]⟩
abbrev S16384x256 : Shape := ⟨2, ![16384, 256]⟩
abbrev S2048x128 : Shape := ⟨2, ![2048, 128]⟩
abbrev S2048x256 : Shape := ⟨2, ![2048, 256]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S1x16 : Shape := ⟨2, ![1, 16]⟩
abbrev S16384x16 : Shape := ⟨2, ![16384, 16]⟩
abbrev S16x16 : Shape := ⟨2, ![16, 16]⟩
abbrev S2048x16 : Shape := ⟨2, ![2048, 16]⟩
abbrev S2048 : Shape := ⟨1, ![2048]⟩
abbrev S2048x1 : Shape := ⟨2, ![2048, 1]⟩
abbrev S16x2048 : Shape := ⟨2, ![16, 2048]⟩

abbrev nBuf : Space → Nat
  | .hbm => 64
  | .vmem => 20
  | .smem => 0
  | _ => 0

abbrev bufTy : (tb : Table) → Fin (tcTables nBuf tb) → BufTy
  | .hbm, ⟨0, _⟩ => ⟨S16384x128, .f32⟩
  | .hbm, ⟨1, _⟩ => ⟨S2x262144, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x16, .f32⟩
  | .hbm, ⟨7, _⟩ => ⟨S16, .f32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S16384x256, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S_, .f32⟩
  | .hbm, ⟨23, _⟩ => ⟨S16384x256, .f32⟩
  | .hbm, ⟨24, _⟩ => ⟨S262144x1, .i32⟩
  | .hbm, ⟨25, _⟩ => ⟨S16384x256, .f32⟩
  | .hbm, ⟨26, _⟩ => ⟨S1x256, .f32⟩
  | .hbm, ⟨27, _⟩ => ⟨S16384x256, .f32⟩
  | .hbm, ⟨28, _⟩ => ⟨S_, .i32⟩
  | .hbm, ⟨29, _⟩ => ⟨S262144, .i32⟩
  | .hbm, ⟨30, _⟩ => ⟨S262144, .i1⟩
  | .hbm, ⟨31, _⟩ => ⟨S_, .i32⟩
  | .hbm, ⟨32, _⟩ => ⟨S262144, .i32⟩
  | .hbm, ⟨33, _⟩ => ⟨S262144, .i32⟩
  | .hbm, ⟨34, _⟩ => ⟨S262144, .i32⟩
  | .hbm, ⟨35, _⟩ => ⟨S262144x1, .i32⟩
  | .hbm, ⟨36, _⟩ => ⟨S262144x256, .f32⟩
  | .hbm, ⟨37, _⟩ => ⟨S_, .f32⟩
  | .hbm, ⟨38, _⟩ => ⟨S16384x256, .f32⟩
  | .hbm, ⟨39, _⟩ => ⟨S262144x1, .i32⟩
  | .hbm, ⟨40, _⟩ => ⟨S16384x256, .f32⟩
  | .hbm, ⟨41, _⟩ => ⟨S1x256, .f32⟩
  | .hbm, ⟨42, _⟩ => ⟨S1x16, .f32⟩
  | .hbm, ⟨43, _⟩ => ⟨S16384x16, .f32⟩
  | .hbm, ⟨44, _⟩ => ⟨S16x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S16x16, .f32⟩
  | .hbm, ⟨49, _⟩ => ⟨S16x16, .i32⟩
  | .hbm, ⟨50, _⟩ => ⟨S16x16, .i32⟩
  | .hbm, ⟨51, _⟩ => ⟨S_, .i32⟩
  | .hbm, ⟨52, _⟩ => ⟨S16x16, .i32⟩
  | .hbm, ⟨53, _⟩ => ⟨S16x16, .i32⟩
  | .hbm, ⟨54, _⟩ => ⟨S16x16, .i1⟩
  | .hbm, ⟨55, _⟩ => ⟨S_, .f32⟩
  | .hbm, ⟨56, _⟩ => ⟨S16x16, .f32⟩
  | .hbm, ⟨57, _⟩ => ⟨S16x16, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S1x256, .f32⟩
  | .local _ .vmem, ⟨8, _⟩ => ⟨S256x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S1x256, .f32⟩
  | .local _ .vmem, ⟨14, _⟩ => ⟨S256x16, .f32⟩
  | .local _ .vmem, ⟨15, _⟩ => ⟨S1x16, .f32⟩
  | .local _ .vmem, ⟨16, _⟩ => ⟨S2048x16, .f32⟩
  | .local _ .vmem, ⟨17, _⟩ => ⟨S2048x16, .f32⟩
  | .local _ .vmem, ⟨18, _⟩ => ⟨S16x16, .f32⟩
  | .local _ .vmem, ⟨19, _⟩ => ⟨S16x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_c : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_cst : Ref sig .tc := ⟨.hbm, 55, rfl⟩
abbrev main_call0_v5 : Ref sig .tc := ⟨.hbm, 56, rfl⟩
abbrev main_call0_v6 : Ref sig .tc := ⟨.hbm, 57, rfl⟩
abbrev main_call0_cst_0 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_19 : BitVec 32 := 0#32
  let v40 : BitVec 1 := Scalar.cmpi .ne v39 c0_i32_19
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2048x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S16x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2048x256_S2048x256_0_0 : ∀ a, (![0, 0] : Fin 2 → Nat) a + S2048x256.size a ≤ S2048x256.size a
  h_S2048x256 : 0 < S2048x256.numel
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  shapeCasts_S256_S1x256 : S256.ShapeCasts S1x256
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S16_S1x16 : S16.ShapeCasts S1x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  shapeCasts_S2048_S2048x1 : S2048.ShapeCasts S2048x1
  broadcasts_S2048x1_S2048x16 : S2048x1.Broadcasts S2048x16
  inb_S2048x16_S2048x16_0_0 : ∀ a, (![0, 0] : Fin 2 → Nat) a + S2048x16.size a ≤ S2048x16.size a
  h_S2048x16 : 0 < S2048x16.numel
  transposes_S2048x16_p1_0_S16x2048 : S2048x16.Transposes [1, 0] S16x2048
  bcast_S_S16x16 : S_.BroadcastsInDim S16x16 (![] : Fin 0 → Fin S16x16.rank)
  reducesTo_S16x16_S_d0_1 : S16x16.ReducesTo [0, 1] S_
  h_S_ : 0 < S_.numel
  dot_S2048x128_S128x256_S2048x256_1_0_0_1_n_n_wf : DotDims.WF S2048x128 S128x256 S2048x256 [1] [0] [0] [1] [] []
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S2048x256_S256x256_S2048x256_1_0_0_1_n_n_wf : DotDims.WF S2048x256 S256x256 S2048x256 [1] [0] [0] [1] [] []
  dot_S2048x256_S256x16_S2048x16_1_0_0_1_n_n_wf : DotDims.WF S2048x256 S256x16 S2048x16 [1] [0] [0] [1] [] []
  dot_S16x2048_S2048x16_S16x16_1_0_0_1_n_n_wf : DotDims.WF S16x2048 S2048x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S16384x256.size a
  hwx1_3 : ∀ i : grid1.Coords, EltTy.bits .f32 = 32 ∨ (Rect.block (s := S16384x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S16384x256.size a
  hwx2_0 : ∀ i : grid2.Coords, EltTy.bits .f32 = 32 ∨ (Rect.block (s := S16384x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x16.size a ≤ S256x16.size a
  hwx2_2 : ∀ i : grid2.Coords, EltTy.bits .f32 = 32 ∨ (Rect.block (s := S256x16) S256x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x16.size a ≤ S16384x16.size a
  hwx2_4 : ∀ i : grid2.Coords, EltTy.bits .f32 = 32 ∨ (Rect.block (s := S16384x16) S2048x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x16.size a ≤ S16x16.size a
  hwx2_5 : ∀ i : grid2.Coords, EltTy.bits .f32 = 32 ∨ (Rect.block (s := S16x16) S16x16.size (cc2_transform_5 i) (hinb2_5 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf
def dot_S16x2048_S2048x16_S16x16_1_0_0_1_n_n : DotDims S16x2048 S2048x16 S16x16 where
  lhsContracting := [1]
  rhsContracting := [0]
  lhsNonContracting := [0]
  rhsNonContracting := [1]
  lhsBatch := []
  rhsBatch := []
  wf := dot_S16x2048_S2048x16_S16x16_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29_0) S2048x16.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v29_1) S16x16.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S2x262144 : Shape := ⟨2, ![2, 262144]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1x262144 : Shape := ⟨2, ![1, 262144]⟩
abbrev S262144 : Shape := ⟨1, ![262144]⟩
abbrev S16384x256 : Shape := ⟨2, ![16384, 256]⟩
abbrev S_ : Shape := ⟨0, ![]⟩
abbrev S262144x1 : Shape := ⟨2, ![262144, 1]⟩
abbrev S262144x256 : Shape := ⟨2, ![262144, 256]⟩
abbrev S1x256 : Shape := ⟨2, ![1, 256]⟩
abbrev S16384x16 : Shape := ⟨2, ![16384, 16]⟩
abbrev S1x16 : Shape := ⟨2, ![1, 16]⟩
abbrev S16384x16384 : Shape := ⟨2, ![16384, 16384]⟩
abbrev S262144x2 : Shape := ⟨2, ![262144, 2]⟩
abbrev S16384 : Shape := ⟨1, ![16384]⟩
abbrev S16384x1 : Shape := ⟨2, ![16384, 1]⟩
abbrev S16x16384 : Shape := ⟨2, ![16, 16384]⟩
abbrev S16x256 : Shape := ⟨2, ![16, 256]⟩
abbrev S16x16 : Shape := ⟨2, ![16, 16]⟩
abbrev S16x1 : Shape := ⟨2, ![16, 1]⟩

abbrev nBuf : Space → Nat
  | .hbm => 141
  | .vmem => 0
  | .smem => 0
  | _ => 0

abbrev hbmTy0_0 (i : Nat) : BufTy := match i % 128 with
  | 0 => ⟨S16384x128, .f32⟩
  | 1 => ⟨S2x262144, .i32⟩
  | 2 => ⟨S128x256, .f32⟩
  | 3 => ⟨S256, .f32⟩
  | 4 => ⟨S256x256, .f32⟩
  | 5 => ⟨S256, .f32⟩
  | 6 => ⟨S256x16, .f32⟩
  | 7 => ⟨S16, .f32⟩
  | 8 => ⟨S1x262144, .i32⟩
  | 9 => ⟨S262144, .i32⟩
  | 10 => ⟨S1x262144, .i32⟩
  | 11 => ⟨S262144, .i32⟩
  | 12 => ⟨S16384x256, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S262144x1, .i32⟩
  | 21 => ⟨S262144x256, .f32⟩
  | 22 => ⟨S_, .f32⟩
  | 23 => ⟨S16384x256, .f32⟩
  | 24 => ⟨S262144x1, .i32⟩
  | 25 => ⟨S16384x256, .f32⟩
  | 26 => ⟨S1x256, .f32⟩
  | 27 => ⟨S16384x256, .f32⟩
  | 28 => ⟨S16384x256, .f32⟩
  | 29 => ⟨S_, .f32⟩
  | 30 => ⟨S16384x256, .f32⟩
  | 31 => ⟨S16384x256, .f32⟩
  | 32 => ⟨S16384x256, .f32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S262144x256, .f32⟩
  | 42 => ⟨S_, .f32⟩
  | 43 => ⟨S16384x256, .f32⟩
  | 44 => ⟨S262144x1, .i32⟩
  | 45 => ⟨S16384x256, .f32⟩
  | 46 => ⟨S1x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S16384x16, .f32⟩
  | 53 => ⟨S1x16, .f32⟩
  | 54 => ⟨S16384x16, .f32⟩
  | 55 => ⟨S16384x16, .f32⟩
  | 56 => ⟨S_, .f32⟩
  | 57 => ⟨S16384x16384, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144x1, .i32⟩
  | 74 => ⟨S262144x2, .i32⟩
  | 75 => ⟨S_, .f32⟩
  | 76 => ⟨S262144, .f32⟩
  | 77 => ⟨S16384x16384, .f32⟩
  | 78 => ⟨S_, .f32⟩
  | 79 => ⟨S16384, .f32⟩
  | 80 => ⟨S_, .f32⟩
  | 81 => ⟨S16384, .f32⟩
  | 82 => ⟨S16384, .f32⟩
  | 83 => ⟨S16384x1, .f32⟩
  | 84 => ⟨S16384x16, .f32⟩
  | 85 => ⟨S16384x16, .f32⟩
  | 86 => ⟨S16384x16, .f32⟩
  | 87 => ⟨S_, .f32⟩
  | 88 => ⟨S16384, .f32⟩
  | 89 => ⟨S16384x1, .f32⟩
  | 90 => ⟨S16384x16, .f32⟩
  | 91 => ⟨S16384x16, .f32⟩
  | 92 => ⟨S16x16384, .f32⟩
  | 93 => ⟨S16x256, .f32⟩
  | 94 => ⟨S16x16384, .f32⟩
  | 95 => ⟨S16x16384, .f32⟩
  | 96 => ⟨S16x16, .f32⟩
  | 97 => ⟨S16x16384, .f32⟩
  | 98 => ⟨S16x16, .f32⟩
  | 99 => ⟨S_, .f32⟩
  | 100 => ⟨S16x16, .f32⟩
  | 101 => ⟨S16x16, .f32⟩
  | 102 => ⟨S16x16, .f32⟩
  | 103 => ⟨S16x16, .i32⟩
  | 104 => ⟨S16x16, .i32⟩
  | 105 => ⟨S_, .i32⟩
  | 106 => ⟨S16x16, .i32⟩
  | 107 => ⟨S16x16, .i32⟩
  | 108 => ⟨S16x16, .i1⟩
  | 109 => ⟨S_, .f32⟩
  | 110 => ⟨S16x16, .f32⟩
  | 111 => ⟨S16x16, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S16x16, .i32⟩
  | 119 => ⟨S16x16, .i32⟩
  | 120 => ⟨S_, .i32⟩
  | 121 => ⟨S16x16, .i32⟩
  | 122 => ⟨S16x16, .i32⟩
  | 123 => ⟨S16x16, .i1⟩
  | 124 => ⟨S16x16, .f32⟩
  | 125 => ⟨S_, .f32⟩
  | 126 => ⟨S16x16, .f32⟩
  | 127 => ⟨S16x16, .f32⟩
  | _ => ⟨S16384x128, .f32⟩

abbrev hbmTy0_1 (i : Nat) : BufTy := match i % 128 with
  | 0 => ⟨S16x16, .f32⟩
  | 1 => ⟨S_, .f32⟩
  | 2 => ⟨S16, .f32⟩
  | 3 => ⟨S16, .f32⟩
  | 4 => ⟨S1x16, .f32⟩
  | 5 => ⟨S_, .f32⟩
  | 6 => ⟨S1x16, .f32⟩
  | 7 => ⟨S1x16, .f32⟩
  | 8 => ⟨S16x16, .f32⟩
  | 9 => ⟨S16x16, .f32⟩
  | 10 => ⟨S16x1, .f32⟩
  | 11 => ⟨S16x16, .f32⟩
  | 12 => ⟨S16x16, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_v0 : Ref sig .tc := ⟨.hbm, 103, rfl⟩
abbrev main_call2_v1 : Ref sig .tc := ⟨.hbm, 104, rfl⟩
abbrev main_call2_c : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_cst : Ref sig .tc := ⟨.hbm, 109, rfl⟩
abbrev main_call2_v5 : Ref sig .tc := ⟨.hbm, 110, rfl⟩
abbrev main_call2_v6 : Ref sig .tc := ⟨.hbm, 111, rfl⟩
abbrev main_call2_cst_0 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_15 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16384 : S_.BroadcastsInDim S16384x16384 (![] : Fin 0 → Fin S16384x16384.rank)
  concatenates_S262144x1_S262144x1_S262144x2_d1 : Shape.Concatenates [S262144x1, S262144x1] S262144x2 1
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  transposes_S16384x16_S16x16384_1_0 : S16384x16.Transposes [1, 0] S16x16384
  bcast_S_S16x16 : S_.BroadcastsInDim S16x16 (![] : Fin 0 → Fin S16x16.rank)
  reducesTo_S16x16_S_d0_1 : S16x16.ReducesTo [0, 1] S_
  reducesTo_S16x16_S16_d1 : S16x16.ReducesTo [1] S16
  bcast_S_S1x16 : S_.BroadcastsInDim S1x16 (![] : Fin 0 → Fin S1x16.rank)
  bcast_S1x16_S16x16_0_1 : S1x16.BroadcastsInDim S16x16 (![0, 1] : Fin 2 → Fin S16x16.rank)
  transposes_S1x16_S16x1_1_0 : S1x16.Transposes [1, 0] S16x1
  bcast_S16x1_S16x16_0_1 : S16x1.BroadcastsInDim S16x16 (![0, 1] : Fin 2 → Fin S16x16.rank)
  dot_S16384x128_S128x256_S16384x256_1_0_0_1_n_n_wf : DotDims.WF S16384x128 S128x256 S16384x256 [1] [0] [0] [1] [] []
  gather_S16384x256_S262144x1_S262144x256_1_0_n_n_0_1_1256_wf : GatherDims.WF S16384x256 S262144x1 S262144x256 [1] [0] [] [0] [] 1 ![1, 256]
  scatter_S16384x256_S262144x1_S262144x256_1_0_0_1_wf : ScatterDims.WF S16384x256 S262144x1 S262144x256 [1] [0] [0] 1
  dot_S16384x256_S256x256_S16384x256_1_0_0_1_n_n_wf : DotDims.WF S16384x256 S256x256 S16384x256 [1] [0] [0] [1] [] []
  dot_S16384x256_S256x16_S16384x16_1_0_0_1_n_n_wf : DotDims.WF S16384x256 S256x16 S16384x16 [1] [0] [0] [1] [] []
  scatter_S16384x16384_S262144x2_S262144_n_01_01_1_wf : ScatterDims.WF S16384x16384 S262144x2 S262144 [] [0, 1] [0, 1] 1
  dot_S16x16384_S16384x256_S16x256_1_0_0_1_n_n_wf : DotDims.WF S16x16384 S16384x256 S16x256 [1] [0] [0] [1] [] []
  dot_S16x16384_S16384x16384_S16x16384_1_0_0_1_n_n_wf : DotDims.WF S16x16384 S16384x16384 S16x16384 [1] [0] [0] [1] [] []
  dot_S16x16384_S16384x16_S16x16_1_0_0_1_n_n_wf : DotDims.WF S16x16384 S16384x16 S16x16 [1] [0] [0] [1] [] []

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf
def scatter_S16384x256_S262144x1_S262144x256_1_0_0_1 : ScatterDims S16384x256 S262144x1 S262144x256 where
  updateWindowDims := [1]
  insertedWindowDims := [0]
  scatterDimsToOperandDims := [0]
  indexVectorDim := 1
  wf := scatter_S16384x256_S262144x1_S262144x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x16_S16384x16_1_0_0_1_n_n : DotDims S16384x256 S256x16 S16384x16 where
  lhsContracting := [1]
  rhsContracting := [0]
  lhsNonContracting := [0]
  rhsNonContracting := [1]
  lhsBatch := []
  rhsBatch := []
  wf := dot_S16384x256_S256x16_S16384x16_1_0_0_1_n_n_wf
def scatter_S16384x16384_S262144x2_S262144_n_01_01_1 : ScatterDims S16384x16384 S262144x2 S262144 where
  updateWindowDims := []
  insertedWindowDims := [0, 1]
  scatterDimsToOperandDims := [0, 1]
  indexVectorDim := 1
  wf := scatter_S16384x16384_S262144x2_S262144_n_01_01_1_wf
def dot_S16x16384_S16384x256_S16x256_1_0_0_1_n_n : DotDims S16x16384 S16384x256 S16x256 where
  lhsContracting := [1]
  rhsContracting := [0]
  lhsNonContracting := [0]
  rhsNonContracting := [1]
  lhsBatch := []
  rhsBatch := []
  wf := dot_S16x16384_S16384x256_S16x256_1_0_0_1_n_n_wf
def dot_S16x16384_S16384x16384_S16x16384_1_0_0_1_n_n : DotDims S16x16384 S16384x16384 S16x16384 where
  lhsContracting := [1]
  rhsContracting := [0]
  lhsNonContracting := [0]
  rhsNonContracting := [1]
  lhsBatch := []
  rhsBatch := []
  wf := dot_S16x16384_S16384x16384_S16x16384_1_0_0_1_n_n_wf
def dot_S16x16384_S16384x16_S16x16_1_0_0_1_n_n : DotDims S16x16384 S16384x16 S16x16 where
  lhsContracting := [1]
  rhsContracting := [0]
  lhsNonContracting := [0]
  rhsNonContracting := [1]
  lhsBatch := []
  rhsBatch := []
  wf := dot_S16x16384_S16384x16_S16x16_1_0_0_1_n_n_wf

class Facts : Prop extends Facts₀ where

variable [Facts]
-- ==== Proof.K.Reg0.lean ====
/-
  The first dense layer's kernel region: eight row tiles of 2048 nodes, each tile the product of the tile's
  feature rows with the whole weight matrix. What the region's staging buffers hold after the body at each tile,
  and that the body, run on them, leaves exactly that.
-/
import proofs.«142186_j22943715295834_1_alg».proof.Proof.Gen.Kernel.Launch
import proofs.«142186_j22943715295834_1_alg».proof.Proof.Gen.Kernel.Skeleton
import proofs.«142186_j22943715295834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2048x128 := Rect.unit (s := S2048x128) ![0, 0] S2048x128.size inb_S2048x128_S2048x128_0_0
abbrev rW0 : Rect S128x256 := Rect.unit (s := S128x256) ![0, 0] S128x256.size inb_S128x256_S128x256_0_0
abbrev rO0 : Rect S2048x256 := Rect.unit (s := S2048x256) ![0, 0] S2048x256.size inb_S2048x256_S2048x256_0_0

/-- The output tile after the body: the product of the feature tile and the weights, stored whole. -/
def out0_2 (x0 : Vec F S2048x128 .f32) (x1 : Vec F S128x256 .f32) : Vec F S2048x256 .f32 :=
  View.canon [⟨rO0, k0_pay1 (View.ld x0 rX0) (View.ld x1 rW0)⟩]

/-- The region's proof data from the entry contents: the inputs' buffers keep their blocks, the output's holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The feature tile's current staging buffer holds its block at every tile, for any proof data whose array is the
    entry contents' and whose body leaves the block in place: the window is uncut and never idle, so a tile at which
    it is not fetched finds the block the tile before left, whose index is this tile's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights, fetched at the first tile only: their block index never moves, so every later tile
    finds the whole weight matrix where the first tile's fetch put it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The single store of the product is the whole output tile, so it covers it. -/
theorem cover0_2 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

set_option maxHeartbeats 1000000 in
/-- The kernel body on whole staging memrefs, the feature tile's and the weights' at read contents and the output's at
    anything, runs to the continuation holding the inputs' as they were and the output's at the product of the two. -/
theorem sound_kernel0 (c : Dev nD) (E : Set ℕ) (i : grid0.Coords) (arg1 : Memref sig .tc .vmem S2048x128 .f32) (harg1 : arg1.IsWhole) (arg2 : Memref sig .tc .vmem S128x256 .f32) (harg2 : arg2.IsWhole) (arg3 : Memref sig .tc .vmem S2048x256 .f32) (harg3 : arg3.IsWhole)
    (x0 : Vec F S2048x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any tile: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region at every tile. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The second dense layer's kernel region: eight row tiles of 2048 nodes; each tile adds the bias row to the
  aggregated features, rectifies, and multiplies by the whole weight matrix. What the staging buffers hold
  after the body at each tile, and that the body leaves exactly that.
-/
import proofs.«142186_j22943715295834_1_alg».proof.Proof.Gen.Kernel.Launch
import proofs.«142186_j22943715295834_1_alg».proof.Proof.Gen.Kernel.Skeleton
import proofs.«142186_j22943715295834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S2048x256 := Rect.unit (s := S2048x256) ![0, 0] S2048x256.size inb_S2048x256_S2048x256_0_0
abbrev rB1 : Rect S1x256 := Rect.unit (s := S1x256) ![0, 0] S1x256.size inb_S1x256_S1x256_0_0
abbrev rW1 : Rect S256x256 := Rect.unit (s := S256x256) ![0, 0] S256x256.size inb_S256x256_S256x256_0_0

/-- The output tile after the body: the rectified biased tile times the weights, stored whole. -/
def out1_3 (x0 : Vec F S2048x256 .f32) (x1 : Vec F S1x256 .f32) (x2 : Vec F S256x256 .f32) : Vec F S2048x256 .f32 :=
  View.canon [⟨rA1, k1_pay1 (View.ld x0 rA1) (View.ld x1 rB1) (View.ld x2 rW1)⟩]

/-- The region's proof data from the entry contents. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- The hidden tile's current staging buffer holds its block at every tile, for any proof data whose array is the
    entry contents' and whose body leaves the block in place: the window is uncut and never idle, so a tile at which
    it is not fetched finds the block the tile before left, whose index is this tile's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row, fetched at the first tile only: its block index never moves, so every later tile
    finds the whole row where the first tile's fetch put it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- And for the weights, likewise fetched at the first tile only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The single store of the product is the whole output tile, so it covers it. -/
theorem cover1_3 (p0 : Vec F S2048x256 .f32) (y : S2048x256.Idx) :
    ∃ pc ∈ ([⟨rA1, p0⟩] : List (View.Piece (Elt F) S2048x256 .f32)), y ∈ pc.1.set :=
  View.cover_of_tiled [⟨rA1, p0⟩] S2048x256.size (by rfl) y

set_option maxHeartbeats 1000000 in
/-- The kernel body on whole staging memrefs, the hidden tile's, the bias row's and the weights' at read contents and
    the output's at anything, runs to the continuation holding the inputs' as they were and the output's at the
    rectified biased tile times the weights. -/
theorem sound_kernel1 (c : Dev nD) (E : Set ℕ) (i : grid1.Coords) (arg1 : Memref sig .tc .vmem S2048x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S2048x256 .f32) (harg4 : arg4.IsWhole)
    (x0 : Vec F S2048x256 .f32) (x1 : Vec F S1x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input's current staging buffer holds its block at every tile, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any tile: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region at every tile. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The cluster head's kernel region: eight row tiles of 2048 nodes. Each tile adds the bias row to the aggregated
  features, rectifies, multiplies by the head's weights, adds the head's bias row and takes the softmax of every
  row: the tile of soft assignments. A 16x16 accumulator kept between tiles is cleared at the first tile and
  gains each tile's Gram matrix (the tile's transpose times the tile); the last tile copies it out.
  What the staging buffers and the accumulator hold after the body at each tile, and that the body leaves exactly that.
-/
import proofs.«142186_j22943715295834_1_alg».proof.Proof.Gen.Kernel.Launch
import proofs.«142186_j22943715295834_1_alg».proof.Proof.Gen.Kernel.Skeleton
import proofs.«142186_j22943715295834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator, a whole scoped buffer of the kernel's own. -/
abbrev scM2 : Memref sig .tc .vmem S16x16 .f32 := Memref.whole cc2_scratch0

/-- The tile of soft assignments at tile `t`: the body's softmax payload of the four input blocks. -/
def sblk2 (c : Dev nD) (t : Fin cfg2.N) : Vec F S2048x16 .f32 :=
  k2_pay3 (iblk2 V c 0 t) (iblk2 V c 1 t) (iblk2 V c 2 t) (iblk2 V c 3 t)

/-- The accumulator after the body at tile `n`: the cleared accumulator plus the first tile's Gram matrix, then each
    later tile's added to what the tile before left. -/
def accAt2 (c : Dev nD) : (n : ℕ) → n < cfg2.N → Vec F S16x16 .f32
  | 0, hn => k2_pay1 (k2_pay4 (iblk2 V c 0 ⟨0, hn⟩) (iblk2 V c 1 ⟨0, hn⟩) (iblk2 V c 2 ⟨0, hn⟩) (iblk2 V c 3 ⟨0, hn⟩) (k2_pay2 (F := F)))
  | n + 1, hn => k2_pay1 (k2_pay4 (iblk2 V c 0 ⟨n + 1, hn⟩) (iblk2 V c 1 ⟨n + 1, hn⟩) (iblk2 V c 2 ⟨n + 1, hn⟩) (iblk2 V c 3 ⟨n + 1, hn⟩)
      (accAt2 c n (Nat.lt_of_succ_lt hn)))

/-- The core's scoped buffers that belong to the other two regions (their staging buffers), each whole at some
    contents: the body of this region never touches them, and the invariant carries them from tile to tile. -/
def rest11_2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before tile `n`: before the first tile the scoped rest at anything and the generator
    register; afterwards the accumulator at what the tile before left, the other regions' staging buffers at
    anything, and the generator register. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn)) ∗ rest11_2 (F := F) c ∗ (∃ r, prngReg c r))

/-- The region's proof data from the entry contents: the four inputs' buffers keep their blocks, the assignments'
    buffer holds the tile's softmax, the Gram output's buffer (stored only at the last tile, idle before) the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sblk2 V c t
    | ⟨5, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = sblk2 V c t := by dsimp only [dat2]
theorem after2_5 (c : Dev nD) (t : Fin cfg2.N) : (dat2 V c).after 5 t = accAt2 V c t.val t.isLt := by dsimp only [dat2]

/-! ## The accumulator and the invariant, tile by tile -/

/-- At the first tile the accumulator ends at the cleared accumulator plus that tile's Gram matrix. -/
theorem accAt2_zero (c : Dev nD) (t : Fin cfg2.N) (h0 : t.val = 0) :
    accAt2 V c t.val t.isLt = k2_pay1 (k2_pay4 (iblk2 V c 0 t) (iblk2 V c 1 t) (iblk2 V c 2 t) (iblk2 V c 3 t) (k2_pay2 (F := F))) := by
  obtain ⟨n, hn⟩ := t
  cases n with
  | zero => rfl
  | succ n => exact absurd h0 (Nat.succ_ne_zero n)

/-- At a later tile it ends at what the tile before left plus this tile's Gram matrix. -/
theorem accAt2_pos (c : Dev nD) (t : Fin cfg2.N) (h0 : t.val ≠ 0) :
    accAt2 V c t.val t.isLt = k2_pay1 (k2_pay4 (iblk2 V c 0 t) (iblk2 V c 1 t) (iblk2 V c 2 t) (iblk2 V c 3 t)
      (accAt2 V c (t.val - 1) (Nat.lt_of_le_of_lt (Nat.sub_le _ _) t.isLt))) := by
  obtain ⟨n, hn⟩ := t
  cases n with
  | zero => exact absurd rfl h0
  | succ n => rfl

theorem PhiS2_zero (c : Dev nD) (n : ℕ) (h : n ≤ cfg2.N) (hz : n = 0) : PhiS2 V c n h = Pipeline.ΦA spec2 c := by
  subst hz; rfl

/-- After tile `n` (before tile `n + 1`): the accumulator at that tile's contents. -/
theorem PhiS2_succ (c : Dev nD) (n : ℕ) (hn : n < cfg2.N) :
    PhiS2 V c (n + 1) hn = iprop(iprop(owns (c : Thread nD τ) scM2 fullShare (accAt2 V c n hn)) ∗ rest11_2 (F := F) c ∗ (∃ r, prngReg c r)) := rfl

/-- Before a tile that is not the first: the accumulator at what the tile before left. -/
theorem PhiS2_pos (c : Dev nD) (n : ℕ) (h : n ≤ cfg2.N) (hz : n ≠ 0) :
    PhiS2 V c n h = iprop(iprop(owns (c : Thread nD τ) scM2 fullShare (accAt2 V c (n - 1) (by omega))) ∗ rest11_2 (F := F) c ∗ (∃ r, prngReg c r)) := by
  cases n with
  | zero => exact absurd rfl hz
  | succ n => rfl

/-- The invariant at a tile's start, restated at the tile's number. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the launch hands the region gives the accumulator as a memref owned at some contents and the other
    regions' staging buffers set apart, -/
theorem PhiA2_split (c : Dev nD) :
    (Pipeline.ΦA spec2 c : sProp 𝕄)
      ⊢ iprop(iprop((∃ d, owns (c : Thread nD τ) scM2 fullShare d) ∗ rest11_2 (F := F) c) ∗ (∃ r, prngReg c r)) := by
  unfold Pipeline.ΦA rest11_2; rw [scopedRest2_eq]; simp only [scM2, owns_whole]
  iintro ⟨⟨R1, R2, R3, R4, R5, R6, R7, R8, R9, R10, R11, HS⟩, Hg⟩
  isplitl [HS R1 R2 R3 R4 R5 R6 R7 R8 R9 R10 R11]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

/-- and is given back by them. -/
theorem PhiA2_join (c : Dev nD) :
    iprop(iprop((∃ d, owns (c : Thread nD τ) scM2 fullShare d) ∗ rest11_2 (F := F) c) ∗ (∃ r, prngReg c r))
      ⊢ (Pipeline.ΦA spec2 c : sProp 𝕄) := by
  unfold Pipeline.ΦA rest11_2; rw [scopedRest2_eq]; simp only [scM2, owns_whole]
  iintro ⟨⟨HS, R1, R2, R3, R4, R5, R6, R7, R8, R9, R10, R11⟩, Hg⟩
  isplitl [HS R1 R2 R3 R4 R5 R6 R7 R8 R9 R10 R11]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

theorem PhiA2_eq (c : Dev nD) :
    (Pipeline.ΦA spec2 c : sProp 𝕄)
      = iprop(iprop((∃ d, owns (c : Thread nD τ) scM2 fullShare d) ∗ rest11_2 (F := F) c) ∗ (∃ r, prngReg c r)) :=
  Idealize.SL.BI.Entails.antisymm (PhiA2_split c) (PhiA2_join c)

/-! ## The body's two conditions and where the Gram output is idle -/

/-- The condition of the body's first branch (clear the accumulator), from the grid coordinate. -/
abbrev cond2_0 (i : grid2.Coords) : Prop := (Scalar.cmpi .ne (Scalar.extui (Scalar.cmpi .eq (BitVec.ofNat 32 (i 0).val) 0#32)) 0#32) = 1#1
/-- It holds at the first tile only. -/
theorem hcond2_0 : ∀ t : Fin cfg2.N, cond2_0 (grid2.coords t) ↔ t.val = 0 :=
  (by decide +kernel : ∀ t : Fin grid2.N, cond2_0 (grid2.coords t) ↔ t.val = 0)

/-- The condition of the body's second branch (copy the accumulator out), from the grid coordinate. -/
abbrev cond2_1 (i : grid2.Coords) : Prop := k2_cond2 i = 1#1
/-- It holds at the last tile only. -/
theorem hcond2_1 : ∀ t : Fin cfg2.N, cond2_1 (grid2.coords t) ↔ t.val = 7 :=
  (by decide +kernel : ∀ t : Fin grid2.N, cond2_1 (grid2.coords t) ↔ t.val = 7)

/-- The four inputs and the assignments' window are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Before the last tile the Gram output's window is idle and is not written back; -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- at the last tile it is live. -/
theorem liveAt2_5 : ∀ t : Fin cfg2.N, cond2_1 (grid2.coords t) → cfg2.idle 5 (grid2.coords t) = false := by decide +kernel

/-! ## The inputs' blocks -/

/-- An input's current staging buffer holds its block at every tile, fetched there or not, for any proof data
    whose array is the entry contents' and whose body leaves the block in place: the windows are uncut and never
    idle, and a tile at which one is not fetched finds the block the tile before left, whose index is this tile's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The kernel body on any whole staging memrefs, case by case -/

/-- The zero offsets of every load and store of this body, as a function. -/
theorem hzReg2 : (![0, 0] : Fin 2 → Nat) = fun _ => 0 := funext fun a => by fin_cases a <;> rfl

/-- A whole-block store, last, leaves its payload in the buffer whatever came before: every store of this body is
    one. -/
theorem read_writes_unit_zero_reg2 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- The first tile (the first branch taken, the second not): the inputs' memrefs at read contents, the assignments'
    at anything, the Gram output's at contents handed back untouched, the accumulator at anything; the body runs to
    the continuation holding the assignments' at the softmax payload and the accumulator at the cleared
    accumulator plus the tile's Gram matrix. -/
theorem sound_kernel2_A (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S16x16 .f32) (harg7 : arg7.IsWhole)
    (hc0 : cond2_0 i) (hc1 : ¬cond2_1 i)
    (x0 : Vec F S2048x256 .f32) (x1 : Vec F S1x256 .f32) (x2 : Vec F S256x16 .f32) (x3 : Vec F S1x16 .f32) (xi5 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay3 x0 x1 x2 x3) ∗ owns (c : Thread nD τ) arg6 fullShare xi5
            ∗ owns (c : Thread nD τ) arg7 fullShare (k2_pay1 (k2_pay4 x0 x1 x2 x3 (k2_pay2 (F := F))))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2]
  isplitl [H5]
  · iexists f5; isplitr; · ipureintro; rfl
    iexact H5
  iexists _; isplitr
  swap; · iexact HS0
  ipureintro
  sl_unfold_words
  rw [read_writes_unit_zero_reg2 _ _ hzReg2]
  simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]

set_option maxHeartbeats 1000000 in
/-- A middle tile (neither branch taken): as at the first, but the accumulator comes at what the tile before left
    and ends at that plus the tile's Gram matrix. -/
theorem sound_kernel2_B (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S16x16 .f32) (harg7 : arg7.IsWhole)
    (hc0 : ¬cond2_0 i) (hc1 : ¬cond2_1 i)
    (x0 : Vec F S2048x256 .f32) (x1 : Vec F S1x256 .f32) (x2 : Vec F S256x16 .f32) (x3 : Vec F S1x16 .f32) (xi5 : Vec F S16x16 .f32) (xs0 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay3 x0 x1 x2 x3) ∗ owns (c : Thread nD τ) arg6 fullShare xi5
            ∗ owns (c : Thread nD τ) arg7 fullShare (k2_pay1 (k2_pay4 x0 x1 x2 x3 xs0))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
  subst hf0; subst hf1; subst hf2; subst hf3; subst hf5; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2]
  isplitl [H5]
  · iexists f5; isplitr; · ipureintro; rfl
    iexact H5
  iexists _; isplitr
  swap; · iexact HS0
  ipureintro
  sl_unfold_words
  rw [read_writes_unit_zero_reg2 _ _ hzReg2]
  simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]

set_option maxHeartbeats 1000000 in
/-- The last tile (the second branch taken): the Gram output's memref comes at anything and ends at the
    accumulator's final contents, which the body copies out. -/
theorem sound_kernel2_C (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S16x16 .f32) (harg7 : arg7.IsWhole)
    (hc0 : ¬cond2_0 i) (hc1 : cond2_1 i)
    (x0 : Vec F S2048x256 .f32) (x1 : Vec F S1x256 .f32) (x2 : Vec F S256x16 .f32) (x3 : Vec F S1x16 .f32) (xs0 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay3 x0 x1 x2 x3) ∗ owns (c : Thread nD τ) arg6 fullShare (k2_pay1 (k2_pay4 x0 x1 x2 x3 xs0))
            ∗ owns (c : Thread nD τ) arg7 fullShare (k2_pay1 (k2_pay4 x0 x1 x2 x3 xs0))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  subst hf0; subst hf1; subst hf2; subst hf3; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2]
  isplitl [H5]
  · iexists _; isplitr
    swap; · iexact H5
    ipureintro
    sl_unfold_words
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]
  iexists _; isplitr
  swap; · iexact HS0
  ipureintro
  sl_unfold_words
  rw [read_writes_unit_zero_reg2 _ _ hzReg2]
  simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any tile. The inputs' memrefs hold their blocks; the tile's number says which of the three cases it
    is in. The invariant hands the body the accumulator — at anything at the first tile, afterwards at what the tile
    before left — and takes it back at this tile's contents; the other regions' staging buffers, the generator
    register and the core's debts pass through unread. Before the last tile the Gram output's buffer is handed
    back as found; at the last tile it is left at the accumulator's final contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  unfold sblk2
  have hN : t.val < 8 := lt_of_lt_of_eq t.isLt (show cfg2.N = 8 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1)]
    rw [accAt2_zero V c t h0]
    rw [PhiS2_castSucc V c t, PhiS2_zero V c _ _ h0, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (sound_kernel2_A c Set.univ (grid2.coords t) _ _ _ _ _ _ _ _ _ _ _ _ _ _ hc0 hc1 (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 HR Hg]
    · isplitl [HS0]; · iexact HS0
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond2_0 (grid2.coords t) := fun h => h0 ((hcond2_0 t).mp h)
    rw [accAt2_pos V c t h0]
    rw [PhiS2_castSucc V c t, PhiS2_pos V c _ _ h0]
    by_cases h1 : t.val = 7
    · have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, accAt2_pos V c t h0]
      iintro ⟨⟨HS0, HR, Hg⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ hc0 hc1 (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 HR Hg]
      · isplitl [HS0]; · iexact HS0
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨HS0, HR, Hg⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 HR Hg]
      · isplitl [HS0]; · iexact HS0
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region at every tile. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the scoped rest and the generator register back: the accumulator's
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, HR, Hg⟩
  isplitl [HS0 HR]
  · isplitl [HS0]; · iexists _; iexact HS0
    iexact HR
  iexact Hg

/-- After the last tile the invariant gives the scoped rest and the generator register back: the accumulator's contents are forgotten. -/
theorem hout2 (c : Dev nD) : (dat2 V c).Φ (Fin.last cfg2.N) ⊢ Pipeline.ΦA spec2 c :=
  Phi_out2 V c _ (by rw [Fin.val_last]; have : cfg2.N = 8 := N_2; omega)

end Cert.Kernel.Hand

end
-- ==== Proof.K.Run.lean ====
/-
  The run of the idealized kernel program's @main: three kernel regions among stretches of host operations, from the
  launch to the return. The buffer contents at every segment boundary are a fold from the launch memory (a host
  stretch's `StableHlo.after`; a region's arrays at what its write-backs leave, every other buffer as entered); every
  pipeline's proof data are taken at its region's entry contents; each stretch is a host segment and each region a
  region segment over the thread state "every unscoped buffer at the boundary's contents, the generator register at
  some state, nothing owed". The several-regions launch then says: every weakly fair execution terminates and every
  final memory holds the last boundary's contents at every unscoped buffer; in particular each argument array ends
  as launched. Generic in the float family.
-/
import proofs.«142186_j22943715295834_1_alg».proof.Proof.Gen.Kernel.Launch
import proofs.«142186_j22943715295834_1_alg».proof.Proof.Gen.Kernel.Skeleton
import proofs.«142186_j22943715295834_1_alg».proof.Proof.Gen.Kernel.Points
import proofs.«142186_j22943715295834_1_alg».proof.Proof.Gen.Kernel.Regions
import proofs.«142186_j22943715295834_1_alg».proof.Proof.K.Reg0
import proofs.«142186_j22943715295834_1_alg».proof.Proof.K.Reg1
import proofs.«142186_j22943715295834_1_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- After `hostOps3_1` (the trace function's operations). -/
abbrev W8 : Dev nD → Valuation τ sig (Elt F) := fun c => StableHlo.after hostOps3_1 (W7 m ρ c)
/-- After `hostOps3_2`: the contents at the return. -/
abbrev W9 : Dev nD → Valuation τ sig (Elt F) := fun c => StableHlo.after hostOps3_2 (W8 m ρ c)

/-! ### A host stretch leaves every buffer it does not write as it found it -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W8_of (c : Dev nD) (r : Ref sig .tc) (h : r ∉ hostOps3_1_W) : W8 m ρ c (Proc.devRef .tc r) = W7 m ρ c (Proc.devRef .tc r) :=
  StableHlo.after_of_writes_sub hostOps3_1 _ hostOps3_1_writes h
theorem W9_of (c : Dev nD) (r : Ref sig .tc) (h : r ∉ hostOps3_2_W) : W9 m ρ c (Proc.devRef .tc r) = W8 m ρ c (Proc.devRef .tc r) :=
  StableHlo.after_of_writes_sub hostOps3_2 _ hostOps3_2_writes h

/-! ### The arguments end as launched: no host operation writes one, and a region reads it through an input window
    or bypasses it, so the fold at an argument's buffer walks back to the launch memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := (W6_arr m ρ c 2).trans (((dat2 (V5 m ρ) c).arrAt_in 2 rfl _).trans (A_eq2 (V5 m ρ) c 2))
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents: a literal match, so that the launch's pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed (the launch's chain ends at it beside the core owing nothing): every
    unscoped buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! # The regions as segments -/

-- `iapply` of a library lemma stated over the pinned configuration unifies with it only when unification may unfold
-- plain definitions in a metavariable's type
set_option backward.isDefEq.respectTransparency.types false in
/-- REGION 0 over the thread state: entered from every unscoped buffer at `W1`, left at `W2` (what the next
    segment is entered from). Its arrays split out of the unscoped buffers and put back at the exit contents; the
    generator register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 1 over the thread state: entered from every unscoped buffer at `W3`, left at `W4` (what the next
    segment is entered from). Its arrays split out of the unscoped buffers and put back at the exit contents; the
    generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 2 over the thread state: entered from every unscoped buffer at `W5`, left at `W6` (what the next
    segment is entered from). Its arrays split out of the unscoped buffers and put back at the exit contents; the
    generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]
/-- @main is the run of the segments: the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds the last boundary's contents `W9` at every
    unscoped buffer: the several-regions launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every weakly fair execution of @main terminates, nothing faulting, and every final memory has the
    argument arrays as launched: each argument's buffer is unscoped, so the run gives it at `W9`, which at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all m ρ)

end Cert.Kernel.Hand

end
-- ==== Proof.KI.Reg0.lean ====
/-
  The first dense layer's kernel region: eight row tiles of 2048 nodes, each tile the product of the tile's
  feature rows with the whole weight matrix. What the region's staging buffers hold after the body at each tile,
  and that the body, run on them, leaves exactly that.
-/
import proofs.«142186_j22943715295834_1_alg».proof.Proof.Gen.KernelIdeal.Launch
import proofs.«142186_j22943715295834_1_alg».proof.Proof.Gen.KernelIdeal.Skeleton
import proofs.«142186_j22943715295834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2048x128 := Rect.unit (s := S2048x128) ![0, 0] S2048x128.size inb_S2048x128_S2048x128_0_0
abbrev rW0 : Rect S128x256 := Rect.unit (s := S128x256) ![0, 0] S128x256.size inb_S128x256_S128x256_0_0
abbrev rO0 : Rect S2048x256 := Rect.unit (s := S2048x256) ![0, 0] S2048x256.size inb_S2048x256_S2048x256_0_0

/-- The output tile after the body: the product of the feature tile and the weights, stored whole. -/
def out0_2 (x0 : Vec F S2048x128 .f32) (x1 : Vec F S128x256 .f32) : Vec F S2048x256 .f32 :=
  View.canon [⟨rO0, k0_pay1 (View.ld x0 rX0) (View.ld x1 rW0)⟩]

/-- The region's proof data from the entry contents: the inputs' buffers keep their blocks, the output's holds the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The feature tile's current staging buffer holds its block at every tile, for any proof data whose array is the
    entry contents' and whose body leaves the block in place: the window is uncut and never idle, so a tile at which
    it is not fetched finds the block the tile before left, whose index is this tile's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights, fetched at the first tile only: their block index never moves, so every later tile
    finds the whole weight matrix where the first tile's fetch put it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The single store of the product is the whole output tile, so it covers it. -/
theorem cover0_2 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

set_option maxHeartbeats 1000000 in
/-- The kernel body on whole staging memrefs, the feature tile's and the weights' at read contents and the output's at
    anything, runs to the continuation holding the inputs' as they were and the output's at the product of the two. -/
theorem sound_kernel0 (c : Dev nD) (E : Set ℕ) (i : grid0.Coords) (arg1 : Memref sig .tc .vmem S2048x128 .f32) (harg1 : arg1.IsWhole) (arg2 : Memref sig .tc .vmem S128x256 .f32) (harg2 : arg2.IsWhole) (arg3 : Memref sig .tc .vmem S2048x256 .f32) (harg3 : arg3.IsWhole)
    (x0 : Vec F S2048x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any tile: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second dense layer's kernel region: eight row tiles of 2048 nodes; each tile adds the bias row to the
  aggregated features, rectifies, and multiplies by the whole weight matrix. What the staging buffers hold
  after the body at each tile, and that the body leaves exactly that.
-/
import proofs.«142186_j22943715295834_1_alg».proof.Proof.Gen.KernelIdeal.Launch
import proofs.«142186_j22943715295834_1_alg».proof.Proof.Gen.KernelIdeal.Skeleton
import proofs.«142186_j22943715295834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S2048x256 := Rect.unit (s := S2048x256) ![0, 0] S2048x256.size inb_S2048x256_S2048x256_0_0
abbrev rB1 : Rect S1x256 := Rect.unit (s := S1x256) ![0, 0] S1x256.size inb_S1x256_S1x256_0_0
abbrev rW1 : Rect S256x256 := Rect.unit (s := S256x256) ![0, 0] S256x256.size inb_S256x256_S256x256_0_0

/-- The output tile after the body: the rectified biased tile times the weights, stored whole. -/
def out1_3 (x0 : Vec F S2048x256 .f32) (x1 : Vec F S1x256 .f32) (x2 : Vec F S256x256 .f32) : Vec F S2048x256 .f32 :=
  View.canon [⟨rA1, k1_pay1 (View.ld x0 rA1) (View.ld x1 rB1) (View.ld x2 rW1)⟩]

/-- The region's proof data from the entry contents. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- The hidden tile's current staging buffer holds its block at every tile, for any proof data whose array is the
    entry contents' and whose body leaves the block in place: the window is uncut and never idle, so a tile at which
    it is not fetched finds the block the tile before left, whose index is this tile's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row, fetched at the first tile only: its block index never moves, so every later tile
    finds the whole row where the first tile's fetch put it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- And for the weights, likewise fetched at the first tile only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The single store of the product is the whole output tile, so it covers it. -/
theorem cover1_3 (p0 : Vec F S2048x256 .f32) (y : S2048x256.Idx) :
    ∃ pc ∈ ([⟨rA1, p0⟩] : List (View.Piece (Elt F) S2048x256 .f32)), y ∈ pc.1.set :=
  View.cover_of_tiled [⟨rA1, p0⟩] S2048x256.size (by rfl) y

set_option maxHeartbeats 1000000 in
/-- The kernel body on whole staging memrefs, the hidden tile's, the bias row's and the weights' at read contents and
    the output's at anything, runs to the continuation holding the inputs' as they were and the output's at the
    rectified biased tile times the weights. -/
theorem sound_kernel1 (c : Dev nD) (E : Set ℕ) (i : grid1.Coords) (arg1 : Memref sig .tc .vmem S2048x256 .f32) (harg1 : arg1.IsWhole) (arg2 : Memref sig .tc .vmem S1x256 .f32) (harg2 : arg2.IsWhole) (arg3 : Memref sig .tc .vmem S256x256 .f32) (harg3 : arg3.IsWhole) (arg4 : Memref sig .tc .vmem S2048x256 .f32) (harg4 : arg4.IsWhole)
    (x0 : Vec F S2048x256 .f32) (x1 : Vec F S1x256 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__relu_bias_matmul_kernel i arg1 harg1 arg2 harg2 arg3 harg3 arg4 harg4) K := by
  simp only [cc1__relu_bias_matmul_kernel_eq_skeleton]; unfold cc1__relu_bias_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Each input's current staging buffer holds its block at every tile, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any tile: the inputs' memrefs hold their blocks, so the kernel's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The cluster head's kernel region: eight row tiles of 2048 nodes. Each tile adds the bias row to the aggregated
  features, rectifies, multiplies by the head's weights, adds the head's bias row and takes the softmax of every
  row: the tile of soft assignments. A 16x16 accumulator kept between tiles is cleared at the first tile and
  gains each tile's Gram matrix (the tile's transpose times the tile); the last tile copies it out.
  What the staging buffers and the accumulator hold after the body at each tile, and that the body leaves exactly that.
-/
import proofs.«142186_j22943715295834_1_alg».proof.Proof.Gen.KernelIdeal.Launch
import proofs.«142186_j22943715295834_1_alg».proof.Proof.Gen.KernelIdeal.Skeleton
import proofs.«142186_j22943715295834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at tile `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator, a whole scoped buffer of the kernel's own. -/
abbrev scM2 : Memref sig .tc .vmem S16x16 .f32 := Memref.whole cc2_scratch0

/-- The tile of soft assignments at tile `t`: the body's softmax payload of the four input blocks. -/
def sblk2 (c : Dev nD) (t : Fin cfg2.N) : Vec F S2048x16 .f32 :=
  k2_pay3 (iblk2 V c 0 t) (iblk2 V c 1 t) (iblk2 V c 2 t) (iblk2 V c 3 t)

/-- The accumulator after the body at tile `n`: the cleared accumulator plus the first tile's Gram matrix, then each
    later tile's added to what the tile before left. -/
def accAt2 (c : Dev nD) : (n : ℕ) → n < cfg2.N → Vec F S16x16 .f32
  | 0, hn => k2_pay1 (k2_pay4 (iblk2 V c 0 ⟨0, hn⟩) (iblk2 V c 1 ⟨0, hn⟩) (iblk2 V c 2 ⟨0, hn⟩) (iblk2 V c 3 ⟨0, hn⟩) (k2_pay2 (F := F)))
  | n + 1, hn => k2_pay1 (k2_pay4 (iblk2 V c 0 ⟨n + 1, hn⟩) (iblk2 V c 1 ⟨n + 1, hn⟩) (iblk2 V c 2 ⟨n + 1, hn⟩) (iblk2 V c 3 ⟨n + 1, hn⟩)
      (accAt2 c n (Nat.lt_of_succ_lt hn)))

/-- The core's scoped buffers that belong to the other two regions (their staging buffers), each whole at some
    contents: the body of this region never touches them, and the invariant carries them from tile to tile. -/
def rest11_2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region invariant before tile `n`: before the first tile the scoped rest at anything and the generator
    register; afterwards the accumulator at what the tile before left, the other regions' staging buffers at
    anything, and the generator register. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn)) ∗ rest11_2 (F := F) c ∗ (∃ r, prngReg c r))

/-- The region's proof data from the entry contents: the four inputs' buffers keep their blocks, the assignments'
    buffer holds the tile's softmax, the Gram output's buffer (stored only at the last tile, idle before) the accumulator. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => sblk2 V c t
    | ⟨5, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = sblk2 V c t := by dsimp only [dat2]
theorem after2_5 (c : Dev nD) (t : Fin cfg2.N) : (dat2 V c).after 5 t = accAt2 V c t.val t.isLt := by dsimp only [dat2]

/-! ## The accumulator and the invariant, tile by tile -/

/-- At the first tile the accumulator ends at the cleared accumulator plus that tile's Gram matrix. -/
theorem accAt2_zero (c : Dev nD) (t : Fin cfg2.N) (h0 : t.val = 0) :
    accAt2 V c t.val t.isLt = k2_pay1 (k2_pay4 (iblk2 V c 0 t) (iblk2 V c 1 t) (iblk2 V c 2 t) (iblk2 V c 3 t) (k2_pay2 (F := F))) := by
  obtain ⟨n, hn⟩ := t
  cases n with
  | zero => rfl
  | succ n => exact absurd h0 (Nat.succ_ne_zero n)

/-- At a later tile it ends at what the tile before left plus this tile's Gram matrix. -/
theorem accAt2_pos (c : Dev nD) (t : Fin cfg2.N) (h0 : t.val ≠ 0) :
    accAt2 V c t.val t.isLt = k2_pay1 (k2_pay4 (iblk2 V c 0 t) (iblk2 V c 1 t) (iblk2 V c 2 t) (iblk2 V c 3 t)
      (accAt2 V c (t.val - 1) (Nat.lt_of_le_of_lt (Nat.sub_le _ _) t.isLt))) := by
  obtain ⟨n, hn⟩ := t
  cases n with
  | zero => exact absurd rfl h0
  | succ n => rfl

theorem PhiS2_zero (c : Dev nD) (n : ℕ) (h : n ≤ cfg2.N) (hz : n = 0) : PhiS2 V c n h = Pipeline.ΦA spec2 c := by
  subst hz; rfl

/-- After tile `n` (before tile `n + 1`): the accumulator at that tile's contents. -/
theorem PhiS2_succ (c : Dev nD) (n : ℕ) (hn : n < cfg2.N) :
    PhiS2 V c (n + 1) hn = iprop(iprop(owns (c : Thread nD τ) scM2 fullShare (accAt2 V c n hn)) ∗ rest11_2 (F := F) c ∗ (∃ r, prngReg c r)) := rfl

/-- Before a tile that is not the first: the accumulator at what the tile before left. -/
theorem PhiS2_pos (c : Dev nD) (n : ℕ) (h : n ≤ cfg2.N) (hz : n ≠ 0) :
    PhiS2 V c n h = iprop(iprop(owns (c : Thread nD τ) scM2 fullShare (accAt2 V c (n - 1) (by omega))) ∗ rest11_2 (F := F) c ∗ (∃ r, prngReg c r)) := by
  cases n with
  | zero => exact absurd rfl hz
  | succ n => rfl

/-- The invariant at a tile's start, restated at the tile's number. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the launch hands the region gives the accumulator as a memref owned at some contents and the other
    regions' staging buffers set apart, -/
theorem PhiA2_split (c : Dev nD) :
    (Pipeline.ΦA spec2 c : sProp 𝕄)
      ⊢ iprop(iprop((∃ d, owns (c : Thread nD τ) scM2 fullShare d) ∗ rest11_2 (F := F) c) ∗ (∃ r, prngReg c r)) := by
  unfold Pipeline.ΦA rest11_2; rw [scopedRest2_eq]; simp only [scM2, owns_whole]
  iintro ⟨⟨R1, R2, R3, R4, R5, R6, R7, R8, R9, R10, R11, HS⟩, Hg⟩
  isplitl [HS R1 R2 R3 R4 R5 R6 R7 R8 R9 R10 R11]
  · isplitl [HS]; · iexact HS
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

/-- and is given back by them. -/
theorem PhiA2_join (c : Dev nD) :
    iprop(iprop((∃ d, owns (c : Thread nD τ) scM2 fullShare d) ∗ rest11_2 (F := F) c) ∗ (∃ r, prngReg c r))
      ⊢ (Pipeline.ΦA spec2 c : sProp 𝕄) := by
  unfold Pipeline.ΦA rest11_2; rw [scopedRest2_eq]; simp only [scM2, owns_whole]
  iintro ⟨⟨HS, R1, R2, R3, R4, R5, R6, R7, R8, R9, R10, R11⟩, Hg⟩
  isplitl [HS R1 R2 R3 R4 R5 R6 R7 R8 R9 R10 R11]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  iexact Hg

theorem PhiA2_eq (c : Dev nD) :
    (Pipeline.ΦA spec2 c : sProp 𝕄)
      = iprop(iprop((∃ d, owns (c : Thread nD τ) scM2 fullShare d) ∗ rest11_2 (F := F) c) ∗ (∃ r, prngReg c r)) :=
  Idealize.SL.BI.Entails.antisymm (PhiA2_split c) (PhiA2_join c)

/-! ## The body's two conditions and where the Gram output is idle -/

/-- The condition of the body's first branch (clear the accumulator), from the grid coordinate. -/
abbrev cond2_0 (i : grid2.Coords) : Prop := (Scalar.cmpi .ne (Scalar.extui (Scalar.cmpi .eq (BitVec.ofNat 32 (i 0).val) 0#32)) 0#32) = 1#1
/-- It holds at the first tile only. -/
theorem hcond2_0 : ∀ t : Fin cfg2.N, cond2_0 (grid2.coords t) ↔ t.val = 0 :=
  (by decide +kernel : ∀ t : Fin grid2.N, cond2_0 (grid2.coords t) ↔ t.val = 0)

/-- The condition of the body's second branch (copy the accumulator out), from the grid coordinate. -/
abbrev cond2_1 (i : grid2.Coords) : Prop := k2_cond2 i = 1#1
/-- It holds at the last tile only. -/
theorem hcond2_1 : ∀ t : Fin cfg2.N, cond2_1 (grid2.coords t) ↔ t.val = 7 :=
  (by decide +kernel : ∀ t : Fin grid2.N, cond2_1 (grid2.coords t) ↔ t.val = 7)

/-- The four inputs and the assignments' window are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Before the last tile the Gram output's window is idle and is not written back; -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- at the last tile it is live. -/
theorem liveAt2_5 : ∀ t : Fin cfg2.N, cond2_1 (grid2.coords t) → cfg2.idle 5 (grid2.coords t) = false := by decide +kernel

/-! ## The inputs' blocks -/

/-- An input's current staging buffer holds its block at every tile, fetched there or not, for any proof data
    whose array is the entry contents' and whose body leaves the block in place: the windows are uncut and never
    idle, and a tile at which one is not fetched finds the block the tile before left, whose index is this tile's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The kernel body on any whole staging memrefs, case by case -/

/-- The zero offsets of every load and store of this body, as a function. -/
theorem hzReg2 : (![0, 0] : Fin 2 → Nat) = fun _ => 0 := funext fun a => by fin_cases a <;> rfl

/-- A whole-block store, last, leaves its payload in the buffer whatever came before: every store of this body is
    one. -/
theorem read_writes_unit_zero_reg2 {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

set_option maxHeartbeats 1000000 in
/-- The first tile (the first branch taken, the second not): the inputs' memrefs at read contents, the assignments'
    at anything, the Gram output's at contents handed back untouched, the accumulator at anything; the body runs to
    the continuation holding the assignments' at the softmax payload and the accumulator at the cleared
    accumulator plus the tile's Gram matrix. -/
theorem sound_kernel2_A (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S16x16 .f32) (harg7 : arg7.IsWhole)
    (hc0 : cond2_0 i) (hc1 : ¬cond2_1 i)
    (x0 : Vec F S2048x256 .f32) (x1 : Vec F S1x256 .f32) (x2 : Vec F S256x16 .f32) (x3 : Vec F S1x16 .f32) (xi5 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay3 x0 x1 x2 x3) ∗ owns (c : Thread nD τ) arg6 fullShare xi5
            ∗ owns (c : Thread nD τ) arg7 fullShare (k2_pay1 (k2_pay4 x0 x1 x2 x3 (k2_pay2 (F := F))))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2]
  isplitl [H5]
  · iexists f5; isplitr; · ipureintro; rfl
    iexact H5
  iexists _; isplitr
  swap; · iexact HS0
  ipureintro
  sl_unfold_words
  rw [read_writes_unit_zero_reg2 _ _ hzReg2]
  simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]

set_option maxHeartbeats 1000000 in
/-- A middle tile (neither branch taken): as at the first, but the accumulator comes at what the tile before left
    and ends at that plus the tile's Gram matrix. -/
theorem sound_kernel2_B (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S16x16 .f32) (harg7 : arg7.IsWhole)
    (hc0 : ¬cond2_0 i) (hc1 : ¬cond2_1 i)
    (x0 : Vec F S2048x256 .f32) (x1 : Vec F S1x256 .f32) (x2 : Vec F S256x16 .f32) (x3 : Vec F S1x16 .f32) (xi5 : Vec F S16x16 .f32) (xs0 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xi5 ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay3 x0 x1 x2 x3) ∗ owns (c : Thread nD τ) arg6 fullShare xi5
            ∗ owns (c : Thread nD τ) arg7 fullShare (k2_pay1 (k2_pay4 x0 x1 x2 x3 xs0))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
  subst hf0; subst hf1; subst hf2; subst hf3; subst hf5; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2]
  isplitl [H5]
  · iexists f5; isplitr; · ipureintro; rfl
    iexact H5
  iexists _; isplitr
  swap; · iexact HS0
  ipureintro
  sl_unfold_words
  rw [read_writes_unit_zero_reg2 _ _ hzReg2]
  simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]

set_option maxHeartbeats 1000000 in
/-- The last tile (the second branch taken): the Gram output's memref comes at anything and ends at the
    accumulator's final contents, which the body copies out. -/
theorem sound_kernel2_C (c : Dev nD) (E : Set ℕ) (i : grid2.Coords) (arg1 : Memref sig .tc .vmem S2048x256 .f32) (harg1 : arg1.IsWhole) (arg2 : Memref sig .tc .vmem S1x256 .f32) (harg2 : arg2.IsWhole) (arg3 : Memref sig .tc .vmem S256x16 .f32) (harg3 : arg3.IsWhole) (arg4 : Memref sig .tc .vmem S1x16 .f32) (harg4 : arg4.IsWhole) (arg5 : Memref sig .tc .vmem S2048x16 .f32) (harg5 : arg5.IsWhole) (arg6 : Memref sig .tc .vmem S16x16 .f32) (harg6 : arg6.IsWhole) (arg7 : Memref sig .tc .vmem S16x16 .f32) (harg7 : arg7.IsWhole)
    (hc0 : ¬cond2_0 i) (hc1 : cond2_1 i)
    (x0 : Vec F S2048x256 .f32) (x1 : Vec F S1x256 .f32) (x2 : Vec F S256x16 .f32) (x3 : Vec F S1x16 .f32) (xs0 : Vec F S16x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k2_pay3 x0 x1 x2 x3) ∗ owns (c : Thread nD τ) arg6 fullShare (k2_pay1 (k2_pay4 x0 x1 x2 x3 xs0))
            ∗ owns (c : Thread nD τ) arg7 fullShare (k2_pay1 (k2_pay4 x0 x1 x2 x3 xs0))) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  subst hf0; subst hf1; subst hf2; subst hf3; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2]
  isplitl [H5]
  · iexists _; isplitr
    swap; · iexact H5
    ipureintro
    sl_unfold_words
    rw [read_writes_unit_zero_reg2 _ _ hzReg2]
    simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]
  iexists _; isplitr
  swap; · iexact HS0
  ipureintro
  sl_unfold_words
  rw [read_writes_unit_zero_reg2 _ _ hzReg2]
  simp only [View.readAt_eq_ld, View.ld_unit_zero (S := S2048x256) hzReg2, View.ld_unit_zero (S := S1x256) hzReg2, View.ld_unit_zero (S := S256x16) hzReg2, View.ld_unit_zero (S := S1x16) hzReg2, View.ld_unit_zero (S := S16x16) hzReg2, View.readCov_unit_zero (S := S16x16) _ hzReg2]

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any tile. The inputs' memrefs hold their blocks; the tile's number says which of the three cases it
    is in. The invariant hands the body the accumulator — at anything at the first tile, afterwards at what the tile
    before left — and takes it back at this tile's contents; the other regions' staging buffers, the generator
    register and the core's debts pass through unread. Before the last tile the Gram output's buffer is handed
    back as found; at the last tile it is left at the accumulator's final contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  unfold sblk2
  have hN : t.val < 8 := lt_of_lt_of_eq t.isLt (show cfg2.N = 8 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1)]
    rw [accAt2_zero V c t h0]
    rw [PhiS2_castSucc V c t, PhiS2_zero V c _ _ h0, PhiA2_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (sound_kernel2_A c Set.univ (grid2.coords t) _ _ _ _ _ _ _ _ _ _ _ _ _ _ hc0 hc1 (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 HR Hg]
    · isplitl [HS0]; · iexact HS0
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond2_0 (grid2.coords t) := fun h => h0 ((hcond2_0 t).mp h)
    rw [accAt2_pos V c t h0]
    rw [PhiS2_castSucc V c t, PhiS2_pos V c _ _ h0]
    by_cases h1 : t.val = 7
    · have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, accAt2_pos V c t h0]
      iintro ⟨⟨HS0, HR, Hg⟩, Ho, ⟨%d0, H0⟩, ⟨%d1, H1⟩, ⟨%d2, H2⟩, ⟨%d3, H3⟩, ⟨%d4, H4⟩, ⟨%d5, H5⟩⟩
      iapply (sound_kernel2_C c Set.univ (grid2.coords t) _ _ _ _ _ _ _ _ _ _ _ _ _ _ hc0 hc1 (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 HR Hg]
      · isplitl [HS0]; · iexact HS0
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨HS0, HR, Hg⟩, Ho, ⟨%d0, H0⟩, ⟨%d1, H1⟩, ⟨%d2, H2⟩, ⟨%d3, H3⟩, ⟨%d4, H4⟩, ⟨%d5, H5⟩⟩
      iapply (sound_kernel2_B c Set.univ (grid2.coords t) _ _ _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 HR Hg]
      · isplitl [HS0]; · iexact HS0
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region at every tile. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the scoped rest and the generator register back: the accumulator's
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, HR, Hg⟩
  isplitl [HS0 HR]
  · isplitl [HS0]; · iexists _; iexact HS0
    iexact HR
  iexact Hg

/-- After the last tile the invariant gives the scoped rest and the generator register back: the accumulator's contents are forgotten. -/
theorem hout2 (c : Dev nD) : (dat2 V c).Φ (Fin.last cfg2.N) ⊢ Pipeline.ΦA spec2 c :=
  Phi_out2 V c _ (by rw [Fin.val_last]; have : cfg2.N = 8 := N_2; omega)

end Cert.KernelIdeal.Hand

end
-- ==== Proof.KI.Run.lean ====
/-
  The run of the idealized kernel program's @main: three kernel regions among stretches of host operations, from the
  launch to the return. The buffer contents at every segment boundary are a fold from the launch memory (a host
  stretch's `StableHlo.after`; a region's arrays at what its write-backs leave, every other buffer as entered); every
  pipeline's proof data are taken at its region's entry contents; each stretch is a host segment and each region a
  region segment over the thread state "every unscoped buffer at the boundary's contents, the generator register at
  some state, nothing owed". The several-regions launch then says: every weakly fair execution terminates and every
  final memory holds the last boundary's contents at every unscoped buffer; in particular each argument array ends
  as launched. Generic in the float family.
-/
import proofs.«142186_j22943715295834_1_alg».proof.Proof.Gen.KernelIdeal.Launch
import proofs.«142186_j22943715295834_1_alg».proof.Proof.Gen.KernelIdeal.Skeleton
import proofs.«142186_j22943715295834_1_alg».proof.Proof.Gen.KernelIdeal.Points
import proofs.«142186_j22943715295834_1_alg».proof.Proof.Gen.KernelIdeal.Regions
import proofs.«142186_j22943715295834_1_alg».proof.Proof.KI.Reg0
import proofs.«142186_j22943715295834_1_alg».proof.Proof.KI.Reg1
import proofs.«142186_j22943715295834_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`. -/
abbrev W7 : Dev nD → Valuation τ sig (Elt F) := fun c => StableHlo.after hostOps3 (W6 m ρ c)
/-- After `hostOps3_1` (the trace function's operations). -/
abbrev W8 : Dev nD → Valuation τ sig (Elt F) := fun c => StableHlo.after hostOps3_1 (W7 m ρ c)
/-- After `hostOps3_2`: the contents at the return. -/
abbrev W9 : Dev nD → Valuation τ sig (Elt F) := fun c => StableHlo.after hostOps3_2 (W8 m ρ c)

/-! ### A host stretch leaves every buffer it does not write as it found it -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W8_of (c : Dev nD) (r : Ref sig .tc) (h : r ∉ hostOps3_1_W) : W8 m ρ c (Proc.devRef .tc r) = W7 m ρ c (Proc.devRef .tc r) :=
  StableHlo.after_of_writes_sub hostOps3_1 _ hostOps3_1_writes h
theorem W9_of (c : Dev nD) (r : Ref sig .tc) (h : r ∉ hostOps3_2_W) : W9 m ρ c (Proc.devRef .tc r) = W8 m ρ c (Proc.devRef .tc r) :=
  StableHlo.after_of_writes_sub hostOps3_2 _ hostOps3_2_writes h

/-! ### The arguments end as launched: no host operation writes one, and a region reads it through an input window
    or bypasses it, so the fold at an argument's buffer walks back to the launch memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := (W6_arr m ρ c 2).trans (((dat2 (V5 m ρ) c).arrAt_in 2 rfl _).trans (A_eq2 (V5 m ρ) c 2))
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-! # The proof data family and the thread state -/

/-- The prefetched tables' admissible contents: no pipeline has a table. -/
abbrev adm : (p : Fin 3) → (pcfgs (F := F) p).Adm := fun p => (cfgs p).toPCfg_adm
/-- Every pipeline's proof data, each at its region's entry contents: a literal match, so that the launch's pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed (the launch's chain ends at it beside the core owing nothing): every
    unscoped buffer at the last boundary's contents `W9`, the generator register at some state. -/
abbrev Tₙ (c : Dev nD) : sProp 𝕄 := iprop(StableHlo.held (c : Thread nD τ) (Pipeline.ucRefs τ sig) (W9 m ρ c) ∗ ∃ r, prngReg c r)

/-! # The regions as segments -/

-- `iapply` of a library lemma stated over the pinned configuration unifies with it only when unification may unfold
-- plain definitions in a metavariable's type
set_option backward.isDefEq.respectTransparency.types false in
/-- REGION 0 over the thread state: entered from every unscoped buffer at `W1`, left at `W2` (what the next
    segment is entered from). Its arrays split out of the unscoped buffers and put back at the exit contents; the
    generator register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 1 over the thread state: entered from every unscoped buffer at `W3`, left at `W4` (what the next
    segment is entered from). Its arrays split out of the unscoped buffers and put back at the exit contents; the
    generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may unfold
-- plain definitions in a metavariable's type
set_option backward.isDefEq.respectTransparency.types false in
/-- REGION 2 over the thread state: entered from every unscoped buffer at `W5`, left at `W6` (what the next
    segment is entered from). Its arrays split out of the unscoped buffers and put back at the exit contents; the
    generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)),
    .host (hseg hostOps3_2 hostOps3_2_sub hostOps3_2_fresh (W8 m ρ)) ]
/-- @main is the run of the segments: the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final memory holds the last boundary's contents `W9` at every
    unscoped buffer: the several-regions launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- THE FRAME: every weakly fair execution of @main terminates, nothing faulting, and every final memory has the
    argument arrays as launched: each argument's buffer is unscoped, so the run gives it at `W9`, which at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_all m ρ)

end Cert.KernelIdeal.Hand

end
-- ==== Proof.Stages.lean ====
/-
  The stages of the computation, each as one whole-array function, generic in the float family.

  Two graph-convolution layers and a cluster head: a dense product, a gather of rows at the edges' sources and a
  sum of the gathered rows into the edges' destinations, a bias and a rectifier; then a softmax over each row of
  the cluster logits, the Gram matrix of the soft assignments, and the balance loss, minus the trace of the
  entrywise square root of the Gram matrix (shifted by a small constant), over the root of the element count.
  Both programs are compositions of these stages; they differ only in how the dense stages are tiled.
-/
import proofs.«142186_j22943715295834_1_alg».proof.ReferenceIdeal
import proofs.«142186_j22943715295834_1_alg».proof.Proof.Gen.ReferenceIdeal

noncomputable section

namespace Cert.Stages

open Idealize.ShloMosaic Cert.ReferenceIdeal Cert.ReferenceIdeal.Facts₀

variable {F : FTy → Type} [FloatOps F]

/-- Contents of a buffer of shape `S` and element type `e`. -/
abbrev C (S : Shape) (e : EltTy) : Type := (⟨S, e⟩ : BufTy).Contents (Elt F)

/-- The first dense product, node features by the first layer's weights. -/
def dot0 (x : C (F := F) S16384x128 .f32) (w : C (F := F) S128x256 .f32) : C (F := F) S16384x256 .f32 :=
  Host.dotGeneral dot_S16384x128_S128x256_S16384x256_1_0_0_1_n_n none x w

/-- The second dense product, hidden features by the second layer's weights. -/
def dot1 (h : C (F := F) S16384x256 .f32) (w : C (F := F) S256x256 .f32) : C (F := F) S16384x256 .f32 :=
  Host.dotGeneral dot_S16384x256_S256x256_S16384x256_1_0_0_1_n_n none h w

/-- The cluster head's dense product. -/
def dotc (h : C (F := F) S16384x256 .f32) (w : C (F := F) S256x16 .f32) : C (F := F) S16384x16 .f32 :=
  Host.dotGeneral dot_S16384x256_S256x16_S16384x16_1_0_0_1_n_n none h w

/-- The edges' sources: row 0 of the edge table. -/
def srcIdx (e : C (F := F) S2x262144 .i32) : C (F := F) S262144 .i32 :=
  shapeCast S262144 (extractStridedSlice S1x262144 ![0, 0] e slices_S2x262144_S1x262144_0_0) shapeCasts_S1x262144_S262144

/-- The edges' destinations: row 1 of the edge table. -/
def dstIdx (e : C (F := F) S2x262144 .i32) : C (F := F) S262144 .i32 :=
  shapeCast S262144 (extractStridedSlice S1x262144 ![1, 0] e slices_S2x262144_S1x262144_1_0) shapeCasts_S1x262144_S262144

/-- A negative index counted from the end: `i + 16384` where `i < 0`. -/
def normIdx (i : C (F := F) S262144 .i32) : C (F := F) S262144 .i32 :=
  select (cmpi .slt i (broadcastInDim S262144 ![] bcast_S_S262144 (constantI S_ 32 0#32)))
    (addi i (broadcastInDim S262144 ![] bcast_S_S262144 (constantI S_ 32 16384#32))) i

/-- The aggregation over the edges: the rows of `h` at the edges' sources, summed into the edges' destinations. -/
def agg (h : C (F := F) S16384x256 .f32) (e : C (F := F) S2x262144 .i32) : C (F := F) S16384x256 .f32 :=
  Host.scatterAdd scatter_S16384x256_S262144x1_S262144x256_1_0_0_1
    (broadcastInDim S16384x256 ![] bcast_S_S16384x256 (constant S_ .f32 0x00000000#32))
    (broadcastInDim S262144x1 ![0] bcast_S262144_S262144x1_0 (dstIdx e))
    (Host.gather gather_S16384x256_S262144x1_S262144x256_1_0_n_n_0_1_1256 h
      (broadcastInDim S262144x1 ![0] bcast_S262144_S262144x1_0 (normIdx (srcIdx e))))

/-- A bias of 256 entries as one row. -/
def row256 (b : C (F := F) S256 .f32) : C (F := F) S1x256 .f32 := broadcastInDim S1x256 ![1] bcast_S256_S1x256_1 b

/-- A bias of 16 entries as one row. -/
def row16 (b : C (F := F) S16 .f32) : C (F := F) S1x16 .f32 := broadcastInDim S1x16 ![1] bcast_S16_S1x16_1 b

/-- The bias row added to every row, then the rectifier. -/
def actv (a : C (F := F) S16384x256 .f32) (b : C (F := F) S1x256 .f32) : C (F := F) S16384x256 .f32 :=
  maximumf (addf a (broadcastInDim S16384x256 ![0, 1] bcast_S1x256_S16384x256_0_1 b))
    (broadcastInDim S16384x256 ![] bcast_S_S16384x256 (constant S_ .f32 0x00000000#32))

/-- The cluster logits: the head's product plus its bias row on every row. -/
def logits (h : C (F := F) S16384x256 .f32) (wc : C (F := F) S256x16 .f32) (bc : C (F := F) S1x16 .f32) : C (F := F) S16384x16 .f32 :=
  addf (dotc h wc) (broadcastInDim S16384x16 ![0, 1] bcast_S1x16_S16384x16_0_1 bc)

/-- The exponentials of a row's logits less the row's maximum. -/
def expShift (l : C (F := F) S16384x16 .f32) : C (F := F) S16384x16 .f32 :=
  Host.exp (subf l (broadcastInDim S16384x16 ![0, 1] bcast_S16384x1_S16384x16_0_1
    (broadcastInDim S16384x1 ![0] bcast_S16384_S16384x1_0
      (maximumf (broadcastInDim S16384 ![] bcast_S_S16384 (constant S_ .f32 0xFF800000#32))
        (Host.reduce FloatOps.maximumf l (constant S_ .f32 0xFF800000#32) reducesTo_S16384x16_S16384_d1 h_S_)))))

/-- The softmax of every row. -/
def smax (l : C (F := F) S16384x16 .f32) : C (F := F) S16384x16 .f32 :=
  Host.divf (expShift l) (broadcastInDim S16384x16 ![0, 1] bcast_S16384x1_S16384x16_0_1
    (broadcastInDim S16384x1 ![0] bcast_S16384_S16384x1_0
      (Host.reduceAdd (expShift l) (constant S_ .f32 0x00000000#32) reducesTo_S16384x16_S16384_d1 h_S_)))

/-- The Gram matrix of the soft assignments: the transpose times the matrix. -/
def gram (s : C (F := F) S16384x16 .f32) : C (F := F) S16x16 .f32 :=
  Host.dotGeneral dot_S16x16384_S16384x16_S16x16_1_0_0_1_n_n none (transpose S16x16384 [1, 0] s transposes_S16384x16_S16x16384_1_0) s

/-- The trace: the diagonal selected, the rest zero, all entries summed. -/
def traceOf (g : C (F := F) S16x16 .f32) : C (F := F) S_ .f32 :=
  Host.reduceAdd
    (select (cmpi .eq (addi (iotaInDim S16x16 32 0) (broadcastInDim S16x16 ![] bcast_S_S16x16 (constantI S_ 32 0#32))) (iotaInDim S16x16 32 1))
      g (broadcastInDim S16x16 ![] bcast_S_S16x16 (constant S_ .f32 0x00000000#32)))
    (constant S_ .f32 0x00000000#32) reducesTo_S16x16_S_d0_1 h_S_

/-- The balance loss from the Gram matrix. -/
def lossOf (g : C (F := F) S16x16 .f32) : C (F := F) S_ .f32 :=
  Host.divf (Host.negf (traceOf (Host.sqrt (addf g (broadcastInDim S16x16 ![] bcast_S_S16x16 (constant S_ .f32 0x26901D7D#32))))))
    (Host.sqrt (constant S_ .f32 0x48800000#32))

/-- The second layer's input: the first layer's aggregation, biased and rectified. -/
def hidden1 (x : C (F := F) S16384x128 .f32) (e : C (F := F) S2x262144 .i32) (w0 : C (F := F) S128x256 .f32) (b0 : C (F := F) S1x256 .f32) :
    C (F := F) S16384x256 .f32 := actv (agg (dot0 x w0) e) b0

/-- The head's input: the second layer's aggregation, biased and rectified. -/
def hidden2 (h1 : C (F := F) S16384x256 .f32) (e : C (F := F) S2x262144 .i32) (w1 : C (F := F) S256x256 .f32) (b1 : C (F := F) S1x256 .f32) :
    C (F := F) S16384x256 .f32 := actv (agg (dot1 h1 w1) e) b1

/-- The soft cluster assignments, as a function of the eight inputs. -/
def outS (x : C (F := F) S16384x128 .f32) (e : C (F := F) S2x262144 .i32) (w0 : C (F := F) S128x256 .f32) (b0 : C (F := F) S256 .f32)
    (w1 : C (F := F) S256x256 .f32) (b1 : C (F := F) S256 .f32) (wc : C (F := F) S256x16 .f32) (bc : C (F := F) S16 .f32) : C (F := F) S16384x16 .f32 :=
  smax (logits (hidden2 (hidden1 x e w0 (row256 b0)) e w1 (row256 b1)) wc (row16 bc))

/-- The loss, as a function of the eight inputs. -/
def outLoss (x : C (F := F) S16384x128 .f32) (e : C (F := F) S2x262144 .i32) (w0 : C (F := F) S128x256 .f32) (b0 : C (F := F) S256 .f32)
    (w1 : C (F := F) S256x256 .f32) (b1 : C (F := F) S256 .f32) (wc : C (F := F) S256x16 .f32) (bc : C (F := F) S16 .f32) : C (F := F) S_ .f32 :=
  lossOf (gram (outS x e w0 b0 w1 b1 wc bc))

end Cert.Stages

end
-- ==== Proof.KI.HostRead.lean ====
/-
  The host stretches of the tiled program's @main between its kernel regions, read as the stages: the edge
  table's two rows, the gather of rows at the edges' sources summed into the edges' destinations, the bias
  vectors reshaped to rows, and the loss from the Gram matrix. Each stretch's result is the corresponding stage
  of the buffers the stretch reads.
-/
import proofs.«142186_j22943715295834_1_alg».proof.Proof.Gen.KernelIdeal.Launch
import proofs.«142186_j22943715295834_1_alg».proof.Proof.Stages
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- A vector of `a` entries reshaped to one row is the vector broadcast along a new leading unit axis. -/
theorem shapeCast_row_eq {α : Type} {a : ℕ} (b : (⟨1, ![a]⟩ : Shape).Idx → α) (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ b h = broadcastInDim ⟨2, ![1, a]⟩ ![1] h' b := by
  funext j
  obtain ⟨u, i, rfl⟩ : ∃ (u : Fin 1) (i : Fin a), j = ValueIdx.ix2 u i := ⟨j 0, j 1, ValueIdx.eq_ix2 j⟩
  rw [ValueIdx.shapeCast_a_1a_apply b h u i]
  refine (broadcastInDim_apply _ h' b _ (ValueIdx.ix1 i) fun k => ?_).symm
  match k with
  | ⟨0, _⟩ =>
    show i.val = if a = 1 then 0 else i.val
    split
    · omega
    · rfl

/-- The aggregation over explicit source and destination index vectors. -/
def aggOf (h : Cert.Stages.C (F := F) Cert.ReferenceIdeal.S16384x256 .f32) (s d : Cert.Stages.C (F := F) Cert.ReferenceIdeal.S262144 .i32) :
    Cert.Stages.C (F := F) Cert.ReferenceIdeal.S16384x256 .f32 :=
  Host.scatterAdd Cert.ReferenceIdeal.scatter_S16384x256_S262144x1_S262144x256_1_0_0_1
    (broadcastInDim Cert.ReferenceIdeal.S16384x256 ![] Cert.ReferenceIdeal.Facts₀.bcast_S_S16384x256 (constant Cert.ReferenceIdeal.S_ .f32 0x00000000#32))
    (broadcastInDim Cert.ReferenceIdeal.S262144x1 ![0] Cert.ReferenceIdeal.Facts₀.bcast_S262144_S262144x1_0 d)
    (Host.gather Cert.ReferenceIdeal.gather_S16384x256_S262144x1_S262144x256_1_0_n_n_0_1_1256 h
      (broadcastInDim Cert.ReferenceIdeal.S262144x1 ![0] Cert.ReferenceIdeal.Facts₀.bcast_S262144_S262144x1_0 (Cert.Stages.normIdx s)))

theorem agg_eq_aggOf (h : Cert.Stages.C (F := F) Cert.ReferenceIdeal.S16384x256 .f32) (e : Cert.Stages.C (F := F) Cert.ReferenceIdeal.S2x262144 .i32) :
    Cert.Stages.agg h e = aggOf h (Cert.Stages.srcIdx e) (Cert.Stages.dstIdx e) := rfl

attribute [local irreducible] Host.scatterAdd Host.gather Host.reduceAdd Host.sqrt Host.divf Host.negf in
/-- The first stretch names the edge table's two rows. -/
theorem hostOps0_v1 (W : Valuation τ sig (Elt F)) :
    after hostOps0 W (main_v1 : DevRef τ sig) = Cert.Stages.srcIdx (W (main_arg1 : DevRef τ sig)) := by
  after_results; rfl

attribute [local irreducible] Host.scatterAdd Host.gather Host.reduceAdd Host.sqrt Host.divf Host.negf in
theorem hostOps0_v3 (W : Valuation τ sig (Elt F)) :
    after hostOps0 W (main_v3 : DevRef τ sig) = Cert.Stages.dstIdx (W (main_arg1 : DevRef τ sig)) := by
  after_results; rfl

attribute [local irreducible] Host.scatterAdd Host.gather Host.reduceAdd Host.sqrt Host.divf Host.negf in
/-- The second stretch aggregates the first layer's product over the edges and reshapes the first bias. -/
theorem hostOps1_v14 (W : Valuation τ sig (Elt F)) :
    after hostOps1 W (main_v14 : DevRef τ sig) = aggOf (W (main_v4 : DevRef τ sig)) (W (main_v1 : DevRef τ sig)) (W (main_v3 : DevRef τ sig)) := by
  after_results; rfl

attribute [local irreducible] Host.scatterAdd Host.gather Host.reduceAdd Host.sqrt Host.divf Host.negf in
theorem hostOps1_v15 (W : Valuation τ sig (Elt F)) :
    after hostOps1 W (main_v15 : DevRef τ sig) = Cert.Stages.row256 (W (main_arg3 : DevRef τ sig)) := by
  refine Eq.trans ?_ (shapeCast_row_eq (W (main_arg3 : DevRef τ sig)) shapeCasts_S256_S1x256 Cert.ReferenceIdeal.Facts₀.bcast_S256_S1x256_1)
  after_results; rfl

attribute [local irreducible] Host.scatterAdd Host.gather Host.reduceAdd Host.sqrt Host.divf Host.negf in
/-- The third stretch aggregates the second layer's product over the edges and reshapes the second bias and the head's. -/
theorem hostOps2_v26 (W : Valuation τ sig (Elt F)) :
    after hostOps2 W (main_v26 : DevRef τ sig) = aggOf (W (main_v16 : DevRef τ sig)) (W (main_v1 : DevRef τ sig)) (W (main_v3 : DevRef τ sig)) := by
  after_results; rfl

attribute [local irreducible] Host.scatterAdd Host.gather Host.reduceAdd Host.sqrt Host.divf Host.negf in
theorem hostOps2_v27 (W : Valuation τ sig (Elt F)) :
    after hostOps2 W (main_v27 : DevRef τ sig) = Cert.Stages.row256 (W (main_arg5 : DevRef τ sig)) := by
  refine Eq.trans ?_ (shapeCast_row_eq (W (main_arg5 : DevRef τ sig)) shapeCasts_S256_S1x256 Cert.ReferenceIdeal.Facts₀.bcast_S256_S1x256_1)
  after_results; rfl

attribute [local irreducible] Host.scatterAdd Host.gather Host.reduceAdd Host.sqrt Host.divf Host.negf in
theorem hostOps2_v28 (W : Valuation τ sig (Elt F)) :
    after hostOps2 W (main_v28 : DevRef τ sig) = Cert.Stages.row16 (W (main_arg7 : DevRef τ sig)) := by
  refine Eq.trans ?_ (shapeCast_row_eq (W (main_arg7 : DevRef τ sig)) shapeCasts_S16_S1x16 Cert.ReferenceIdeal.Facts₀.bcast_S16_S1x16_1)
  after_results; rfl

attribute [local irreducible] Host.scatterAdd Host.gather Host.reduceAdd Host.sqrt Host.divf Host.negf in
/-- The last three stretches compute the loss from the Gram matrix. -/
theorem hostTail_v36 (W : Valuation τ sig (Elt F)) :
    after hostOps3_2 (after hostOps3_1 (after hostOps3 W)) (main_v36 : DevRef τ sig) = Cert.Stages.lossOf (W (main_v29_1 : DevRef τ sig)) := by
  after_results_simp <;> (try simp only [TRef.ofBuf, TRef.toBuf, cast_eq]) <;> rfl

end Cert.KernelIdeal.Hand

end
-- ==== Proof.KI.Val0.lean ====
/-
  The first dense layer's kernel region as one function of what it finds: after the eight row tiles the output
  array holds the whole product of the node features and the first layer's weights.

  Tile `t` stores, at `(r, q)` of its block, the sum over the 128 features `k` of `X[2048 t + r, k] · W[k, q]`: the
  matrix unit's product into a zero accumulator, whose operands' change of format is the identity on extended reals.
  The whole product at `(2048 t + r, q)` is the same sum, both contractions re-indexed over `Fin 128`. The eight
  blocks of 2048 rows tile the 16384 rows, so the array is the whole product everywhere.
-/
import proofs.«142186_j22943715295834_1_alg».proof.Proof.KI.Reg0
import proofs.«142186_j22943715295834_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

-- the TensorCore's buffer contents when the region is entered
variable (V : (c : Dev nD) → (b : Ref sig .tc) → Buf (Elt Ideal) ((c : Thread nD τ).loc b))

/-! ## The two contractions' operand indices, coordinate by coordinate -/

theorem lhsK0_0 (j : S2048x256.Idx) (k : dot_S2048x128_S128x256_S2048x256_1_0_0_1_n_n.contr.Idx) :
    (dot_S2048x128_S128x256_S2048x256_1_0_0_1_n_n.lhsIdx j k 0 : ℕ) = j 0 := by
  simp [DotDims.lhsIdx, dot_S2048x128_S128x256_S2048x256_1_0_0_1_n_n]; rfl
theorem lhsK0_1 (j : S2048x256.Idx) (k : dot_S2048x128_S128x256_S2048x256_1_0_0_1_n_n.contr.Idx) :
    (dot_S2048x128_S128x256_S2048x256_1_0_0_1_n_n.lhsIdx j k 1 : ℕ) = k ⟨0, by decide⟩ :=
  DotDims.lhsIdx_val_of_single _ rfl j k
theorem rhsK0_0 (j : S2048x256.Idx) (k : dot_S2048x128_S128x256_S2048x256_1_0_0_1_n_n.contr.Idx) :
    (dot_S2048x128_S128x256_S2048x256_1_0_0_1_n_n.rhsIdx j k 0 : ℕ) = k ⟨0, by decide⟩ :=
  DotDims.rhsIdx_val_of_single _ rfl j k
theorem rhsK0_1 (j : S2048x256.Idx) (k : dot_S2048x128_S128x256_S2048x256_1_0_0_1_n_n.contr.Idx) :
    (dot_S2048x128_S128x256_S2048x256_1_0_0_1_n_n.rhsIdx j k 1 : ℕ) = j 1 := by
  simp [DotDims.rhsIdx, dot_S2048x128_S128x256_S2048x256_1_0_0_1_n_n]; rfl

theorem lhsH0_0 (j : Cert.ReferenceIdeal.S16384x256.Idx) (k : Cert.ReferenceIdeal.dot_S16384x128_S128x256_S16384x256_1_0_0_1_n_n.contr.Idx) :
    (Cert.ReferenceIdeal.dot_S16384x128_S128x256_S16384x256_1_0_0_1_n_n.lhsIdx j k 0 : ℕ) = j 0 := by
  simp [DotDims.lhsIdx, Cert.ReferenceIdeal.dot_S16384x128_S128x256_S16384x256_1_0_0_1_n_n]; rfl
theorem lhsH0_1 (j : Cert.ReferenceIdeal.S16384x256.Idx) (k : Cert.ReferenceIdeal.dot_S16384x128_S128x256_S16384x256_1_0_0_1_n_n.contr.Idx) :
    (Cert.ReferenceIdeal.dot_S16384x128_S128x256_S16384x256_1_0_0_1_n_n.lhsIdx j k 1 : ℕ) = k ⟨0, by decide⟩ :=
  DotDims.lhsIdx_val_of_single _ rfl j k
theorem rhsH0_0 (j : Cert.ReferenceIdeal.S16384x256.Idx) (k : Cert.ReferenceIdeal.dot_S16384x128_S128x256_S16384x256_1_0_0_1_n_n.contr.Idx) :
    (Cert.ReferenceIdeal.dot_S16384x128_S128x256_S16384x256_1_0_0_1_n_n.rhsIdx j k 0 : ℕ) = k ⟨0, by decide⟩ :=
  DotDims.rhsIdx_val_of_single _ rfl j k
theorem rhsH0_1 (j : Cert.ReferenceIdeal.S16384x256.Idx) (k : Cert.ReferenceIdeal.dot_S16384x128_S128x256_S16384x256_1_0_0_1_n_n.contr.Idx) :
    (Cert.ReferenceIdeal.dot_S16384x128_S128x256_S16384x256_1_0_0_1_n_n.rhsIdx j k 1 : ℕ) = j 1 := by
  simp [DotDims.rhsIdx, Cert.ReferenceIdeal.dot_S16384x128_S128x256_S16384x256_1_0_0_1_n_n]; rfl

/-! ## One entry of a tile's product, and of the whole product -/

/-- One entry of a tile's product: the sum over the 128 features of the tile's row times the weights' column
    (the operands' change of format is the identity on extended reals, the accumulator is zero). -/
theorem pay0_apply (x0 : Vec Ideal S2048x128 .f32) (x1 : Vec Ideal S128x256 .f32) (r : Fin 2048) (q : Fin 256) :
    k0_pay1 (F := Ideal) x0 x1 (ix2 r q) = ∑ k : Fin 128, x0 (ix2 r k) * x1 (ix2 k q) := by
  unfold k0_pay1
  refine (Ideal.matmul_constant_zero_apply dot_S2048x128_S128x256_S2048x256_1_0_0_1_n_n none
    (truncf .bf16 x0 bitsLt_bf16_f32) (truncf .bf16 x1 bitsLt_bf16_f32) (ix2 r q)).trans ?_
  rw [← Equiv.sum_comp (contrEquiv1 dot_S2048x128_S128x256_S2048x256_1_0_0_1_n_n 128 rfl rfl).symm]
  refine Finset.sum_congr rfl fun k _ => ?_
  show x0 _ * x1 _ = _
  congr 2
  · apply Shape.idx_ext₂
    · exact lhsK0_0 _ _
    · exact (lhsK0_1 _ _).trans (contrEquiv1_symm_val _ 128 rfl rfl k)
  · apply Shape.idx_ext₂
    · exact (rhsK0_0 _ _).trans (contrEquiv1_symm_val _ 128 rfl rfl k)
    · exact rhsK0_1 _ _

/-- One entry of the whole product is the same sum over the whole arrays. -/
theorem dot0_apply (X : Cert.Stages.C (F := Ideal) Cert.ReferenceIdeal.S16384x128 .f32) (W : Cert.Stages.C (F := Ideal) Cert.ReferenceIdeal.S128x256 .f32) (i : Fin 16384) (q : Fin 256) :
    Cert.Stages.dot0 (F := Ideal) X W (ix2 i q) = ∑ k : Fin 128, X (ix2 i k) * W (ix2 k q) := by
  unfold Cert.Stages.dot0
  refine (Ideal.dotGeneral_apply Cert.ReferenceIdeal.dot_S16384x128_S128x256_S16384x256_1_0_0_1_n_n none .single X W (ix2 i q)).trans ?_
  rw [← Equiv.sum_comp (contrEquiv1 Cert.ReferenceIdeal.dot_S16384x128_S128x256_S16384x256_1_0_0_1_n_n 128 rfl rfl).symm]
  refine Finset.sum_congr rfl fun k _ => ?_
  congr 2
  · apply Shape.idx_ext₂
    · exact lhsH0_0 _ _
    · exact (lhsH0_1 _ _).trans (contrEquiv1_symm_val _ 128 rfl rfl k)
  · apply Shape.idx_ext₂
    · exact (rhsH0_0 _ _).trans (contrEquiv1_symm_val _ 128 rfl rfl k)
    · exact rhsH0_1 _ _

/-! ## A tile's product is the whole product's rows at the tile -/

/-- If the tile's feature block is rows `2048 T …` of the features and its weights are the weights, the tile's product
    at `(r, q)` is the whole product at `(2048 T + r, q)`. -/
theorem tile0_eq (X : Vec Ideal S16384x128 .f32) (W : Vec Ideal S128x256 .f32)
    (x0 : Vec Ideal S2048x128 .f32) (x1 : Vec Ideal S128x256 .f32) (T : Nat)
    (hx0 : ∀ (r : Fin 2048) (k : Fin 128) (i : Fin 16384), i.val = T * 2048 + r.val → x0 (ix2 r k) = X (ix2 i k))
    (hx1 : ∀ (k : Fin 128) (q : Fin 256), x1 (ix2 k q) = W (ix2 k q))
    (j : S2048x256.Idx) (i : S16384x256.Idx) (hi0 : (i 0).val = T * 2048 + (j 0).val) (hi1 : (i 1).val = (j 1).val) :
    k0_pay1 (F := Ideal) x0 x1 j = Cert.Stages.dot0 (F := Ideal) X W i := by
  obtain ⟨r, q, rfl⟩ : ∃ (r : Fin 2048) (q : Fin 256), j = ix2 r q := ⟨j 0, j 1, eq_ix2 j⟩
  obtain ⟨i0, i1, rfl⟩ : ∃ (i0 : Fin 16384) (i1 : Fin 256), i = ix2 i0 i1 := ⟨i 0, i 1, eq_ix2 i⟩
  obtain rfl : i1 = q := Fin.ext hi1
  refine (pay0_apply x0 x1 r i1).trans ((Finset.sum_congr rfl fun k _ => ?_).trans (dot0_apply X W i0 i1).symm)
  rw [hx0 r k i0 hi0, hx1 k i1]

/-! ## From the tiles to the array -/

theorem hz0 : (![0, 0] : Fin 2 → Nat) = fun _ => 0 := funext fun a => by fin_cases a <;> rfl

/-- The printed index maps over the grid: the feature and output windows sit at row tile `t`, the weights' window
    never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at tile `t` is rows `2048 t …` of the features. -/
theorem iblk0_0_apply (c : Dev nD) (t : Fin cfg0.N) (r : Fin 2048) (k : Fin 128) (i : Fin 16384) (hi : i.val = t.val * 2048 + r.val) :
    (iblk0 V c 0 t : Vec Ideal S2048x128 .f32) (ix2 r k) = (V c main_arg0 : Vec Ideal S16384x128 .f32) (ix2 i k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 2048 + 1 * r.val = i.val; rw [e0, hi]; omega
  | ⟨1, _⟩ => show win0_0.index t (1 : Fin 2) * 128 + 1 * k.val = k.val; rw [e1]; omega

/-- The weights' window's block at every tile is the whole weight matrix. -/
theorem iblk0_1_apply (c : Dev nD) (t : Fin cfg0.N) (k : Fin 128) (q : Fin 256) :
    (iblk0 V c 1 t : Vec Ideal S128x256 .f32) (ix2 k q) = (V c main_arg2 : Vec Ideal S128x256 .f32) (ix2 k q) := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- What tile `t` writes back is block `t` of the whole product of the features and the weights as the region finds them. -/
theorem flushed0_eq (c : Dev nD) (t : Fin cfg0.N) :
    (dat0 (F := Ideal) V c).flushed 2 t = ((cfg0.win 2).blk t).view.read (Elt Ideal) (Cert.Stages.dot0 (F := Ideal) (V c main_arg0) (V c main_arg2)) := by
  show (cfg0.win 2).cut (grid0.coords t) ((dat0 V c).after 2 t) = _
  rw [after0_2]
  unfold out0_2
  rw [View.canon_unit_zero hz0]
  simp only [View.ld_unit_zero (S := S2048x128) hz0, View.ld_unit_zero (S := S128x256) hz0]
  obtain ⟨-, -, -, -, e4, e5⟩ := idx_facts0 t
  funext j
  show k0_pay1 (F := Ideal) (iblk0 V c 0 t) (iblk0 V c 1 t) j = Cert.Stages.dot0 (F := Ideal) (V c main_arg0) (V c main_arg2) (((cfg0.win 2).blk t).view.emb j)
  refine tile0_eq (V c main_arg0) (V c main_arg2) (iblk0 V c 0 t) (iblk0 V c 1 t) t.val
    (fun r k i hi => iblk0_0_apply V c t r k i hi) (fun k q => iblk0_1_apply V c t k q) j _ ?_ ?_
  · show win0_2.index t (0 : Fin 2) * 2048 + 1 * (j 0).val = _; rw [e4]; omega
  · show win0_2.index t (1 : Fin 2) * 256 + 1 * (j 1).val = _; rw [e5]; omega

/-- An index of the output array is in tile `t`'s block iff each coordinate is in the block's range on its axis. -/
theorem mem_blk0 (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v4).slice (win0_2.rect t)).set ↔ _
  rw [View.set_slice_whole, Rect.mem_set_unit]
  exact Iff.rfl

/-- The eight tiles cover the output: row `r` is in tile `r / 2048`. -/
theorem cover0 (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  have hN : grid0.N = 8 := N_0
  have ht : (i 0).val / 2048 < grid0.N := by rw [hN]; omega
  obtain ⟨-, -, -, -, e4, e5⟩ := idx_facts0 ⟨(i 0).val / 2048, ht⟩
  refine ⟨⟨(i 0).val / 2048, ht⟩, flush0_2 _, ?_⟩
  rw [mem_blk0]
  intro a
  match a with
  | ⟨0, _⟩ =>
    show win0_2.index ⟨(i 0).val / 2048, ht⟩ (0 : Fin 2) * 2048 ≤ (i 0).val ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 256 ≤ (i 1).val ∧ (i 1).val < win0_2.index ⟨(i 0).val / 2048, ht⟩ (1 : Fin 2) * 256 + 256
    rw [e5]; omega

/-- THE FIRST DENSE LAYER'S ARRAY after the region: the whole product of the features and the first layer's weights as
    the region finds them. -/
theorem arr0_eq (c : Dev nD) : (dat0 (F := Ideal) V c).arrAt 2 cfg0.N = Cert.Stages.dot0 (F := Ideal) (V c main_arg0) (V c main_arg2) :=
  (dat0 (F := Ideal) V c).arrAt_eq_of_cover 2 (Cert.Stages.dot0 (F := Ideal) (V c main_arg0) (V c main_arg2)) (fun t _ => flushed0_eq V c t) cover0

end Cert.KernelIdeal.Hand

end
-- ==== Proof.KI.Val1.lean ====
/-
  The second dense layer's kernel region as one function of what it finds: after the eight row tiles the output
  array holds the whole product of the rectified biased aggregated features and the second layer's weights.

  Tile `t` stores, at `(r, q)` of its block, the sum over the 256 hidden features `k` of
  `max (A[2048 t + r, k] + b[0, k], 0) · W[k, q]`: the bias row broadcast over the tile's rows and added, the maximum
  with zero, then the matrix unit's product into a zero accumulator, whose operands' change of format is the identity
  on extended reals. The whole-array stage adds the broadcast bias row, takes the maximum with the broadcast zero and
  contracts with the weights: at `(2048 t + r, q)` the same sum, both contractions re-indexed over `Fin 256`. The
  eight blocks of 2048 rows tile the 16384 rows, so the array is that product everywhere.
-/
import proofs.«142186_j22943715295834_1_alg».proof.Proof.KI.Reg1
import proofs.«142186_j22943715295834_1_alg».proof.Proof.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

-- the TensorCore's buffer contents when the region is entered
variable (V : (c : Dev nD) → (b : Ref sig .tc) → Buf (Elt Ideal) ((c : Thread nD τ).loc b))

/-! ## The two contractions' operand indices, coordinate by coordinate -/

theorem lhsK1_0 (j : S2048x256.Idx) (k : dot_S2048x256_S256x256_S2048x256_1_0_0_1_n_n.contr.Idx) :
    (dot_S2048x256_S256x256_S2048x256_1_0_0_1_n_n.lhsIdx j k 0 : ℕ) = j 0 := by
  simp [DotDims.lhsIdx, dot_S2048x256_S256x256_S2048x256_1_0_0_1_n_n]; rfl
theorem lhsK1_1 (j : S2048x256.Idx) (k : dot_S2048x256_S256x256_S2048x256_1_0_0_1_n_n.contr.Idx) :
    (dot_S2048x256_S256x256_S2048x256_1_0_0_1_n_n.lhsIdx j k 1 : ℕ) = k ⟨0, by decide⟩ :=
  DotDims.lhsIdx_val_of_single _ rfl j k
theorem rhsK1_0 (j : S2048x256.Idx) (k : dot_S2048x256_S256x256_S2048x256_1_0_0_1_n_n.contr.Idx) :
    (dot_S2048x256_S256x256_S2048x256_1_0_0_1_n_n.rhsIdx j k 0 : ℕ) = k ⟨0, by decide⟩ :=
  DotDims.rhsIdx_val_of_single _ rfl j k
theorem rhsK1_1 (j : S2048x256.Idx) (k : dot_S2048x256_S256x256_S2048x256_1_0_0_1_n_n.contr.Idx) :
    (dot_S2048x256_S256x256_S2048x256_1_0_0_1_n_n.rhsIdx j k 1 : ℕ) = j 1 := by
  simp [DotDims.rhsIdx, dot_S2048x256_S256x256_S2048x256_1_0_0_1_n_n]; rfl

theorem lhsH1_0 (j : Cert.ReferenceIdeal.S16384x256.Idx) (k : Cert.ReferenceIdeal.dot_S16384x256_S256x256_S16384x256_1_0_0_1_n_n.contr.Idx) :
    (Cert.ReferenceIdeal.dot_S16384x256_S256x256_S16384x256_1_0_0_1_n_n.lhsIdx j k 0 : ℕ) = j 0 := by
  simp [DotDims.lhsIdx, Cert.ReferenceIdeal.dot_S16384x256_S256x256_S16384x256_1_0_0_1_n_n]; rfl
theorem lhsH1_1 (j : Cert.ReferenceIdeal.S16384x256.Idx) (k : Cert.ReferenceIdeal.dot_S16384x256_S256x256_S16384x256_1_0_0_1_n_n.contr.Idx) :
    (Cert.ReferenceIdeal.dot_S16384x256_S256x256_S16384x256_1_0_0_1_n_n.lhsIdx j k 1 : ℕ) = k ⟨0, by decide⟩ :=
  DotDims.lhsIdx_val_of_single _ rfl j k
theorem rhsH1_0 (j : Cert.ReferenceIdeal.S16384x256.Idx) (k : Cert.ReferenceIdeal.dot_S16384x256_S256x256_S16384x256_1_0_0_1_n_n.contr.Idx) :
    (Cert.ReferenceIdeal.dot_S16384x256_S256x256_S16384x256_1_0_0_1_n_n.rhsIdx j k 0 : ℕ) = k ⟨0, by decide⟩ :=
  DotDims.rhsIdx_val_of_single _ rfl j k
theorem rhsH1_1 (j : Cert.ReferenceIdeal.S16384x256.Idx) (k : Cert.ReferenceIdeal.dot_S16384x256_S256x256_S16384x256_1_0_0_1_n_n.contr.Idx) :
    (Cert.ReferenceIdeal.dot_S16384x256_S256x256_S16384x256_1_0_0_1_n_n.rhsIdx j k 1 : ℕ) = j 1 := by
  simp [DotDims.rhsIdx, Cert.ReferenceIdeal.dot_S16384x256_S256x256_S16384x256_1_0_0_1_n_n]; rfl

/-! ## The rectified biased features at an entry, as the tile and as the whole array compute them -/

/-- The tile's left operand: the bias row added to every row of the tile, the maximum with zero, the format changed. -/
def act1 (x0 : Vec Ideal S2048x256 .f32) (x1 : Vec Ideal S1x256 .f32) : FVec Ideal S2048x256 .bf16 :=
  truncf .bf16 (maximumf (addf (shapeCast S2048x256 x0 shapeCasts_S2048x256_S2048x256)
      (broadcastTo S2048x256 (shapeCast S1x256 x1 shapeCasts_S1x256_S1x256) broadcasts_S1x256_S2048x256))
    (broadcast S2048x256 (Scalar.ofBits (F := Ideal) .f32 0x00000000#32))) bitsLt_bf16_f32

/-- The tile's payload is the matrix unit's product of that operand and the weights into a zero accumulator. -/
theorem pay1_eq (x0 : Vec Ideal S2048x256 .f32) (x1 : Vec Ideal S1x256 .f32) (x2 : Vec Ideal S256x256 .f32) :
    k1_pay1 (F := Ideal) x0 x1 x2 = matmul dot_S2048x256_S256x256_S2048x256_1_0_0_1_n_n none (act1 x0 x1)
      (truncf .bf16 x2 bitsLt_bf16_f32) (constant (F := Ideal) S2048x256 .f32 0x00000000#32) := rfl

/-- At `(r, k)` it is `max (x0[r, k] + x1[0, k], 0)`: the casts are of a shape to itself, the broadcast reads the one
    row, the change of format is the identity. -/
theorem act1_apply (x0 : Vec Ideal S2048x256 .f32) (x1 : Vec Ideal S1x256 .f32) (r : Fin 2048) (k : Fin 256) :
    act1 x0 x1 (ix2 r k) = max (x0 (ix2 r k) + x1 (ix2 (0 : Fin 1) k)) (Ideal.ofBits .f32 0x00000000#32) := by
  unfold act1
  rw [shapeCast_self, shapeCast_self]
  show max (x0 (ix2 r k) + broadcastTo S2048x256 x1 broadcasts_S1x256_S2048x256 (ix2 r k)) _ = _
  rw [broadcastTo_1b_ab_apply x1 broadcasts_S1x256_S2048x256 r k]
  rfl

/-- The whole array's stage at `(i, k)` is the same expression of the whole arrays. -/
theorem actv1_apply (A : Cert.Stages.C (F := Ideal) Cert.ReferenceIdeal.S16384x256 .f32) (b : Cert.Stages.C (F := Ideal) Cert.ReferenceIdeal.S1x256 .f32)
    (i : Fin 16384) (k : Fin 256) :
    Cert.Stages.actv (F := Ideal) A b (ix2 i k) = max (A (ix2 i k) + b (ix2 (0 : Fin 1) k)) (Ideal.ofBits .f32 0x00000000#32) := by
  unfold Cert.Stages.actv
  show max (A (ix2 i k) + broadcastInDim Cert.ReferenceIdeal.S16384x256 ![0, 1] _ b (ix2 i k))
    (broadcastInDim Cert.ReferenceIdeal.S16384x256 ![] _ (constant (F := Ideal) Cert.ReferenceIdeal.S_ .f32 0x00000000#32) (ix2 i k)) = _
  rw [broadcastInDim_apply _ _ b (ix2 i k) (ix2 (0 : Fin 1) k) (fun a => by
      match a with
      | ⟨0, _⟩ => rfl
      | ⟨1, _⟩ => rfl),
    broadcastInDim_apply _ _ (constant (F := Ideal) Cert.ReferenceIdeal.S_ .f32 0x00000000#32) (ix2 i k) ix0 (fun a => a.elim0)]
  rfl

/-! ## One entry of a tile's product, and of the whole product -/

/-- One entry of a tile's product: the sum over the 256 hidden features of the rectified biased tile's row times the
    weights' column. -/
theorem pay1_apply (x0 : Vec Ideal S2048x256 .f32) (x1 : Vec Ideal S1x256 .f32) (x2 : Vec Ideal S256x256 .f32) (r : Fin 2048) (q : Fin 256) :
    k1_pay1 (F := Ideal) x0 x1 x2 (ix2 r q)
      = ∑ k : Fin 256, max (x0 (ix2 r k) + x1 (ix2 (0 : Fin 1) k)) (Ideal.ofBits .f32 0x00000000#32) * x2 (ix2 k q) := by
  refine (congrFun (pay1_eq x0 x1 x2) (ix2 r q)).trans ?_
  refine (Ideal.matmul_constant_zero_apply dot_S2048x256_S256x256_S2048x256_1_0_0_1_n_n none
    (act1 x0 x1) (truncf .bf16 x2 bitsLt_bf16_f32) (ix2 r q)).trans ?_
  rw [← Equiv.sum_comp (contrEquiv1 dot_S2048x256_S256x256_S2048x256_1_0_0_1_n_n 256 rfl rfl).symm]
  refine Finset.sum_congr rfl fun k _ => ?_
  have hl : dot_S2048x256_S256x256_S2048x256_1_0_0_1_n_n.lhsIdx (ix2 r q)
      ((contrEquiv1 dot_S2048x256_S256x256_S2048x256_1_0_0_1_n_n 256 rfl rfl).symm k) = ix2 r k :=
    Shape.idx_ext₂ (lhsK1_0 _ _) ((lhsK1_1 _ _).trans (contrEquiv1_symm_val _ 256 rfl rfl k))
  have hr : dot_S2048x256_S256x256_S2048x256_1_0_0_1_n_n.rhsIdx (ix2 r q)
      ((contrEquiv1 dot_S2048x256_S256x256_S2048x256_1_0_0_1_n_n 256 rfl rfl).symm k) = ix2 k q :=
    Shape.idx_ext₂ ((rhsK1_0 _ _).trans (contrEquiv1_symm_val _ 256 rfl rfl k)) (rhsK1_1 _ _)
  rw [hl, hr, act1_apply]
  rfl

/-- One entry of the whole product is the same sum over the whole arrays. -/
theorem dot1_apply (H : Cert.Stages.C (F := Ideal) Cert.ReferenceIdeal.S16384x256 .f32) (W : Cert.Stages.C (F := Ideal) Cert.ReferenceIdeal.S256x256 .f32) (i : Fin 16384) (q : Fin 256) :
    Cert.Stages.dot1 (F := Ideal) H W (ix2 i q) = ∑ k : Fin 256, H (ix2 i k) * W (ix2 k q) := by
  unfold Cert.Stages.dot1
  refine (Ideal.dotGeneral_apply Cert.ReferenceIdeal.dot_S16384x256_S256x256_S16384x256_1_0_0_1_n_n none .single H W (ix2 i q)).trans ?_
  rw [← Equiv.sum_comp (contrEquiv1 Cert.ReferenceIdeal.dot_S16384x256_S256x256_S16384x256_1_0_0_1_n_n 256 rfl rfl).symm]
  refine Finset.sum_congr rfl fun k _ => ?_
  congr 2
  · apply Shape.idx_ext₂
    · exact lhsH1_0 _ _
    · exact (lhsH1_1 _ _).trans (contrEquiv1_symm_val _ 256 rfl rfl k)
  · apply Shape.idx_ext₂
    · exact (rhsH1_0 _ _).trans (contrEquiv1_symm_val _ 256 rfl rfl k)
    · exact rhsH1_1 _ _

/-! ## A tile's product is the whole product's rows at the tile -/

/-- If the tile's block is rows `2048 T …` of the aggregated features, its bias row the bias row and its weights the
    weights, the tile's product at `(r, q)` is the whole product of the rectified biased features at `(2048 T + r, q)`. -/
theorem tile1_eq (A : Vec Ideal S16384x256 .f32) (b : Vec Ideal S1x256 .f32) (W : Vec Ideal S256x256 .f32)
    (x0 : Vec Ideal S2048x256 .f32) (x1 : Vec Ideal S1x256 .f32) (x2 : Vec Ideal S256x256 .f32) (T : Nat)
    (hx0 : ∀ (r : Fin 2048) (k : Fin 256) (i : Fin 16384), i.val = T * 2048 + r.val → x0 (ix2 r k) = A (ix2 i k))
    (hx1 : ∀ (k : Fin 256), x1 (ix2 (0 : Fin 1) k) = b (ix2 (0 : Fin 1) k))
    (hx2 : ∀ (k : Fin 256) (q : Fin 256), x2 (ix2 k q) = W (ix2 k q))
    (j : S2048x256.Idx) (i : S16384x256.Idx) (hi0 : (i 0).val = T * 2048 + (j 0).val) (hi1 : (i 1).val = (j 1).val) :
    k1_pay1 (F := Ideal) x0 x1 x2 j = Cert.Stages.dot1 (F := Ideal) (Cert.Stages.actv (F := Ideal) A b) W i := by
  obtain ⟨r, q, rfl⟩ : ∃ (r : Fin 2048) (q : Fin 256), j = ix2 r q := ⟨j 0, j 1, eq_ix2 j⟩
  obtain ⟨i0, i1, rfl⟩ : ∃ (i0 : Fin 16384) (i1 : Fin 256), i = ix2 i0 i1 := ⟨i 0, i 1, eq_ix2 i⟩
  obtain rfl : i1 = q := Fin.ext hi1
  refine (pay1_apply x0 x1 x2 r i1).trans ((Finset.sum_congr rfl fun k _ => ?_).trans
    (dot1_apply (Cert.Stages.actv (F := Ideal) A b) W i0 i1).symm)
  rw [actv1_apply A b i0 k, hx0 r k i0 hi0, hx1 k, hx2 k i1]

/-! ## From the tiles to the array -/

theorem hz1 : (![0, 0] : Fin 2 → Nat) = fun _ => 0 := funext fun a => by fin_cases a <;> rfl

/-- The printed index maps over the grid: the aggregated features' and the output's windows sit at row tile `t`, the
    bias row's and the weights' windows never move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated features' block at tile `t` is rows `2048 t …` of the array. -/
theorem iblk1_0_apply (c : Dev nD) (t : Fin cfg1.N) (r : Fin 2048) (k : Fin 256) (i : Fin 16384) (hi : i.val = t.val * 2048 + r.val) :
    (iblk1 V c 0 t : Vec Ideal S2048x256 .f32) (ix2 r k) = (V c main_v14 : Vec Ideal S16384x256 .f32) (ix2 i k) := by
  obtain ⟨e0, e1, -⟩ := idx_facts1 t
  unfold iblk1
  rw [View.read_apply]
  show V c main_v14 _ = V c main_v14 _
  congr 1
  funext a
  apply Fin.ext
  match a with
  | ⟨0, _⟩ => show win1_0.index t (0 : Fin 2) * 2048 + 1 * r.val = i.val; rw [e0, hi]; omega
  | ⟨1, _⟩ => show win1_0.index t (1 : Fin 2) * 256 + 1 * k.val = k.val; rw [e1]; omega

/-- The bias row's block at every tile is the whole row. -/
theorem iblk1_1_apply (c : Dev nD) (t : Fin cfg1.N) (k : Fin 256) :
    (iblk1 V c 1 t : Vec Ideal S1x256 .f32) (ix2 (0 : Fin 1) k) = (V c main_v15 : Vec Ideal S1x256 .f32) (ix2 (0 : Fin 1) k) := by
  obtain ⟨-, -, e2, e3, -⟩ := idx_facts1 t
  unfold iblk1
  rw [View.read_apply]
  show V c main_v15 _ = V c main_v15 _
  congr 1
  funext a
  apply Fin.ext
  match a with
  | ⟨0, _⟩ => show win1_1.index t (0 : Fin 2) * 1 + 1 * (0 : Fin 1).val = (0 : Fin 1).val; rw [e2]; rfl
  | ⟨1, _⟩ => show win1_1.index t (1 : Fin 2) * 256 + 1 * k.val = k.val; rw [e3]; omega

/-- The weights' block at every tile is the whole weight matrix. -/
theorem iblk1_2_apply (c : Dev nD) (t : Fin cfg1.N) (k : Fin 256) (q : Fin 256) :
    (iblk1 V c 2 t : Vec Ideal S256x256 .f32) (ix2 k q) = (V c main_arg4 : Vec Ideal S256x256 .f32) (ix2 k q) := by
  obtain ⟨-, -, -, -, e4, e5, -⟩ := idx_facts1 t
  unfold iblk1
  rw [View.read_apply]
  show V c main_arg4 _ = V c main_arg4 _
  congr 1
  funext a
  apply Fin.ext
  match a with
  | ⟨0, _⟩ => show win1_2.index t (0 : Fin 2) * 256 + 1 * k.val = k.val; rw [e4]; omega
  | ⟨1, _⟩ => show win1_2.index t (1 : Fin 2) * 256 + 1 * q.val = q.val; rw [e5]; omega

/-- What tile `t` writes back is block `t` of the whole product of the rectified biased features and the weights, as
    the region finds the three arrays. -/
theorem flushed1_eq (c : Dev nD) (t : Fin cfg1.N) :
    (dat1 (F := Ideal) V c).flushed 3 t = ((cfg1.win 3).blk t).view.read (Elt Ideal)
      (Cert.Stages.dot1 (F := Ideal) (Cert.Stages.actv (F := Ideal) (V c main_v14) (V c main_v15)) (V c main_arg4)) := by
  show (cfg1.win 3).cut (grid1.coords t) ((dat1 V c).after 3 t) = _
  rw [after1_3]
  unfold out1_3
  rw [View.canon_unit_zero hz1]
  simp only [View.ld_unit_zero (S := S2048x256) hz1, View.ld_unit_zero (S := S1x256) hz1, View.ld_unit_zero (S := S256x256) hz1]
  obtain ⟨-, -, -, -, -, -, e6, e7⟩ := idx_facts1 t
  funext j
  show k1_pay1 (F := Ideal) (iblk1 V c 0 t) (iblk1 V c 1 t) (iblk1 V c 2 t) j
    = Cert.Stages.dot1 (F := Ideal) (Cert.Stages.actv (F := Ideal) (V c main_v14) (V c main_v15)) (V c main_arg4) (((cfg1.win 3).blk t).view.emb j)
  refine tile1_eq (V c main_v14) (V c main_v15) (V c main_arg4) (iblk1 V c 0 t) (iblk1 V c 1 t) (iblk1 V c 2 t) t.val
    (fun r k i hi => iblk1_0_apply V c t r k i hi) (fun k => iblk1_1_apply V c t k) (fun k q => iblk1_2_apply V c t k q) j _ ?_ ?_
  · show win1_3.index t (0 : Fin 2) * 2048 + 1 * (j 0).val = _; rw [e6]; omega
  · show win1_3.index t (1 : Fin 2) * 256 + 1 * (j 1).val = _; rw [e7]; omega

/-- An index of the output array is in tile `t`'s block iff each coordinate is in the block's range on its axis. -/
theorem mem_blk1 (t : Fin cfg1.N) (i : S16384x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v16).slice (win1_3.rect t)).set ↔ _
  rw [View.set_slice_whole, Rect.mem_set_unit]
  exact Iff.rfl

/-- The eight tiles cover the output: row `r` is in tile `r / 2048`. -/
theorem cover1 (i : S16384x256.Idx) : ∃ t : Fin cfg1.N, (cfg1.win 3).flush t = true ∧ i ∈ ((cfg1.win 3).blk t).view.set := by
  have hi0 : (i 0).val < 16384 := (i 0).isLt
  have hi1 : (i 1).val < 256 := (i 1).isLt
  have hN : grid1.N = 8 := N_1
  have ht : (i 0).val / 2048 < grid1.N := by rw [hN]; omega
  obtain ⟨-, -, -, -, -, -, e6, e7⟩ := idx_facts1 ⟨(i 0).val / 2048, ht⟩
  refine ⟨⟨(i 0).val / 2048, ht⟩, flush1_3 _, ?_⟩
  rw [mem_blk1]
  intro a
  match a with
  | ⟨0, _⟩ =>
    show win1_3.index ⟨(i 0).val / 2048, ht⟩ (0 : Fin 2) * 2048 ≤ (i 0).val ∧ (i 0).val < win1_3.index ⟨(i 0).val / 2048, ht⟩ (0 : Fin 2) * 2048 + 2048
    rw [e6]; show (i 0).val / 2048 * 2048 ≤ (i 0).val ∧ (i 0).val < (i 0).val / 2048 * 2048 + 2048; omega
  | ⟨1, _⟩ =>
    show win1_3.index ⟨(i 0).val / 2048, ht⟩ (1 : Fin 2) * 256 ≤ (i 1).val ∧ (i 1).val < win1_3.index ⟨(i 0).val / 2048, ht⟩ (1 : Fin 2) * 256 + 256
    rw [e7]; omega

/-- THE SECOND DENSE LAYER'S ARRAY after the region: the whole product of the rectified biased aggregated features and
    the second layer's weights, as the region finds the three arrays. -/
theorem arr1_eq (c : Dev nD) : (dat1 (F := Ideal) V c).arrAt 3 cfg1.N
    = Cert.Stages.dot1 (F := Ideal) (Cert.Stages.actv (F := Ideal) (V c main_v14) (V c main_v15)) (V c main_arg4) :=
  (dat1 (F := Ideal) V c).arrAt_eq_of_cover 3
    (Cert.Stages.dot1 (F := Ideal) (Cert.Stages.actv (F := Ideal) (V c main_v14) (V c main_v15)) (V c main_arg4))
    (fun t _ => flushed1_eq V c t) cover1

end Cert.KernelIdeal.Hand

end
-- ==== Proof.KI.Val2SRow.lean ====
/-
  One row of the cluster head: the logits of a row of aggregated features (bias, rectifier, the head's weights and
  bias) and the softmax of a row of logits, as functions of that row alone. The body's payload of a tile at (r, j)
  and the whole-array stage at (i, j) are both the softmax at lane j of the logits of their row: the row maximum
  is the same fold of max over the sixteen lanes from minus infinity, the row sum the same sum over the lanes, the
  product the same sum over the 256 features.
-/
import proofs.«142186_j22943715295834_1_alg».proof.Proof.Gen.KernelIdeal.Skeleton
import proofs.«142186_j22943715295834_1_alg».proof.Proof.Stages
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Hand.Head2

open Cert.KernelIdeal Cert.KernelIdeal.Gen Idealize.ShloMosaic Idealize.ShloMosaic.TcCoe Idealize.SL.Sem
open Idealize.ShloMosaic.ValueIdx
open scoped BigOperators

/-! ## One row: logits and softmax as functions of the row -/

/-- minus infinity and zero, as both programs write them -/
abbrev ninf32 : EReal := Ideal.ofBits .f32 0xFF800000#32
abbrev zero32 : EReal := Ideal.ofBits .f32 0x00000000#32

/-- the logits of a row `a` of features: rectified biased features times the head's weights, plus the head's bias -/
def rowLogit (a : Fin 256 → EReal) (b : Fin 256 → EReal) (W : Fin 256 → Fin 16 → EReal) (bc : Fin 16 → EReal) (j : Fin 16) : EReal :=
  (∑ k : Fin 256, max (a k + b k) zero32 * W k j) + bc j

/-- the maximum of a row of logits, taken from minus infinity -/
def rowMax (l : Fin 16 → EReal) : EReal := max ninf32 ((Finset.univ : Finset (Fin 16)).fold max ninf32 l)

/-- the softmax of a row of logits -/
def rowSoft (l : Fin 16 → EReal) (j : Fin 16) : EReal :=
  Ideal.div (Ideal.exp (l j - rowMax l)) (∑ j' : Fin 16, Ideal.exp (l j' - rowMax l))

/-! ## Column forms read at an index -/

/-- a vector as a column, copied along the rows: at (r, j) the vector at r -/
theorem colBcast_apply {α : Type} {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (j : Fin b) :
    broadcastTo ⟨2, ![a, b]⟩ (shapeCast ⟨2, ![a, 1]⟩ v h1) h2 (ix2 r j) = v (ix1 r) := by
  refine (broadcastTo_apply _ h2 (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · refine shapeCast_apply v h1 _ _ ?_
    rw [Shape.rowMajor_val_two, Shape.rowMajor_val_one]
    show r.val = r.val * 1 + 0
    omega

/-! ## The kernel's payload: logits, then the softmax of every row -/

/-- the tile's logits, as the body computes them from its four blocks -/
def kLogit (v3 : Vec Ideal S2048x256 .f32) (v5 : Vec Ideal S1x256 .f32) (v12 : Vec Ideal S256x16 .f32) (v15 : Vec Ideal S1x16 .f32) : FVec Ideal S2048x16 .f32 :=
  addf (matmul dot_S2048x256_S256x16_S2048x16_1_0_0_1_n_n none
      (truncf .bf16 (maximumf (addf (shapeCast S2048x256 v3 shapeCasts_S2048x256_S2048x256)
        (broadcastTo S2048x256 (shapeCast S1x256 v5 shapeCasts_S1x256_S1x256) broadcasts_S1x256_S2048x256))
        (broadcast S2048x256 (Scalar.ofBits .f32 0x00000000#32))) bitsLt_bf16_f32)
      (truncf .bf16 v12 bitsLt_bf16_f32) (constant S2048x16 .f32 0x00000000#32))
    (broadcastTo S2048x16 (shapeCast S1x16 v15 shapeCasts_S1x16_S1x16) broadcasts_S1x16_S2048x16)

/-- the row maxima of a tile of logits, as the body computes them -/
def kMax (v18 : FVec Ideal S2048x16 .f32) : FVec Ideal S2048 .f32 :=
  maximumf (broadcast S2048 (Scalar.ofBits .f32 0xFF800000#32))
    (multiReduction .maximumf [1] S2048 v18 0xFF800000#32 reduces_S2048x16_S2048 (.inl rfl) rfl)

/-- the shifted exponentials of a tile of logits -/
def kExp (v18 : FVec Ideal S2048x16 .f32) : FVec Ideal S2048x16 .f32 :=
  exp (subf v18 (broadcastTo S2048x16 (shapeCast S2048x1 (kMax v18) shapeCasts_S2048_S2048x1) broadcasts_S2048x1_S2048x16))

/-- the softmax of every row of a tile of logits, as the body computes it -/
def kSoft (v18 : FVec Ideal S2048x16 .f32) : FVec Ideal S2048x16 .f32 :=
  divf (kExp v18) (broadcastTo S2048x16 (shapeCast S2048x1
    (multiReduction .add [1] S2048 (kExp v18) 0x00000000#32 reduces_S2048x16_S2048 (.inl rfl) rfl) shapeCasts_S2048_S2048x1) broadcasts_S2048x1_S2048x16)

theorem pay3_split (v3 : Vec Ideal S2048x256 .f32) (v5 : Vec Ideal S1x256 .f32) (v12 : Vec Ideal S256x16 .f32) (v15 : Vec Ideal S1x16 .f32) :
    k2_pay3 (F := Ideal) v3 v5 v12 v15 = kSoft (kLogit v3 v5 v12 v15) := rfl

/-- the index a row reduction inserts: row r, lane k -/
theorem lift_row (r : Fin 2048) (k : Fin 16) : reduces_S2048x16_S2048.lift (ix1 r) k = ix2 r k := by
  funext a; apply Fin.ext
  match a with
  | ⟨0, _⟩ => rfl
  | ⟨1, _⟩ => rfl

theorem kMax_apply (l : FVec Ideal S2048x16 .f32) (r : Fin 2048) : kMax l (ix1 r) = rowMax (fun j' => l (ix2 r j')) := by
  unfold kMax rowMax
  refine congrArg (max ninf32) ?_
  refine (Ideal.multiReduction_maximumf_single l 0xFF800000#32 reduces_S2048x16_S2048 (.inl rfl) rfl (ix1 r)).trans ?_
  show (Finset.univ : Finset (Fin 16)).fold max ninf32 (l ∘ reduces_S2048x16_S2048.lift (ix1 r)) = _
  exact congrArg (fun f => (Finset.univ : Finset (Fin 16)).fold max ninf32 f) (funext fun k => congrArg l (lift_row r k))

theorem kExp_apply (l : FVec Ideal S2048x16 .f32) (r : Fin 2048) (j : Fin 16) :
    kExp l (ix2 r j) = Ideal.exp (l (ix2 r j) - rowMax (fun j' => l (ix2 r j'))) := by
  unfold kExp
  show Ideal.exp (l (ix2 r j) - broadcastTo S2048x16 (shapeCast S2048x1 (kMax l) shapeCasts_S2048_S2048x1) broadcasts_S2048x1_S2048x16 (ix2 r j)) = _
  rw [colBcast_apply (kMax l) shapeCasts_S2048_S2048x1 broadcasts_S2048x1_S2048x16 r j, kMax_apply]

theorem kSoft_apply (l : FVec Ideal S2048x16 .f32) (r : Fin 2048) (j : Fin 16) :
    kSoft l (ix2 r j) = rowSoft (fun j' => l (ix2 r j')) j := by
  unfold kSoft rowSoft
  show Ideal.div (kExp l (ix2 r j)) (broadcastTo S2048x16 (shapeCast S2048x1
    (multiReduction .add [1] S2048 (kExp l) 0x00000000#32 reduces_S2048x16_S2048 (.inl rfl) rfl) shapeCasts_S2048_S2048x1) broadcasts_S2048x1_S2048x16 (ix2 r j)) = _
  rw [colBcast_apply _ shapeCasts_S2048_S2048x1 broadcasts_S2048x1_S2048x16 r j, kExp_apply]
  refine congrArg (Ideal.div _) ?_
  refine (Ideal.multiReduction_add_single (kExp l) 0x00000000#32 reduces_S2048x16_S2048 (.inl rfl) rfl (ix1 r)).trans ?_
  show ∑ k : Fin 16, kExp l (reduces_S2048x16_S2048.lift (ix1 r) k) = _
  exact Finset.sum_congr rfl fun k _ => by rw [lift_row, kExp_apply]

/-! ## The tile's logits read at an index -/

theorem lhsK_0 (j : S2048x16.Idx) (k : dot_S2048x256_S256x16_S2048x16_1_0_0_1_n_n.contr.Idx) :
    (dot_S2048x256_S256x16_S2048x16_1_0_0_1_n_n.lhsIdx j k 0 : ℕ) = j 0 := by
  simp [DotDims.lhsIdx, dot_S2048x256_S256x16_S2048x16_1_0_0_1_n_n]; rfl
theorem lhsK_1 (j : S2048x16.Idx) (k : dot_S2048x256_S256x16_S2048x16_1_0_0_1_n_n.contr.Idx) :
    (dot_S2048x256_S256x16_S2048x16_1_0_0_1_n_n.lhsIdx j k 1 : ℕ) = k ⟨0, by decide⟩ := by
  simp [DotDims.lhsIdx, dot_S2048x256_S256x16_S2048x16_1_0_0_1_n_n]; rfl
theorem rhsK_0 (j : S2048x16.Idx) (k : dot_S2048x256_S256x16_S2048x16_1_0_0_1_n_n.contr.Idx) :
    (dot_S2048x256_S256x16_S2048x16_1_0_0_1_n_n.rhsIdx j k 0 : ℕ) = k ⟨0, by decide⟩ := by
  simp [DotDims.rhsIdx, dot_S2048x256_S256x16_S2048x16_1_0_0_1_n_n]; rfl
theorem rhsK_1 (j : S2048x16.Idx) (k : dot_S2048x256_S256x16_S2048x16_1_0_0_1_n_n.contr.Idx) :
    (dot_S2048x256_S256x16_S2048x16_1_0_0_1_n_n.rhsIdx j k 1 : ℕ) = j 1 := by
  simp [DotDims.rhsIdx, dot_S2048x256_S256x16_S2048x16_1_0_0_1_n_n]; rfl

/-- the contraction index of the tile's product is the feature number -/
abbrev contrK : dot_S2048x256_S256x16_S2048x16_1_0_0_1_n_n.contr.Idx ≃ Fin 256 :=
  contrEquiv1 dot_S2048x256_S256x16_S2048x16_1_0_0_1_n_n 256 rfl rfl

theorem lhsK_ix (r : Fin 2048) (j : Fin 16) (k : Fin 256) :
    dot_S2048x256_S256x16_S2048x16_1_0_0_1_n_n.lhsIdx (ix2 r j) (contrK.symm k) = ix2 r k := by
  funext a; apply Fin.ext
  match a with
  | ⟨0, _⟩ => exact lhsK_0 _ _
  | ⟨1, _⟩ => exact (lhsK_1 _ _).trans (contrEquiv1_symm_val _ 256 rfl rfl k)

theorem rhsK_ix (r : Fin 2048) (j : Fin 16) (k : Fin 256) :
    dot_S2048x256_S256x16_S2048x16_1_0_0_1_n_n.rhsIdx (ix2 r j) (contrK.symm k) = ix2 k j := by
  funext a; apply Fin.ext
  match a with
  | ⟨0, _⟩ => exact (rhsK_0 _ _).trans (contrEquiv1_symm_val _ 256 rfl rfl k)
  | ⟨1, _⟩ => exact rhsK_1 _ _

/-- the rectified biased features of the tile at (r, k) -/
theorem kAct_apply (v3 : Vec Ideal S2048x256 .f32) (v5 : Vec Ideal S1x256 .f32) (r : Fin 2048) (k : Fin 256) :
    (truncf .bf16 (maximumf (addf (shapeCast S2048x256 v3 shapeCasts_S2048x256_S2048x256)
        (broadcastTo S2048x256 (shapeCast S1x256 v5 shapeCasts_S1x256_S1x256) broadcasts_S1x256_S2048x256))
        (broadcast S2048x256 (Scalar.ofBits (F := Ideal) .f32 0x00000000#32))) bitsLt_bf16_f32 : FVec Ideal S2048x256 .bf16) (ix2 r k)
      = (max (v3 (ix2 r k) + v5 (ix2 (0 : Fin 1) k)) zero32 : EReal) := by
  rw [shapeCast_self, shapeCast_self]
  show max (v3 (ix2 r k) + broadcastTo S2048x256 v5 broadcasts_S1x256_S2048x256 (ix2 r k)) zero32 = _
  rw [broadcastTo_1b_ab_apply v5 broadcasts_S1x256_S2048x256 r k]

theorem kLogit_apply (v3 : Vec Ideal S2048x256 .f32) (v5 : Vec Ideal S1x256 .f32) (v12 : Vec Ideal S256x16 .f32) (v15 : Vec Ideal S1x16 .f32)
    (r : Fin 2048) (j : Fin 16) :
    kLogit v3 v5 v12 v15 (ix2 r j)
      = rowLogit (fun k => v3 (ix2 r k)) (fun k => v5 (ix2 (0 : Fin 1) k)) (fun k j' => v12 (ix2 k j')) (fun j' => v15 (ix2 (0 : Fin 1) j')) j := by
  unfold kLogit rowLogit
  rw [addf_apply, shapeCast_self v15, broadcastTo_1b_ab_apply v15 broadcasts_S1x16_S2048x16 r j]
  refine congrArg (· + v15 (ix2 (0 : Fin 1) j)) ?_
  refine (Ideal.matmul_constant_zero_apply dot_S2048x256_S256x16_S2048x16_1_0_0_1_n_n none _ _ (ix2 r j)).trans ?_
  rw [← Equiv.sum_comp contrK.symm]
  refine Finset.sum_congr rfl fun k _ => ?_
  rw [lhsK_ix, rhsK_ix, kAct_apply]
  rfl

/-- the body's payload at (r, j): the softmax at lane j of the logits of row r of the tile -/
theorem pay3_apply (v3 : Vec Ideal S2048x256 .f32) (v5 : Vec Ideal S1x256 .f32) (v12 : Vec Ideal S256x16 .f32) (v15 : Vec Ideal S1x16 .f32)
    (r : Fin 2048) (j : Fin 16) :
    k2_pay3 (F := Ideal) v3 v5 v12 v15 (ix2 r j)
      = rowSoft (rowLogit (fun k => v3 (ix2 r k)) (fun k => v5 (ix2 (0 : Fin 1) k)) (fun k j' => v12 (ix2 k j')) (fun j' => v15 (ix2 (0 : Fin 1) j'))) j := by
  rw [pay3_split, kSoft_apply]
  exact congrArg (fun l => rowSoft l j) (funext fun j' => kLogit_apply v3 v5 v12 v15 r j')

/-! ## The whole-array stage read at an index -/

/-- the reduction of the lanes of the whole array, for naming the inserted index -/
theorem reducesH : Cert.ReferenceIdeal.S16384x16.Reduces [1] Cert.ReferenceIdeal.S16384 := by decide

theorem liftH_row (i : Fin 16384) (k : Fin 16) : reducesH.lift (ix1 i) k = ix2 i k := by
  funext a; apply Fin.ext
  match a with
  | ⟨0, _⟩ => rfl
  | ⟨1, _⟩ => rfl

/-- the host's column forms: a vector as a column copied along the rows reads the vector at the row -/
theorem colBcastH_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (r : Fin a) (j : Fin b) :
    broadcastInDim ⟨2, ![a, b]⟩ ![0, 1] h2 (broadcastInDim ⟨2, ![a, 1]⟩ ![0] h1 v) (ix2 r j) = v (ix1 r) := by
  refine (broadcastInDim_apply ![0, 1] h2 _ (ix2 r j) (ix2 r (0 : Fin 1)) fun ax => ?_).trans ?_
  · match ax with
    | ⟨0, _⟩ =>
      show r.val = if a = 1 then 0 else r.val
      split
      · have := r.isLt; omega
      · rfl
    | ⟨1, _⟩ => rfl
  · refine broadcastInDim_apply ![0] h1 v (ix2 r (0 : Fin 1)) (ix1 r) fun ax => ?_
    match ax with
    | ⟨0, _⟩ =>
      show r.val = if a = 1 then 0 else r.val
      split
      · have := r.isLt; omega
      · rfl

/-- the host's row maxima -/
def hMax (l : FVec Ideal Cert.ReferenceIdeal.S16384x16 .f32) : FVec Ideal Cert.ReferenceIdeal.S16384 .f32 :=
  maximumf (broadcastInDim Cert.ReferenceIdeal.S16384 ![] Cert.ReferenceIdeal.Facts₀.bcast_S_S16384 (constant (F := Ideal) Cert.ReferenceIdeal.S_ .f32 0xFF800000#32))
    (Host.reduce FloatOps.maximumf l (constant (F := Ideal) Cert.ReferenceIdeal.S_ .f32 0xFF800000#32) Cert.ReferenceIdeal.Facts₀.reducesTo_S16384x16_S16384_d1 Cert.ReferenceIdeal.Facts₀.h_S_)

theorem hMax_apply (l : FVec Ideal Cert.ReferenceIdeal.S16384x16 .f32) (i : Fin 16384) :
    hMax l (ix1 i) = rowMax (fun j' => l (ix2 i j')) := by
  unfold hMax rowMax
  refine congrArg (max ninf32) ?_
  refine (Host.reduce_eq_fold_single FloatOps.maximumf l _ Cert.ReferenceIdeal.Facts₀.reducesTo_S16384x16_S16384_d1 reducesH Cert.ReferenceIdeal.Facts₀.h_S_ (ix1 i)).trans ?_
  show (Finset.univ : Finset (Fin 16)).fold max ninf32 (l ∘ reducesH.lift (ix1 i)) = _
  exact congrArg (fun f => (Finset.univ : Finset (Fin 16)).fold max ninf32 f) (funext fun k => congrArg l (liftH_row i k))

theorem expShift_apply (l : FVec Ideal Cert.ReferenceIdeal.S16384x16 .f32) (i : Fin 16384) (j : Fin 16) :
    Cert.Stages.expShift (F := Ideal) l (ix2 i j) = Ideal.exp (l (ix2 i j) - rowMax (fun j' => l (ix2 i j'))) := by
  have e : Cert.Stages.expShift (F := Ideal) l = Host.exp (subf l (broadcastInDim Cert.ReferenceIdeal.S16384x16 ![0, 1] Cert.ReferenceIdeal.Facts₀.bcast_S16384x1_S16384x16_0_1
    (broadcastInDim Cert.ReferenceIdeal.S16384x1 ![0] Cert.ReferenceIdeal.Facts₀.bcast_S16384_S16384x1_0 (hMax l)))) := rfl
  rw [e]
  show Ideal.exp (l (ix2 i j) - broadcastInDim Cert.ReferenceIdeal.S16384x16 ![0, 1] Cert.ReferenceIdeal.Facts₀.bcast_S16384x1_S16384x16_0_1
    (broadcastInDim Cert.ReferenceIdeal.S16384x1 ![0] Cert.ReferenceIdeal.Facts₀.bcast_S16384_S16384x1_0 (hMax l)) (ix2 i j)) = _
  rw [colBcastH_apply _ Cert.ReferenceIdeal.Facts₀.bcast_S16384_S16384x1_0 Cert.ReferenceIdeal.Facts₀.bcast_S16384x1_S16384x16_0_1 i j, hMax_apply]

theorem smax_apply (l : FVec Ideal Cert.ReferenceIdeal.S16384x16 .f32) (i : Fin 16384) (j : Fin 16) :
    Cert.Stages.smax (F := Ideal) l (ix2 i j) = rowSoft (fun j' => l (ix2 i j')) j := by
  unfold Cert.Stages.smax rowSoft
  rw [hostDivf_apply, colBcastH_apply _ Cert.ReferenceIdeal.Facts₀.bcast_S16384_S16384x1_0 Cert.ReferenceIdeal.Facts₀.bcast_S16384x1_S16384x16_0_1 i j, expShift_apply]
  refine congrArg (Ideal.div _) ?_
  rw [hostReduceAdd_apply]
  refine (Ideal.hostReduceAdd_single Cert.ReferenceIdeal.Facts₀.reducesTo_S16384x16_S16384_d1 reducesH _ _ (ix1 i)).trans ?_
  show Ideal.ofBits .f32 0x00000000#32 + ∑ k : Fin 16, Cert.Stages.expShift (F := Ideal) l (reducesH.lift (ix1 i) k) = _
  rw [Ideal.ofBits_zero_f32, zero_add]
  exact Finset.sum_congr rfl fun k _ => by rw [liftH_row, expShift_apply]

/-! ## The whole-array logits read at an index -/

theorem lhsH_0 (j : Cert.ReferenceIdeal.S16384x16.Idx) (k : Cert.ReferenceIdeal.dot_S16384x256_S256x16_S16384x16_1_0_0_1_n_n.contr.Idx) :
    (Cert.ReferenceIdeal.dot_S16384x256_S256x16_S16384x16_1_0_0_1_n_n.lhsIdx j k 0 : ℕ) = j 0 := by
  simp [DotDims.lhsIdx, Cert.ReferenceIdeal.dot_S16384x256_S256x16_S16384x16_1_0_0_1_n_n]; rfl
theorem lhsH_1 (j : Cert.ReferenceIdeal.S16384x16.Idx) (k : Cert.ReferenceIdeal.dot_S16384x256_S256x16_S16384x16_1_0_0_1_n_n.contr.Idx) :
    (Cert.ReferenceIdeal.dot_S16384x256_S256x16_S16384x16_1_0_0_1_n_n.lhsIdx j k 1 : ℕ) = k ⟨0, by decide⟩ := by
  simp [DotDims.lhsIdx, Cert.ReferenceIdeal.dot_S16384x256_S256x16_S16384x16_1_0_0_1_n_n]; rfl
theorem rhsH_0 (j : Cert.ReferenceIdeal.S16384x16.Idx) (k : Cert.ReferenceIdeal.dot_S16384x256_S256x16_S16384x16_1_0_0_1_n_n.contr.Idx) :
    (Cert.ReferenceIdeal.dot_S16384x256_S256x16_S16384x16_1_0_0_1_n_n.rhsIdx j k 0 : ℕ) = k ⟨0, by decide⟩ := by
  simp [DotDims.rhsIdx, Cert.ReferenceIdeal.dot_S16384x256_S256x16_S16384x16_1_0_0_1_n_n]; rfl
theorem rhsH_1 (j : Cert.ReferenceIdeal.S16384x16.Idx) (k : Cert.ReferenceIdeal.dot_S16384x256_S256x16_S16384x16_1_0_0_1_n_n.contr.Idx) :
    (Cert.ReferenceIdeal.dot_S16384x256_S256x16_S16384x16_1_0_0_1_n_n.rhsIdx j k 1 : ℕ) = j 1 := by
  simp [DotDims.rhsIdx, Cert.ReferenceIdeal.dot_S16384x256_S256x16_S16384x16_1_0_0_1_n_n]; rfl

/-- the contraction index of the whole product is the feature number -/
abbrev contrH : Cert.ReferenceIdeal.dot_S16384x256_S256x16_S16384x16_1_0_0_1_n_n.contr.Idx ≃ Fin 256 :=
  contrEquiv1 Cert.ReferenceIdeal.dot_S16384x256_S256x16_S16384x16_1_0_0_1_n_n 256 rfl rfl

theorem lhsH_ix (i : Fin 16384) (j : Fin 16) (k : Fin 256) :
    Cert.ReferenceIdeal.dot_S16384x256_S256x16_S16384x16_1_0_0_1_n_n.lhsIdx (ix2 i j) (contrH.symm k) = ix2 i k := by
  funext a; apply Fin.ext
  match a with
  | ⟨0, _⟩ => exact lhsH_0 _ _
  | ⟨1, _⟩ => exact (lhsH_1 _ _).trans (contrEquiv1_symm_val _ 256 rfl rfl k)

theorem rhsH_ix (i : Fin 16384) (j : Fin 16) (k : Fin 256) :
    Cert.ReferenceIdeal.dot_S16384x256_S256x16_S16384x16_1_0_0_1_n_n.rhsIdx (ix2 i j) (contrH.symm k) = ix2 k j := by
  funext a; apply Fin.ext
  match a with
  | ⟨0, _⟩ => exact (rhsH_0 _ _).trans (contrEquiv1_symm_val _ 256 rfl rfl k)
  | ⟨1, _⟩ => exact rhsH_1 _ _

/-- the host's one row copied down the rows reads the row -/
theorem rowBcastH_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

theorem actv_apply (A : FVec Ideal Cert.ReferenceIdeal.S16384x256 .f32) (b : FVec Ideal Cert.ReferenceIdeal.S1x256 .f32) (i : Fin 16384) (k : Fin 256) :
    Cert.Stages.actv (F := Ideal) A b (ix2 i k) = max (A (ix2 i k) + b (ix2 (0 : Fin 1) k)) zero32 := by
  unfold Cert.Stages.actv
  rw [maximumf_apply, addf_apply, rowBcastH_apply b Cert.ReferenceIdeal.Facts₀.bcast_S1x256_S16384x256_0_1 i k, broadcastInDim_scalar_apply]
  rfl

theorem logits_apply (h : FVec Ideal Cert.ReferenceIdeal.S16384x256 .f32) (W : FVec Ideal Cert.ReferenceIdeal.S256x16 .f32)
    (bc : FVec Ideal Cert.ReferenceIdeal.S1x16 .f32) (i : Fin 16384) (j : Fin 16) :
    Cert.Stages.logits (F := Ideal) h W bc (ix2 i j)
      = (∑ k : Fin 256, h (ix2 i k) * W (ix2 k j)) + bc (ix2 (0 : Fin 1) j) := by
  unfold Cert.Stages.logits Cert.Stages.dotc
  rw [addf_apply, rowBcastH_apply bc Cert.ReferenceIdeal.Facts₀.bcast_S1x16_S16384x16_0_1 i j]
  refine congrArg (· + bc (ix2 (0 : Fin 1) j)) ?_
  refine (Ideal.dotGeneral_apply Cert.ReferenceIdeal.dot_S16384x256_S256x16_S16384x16_1_0_0_1_n_n none _ h W (ix2 i j)).trans ?_
  rw [← Equiv.sum_comp contrH.symm]
  refine Finset.sum_congr rfl fun k _ => ?_
  rw [lhsH_ix, rhsH_ix]

/-- the whole-array stage at (i, j): the softmax of row i's logits -/
theorem headS_apply (A : FVec Ideal Cert.ReferenceIdeal.S16384x256 .f32) (b : FVec Ideal Cert.ReferenceIdeal.S1x256 .f32)
    (W : FVec Ideal Cert.ReferenceIdeal.S256x16 .f32) (bc : FVec Ideal Cert.ReferenceIdeal.S1x16 .f32) (i : Fin 16384) (j : Fin 16) :
    Cert.Stages.smax (F := Ideal) (Cert.Stages.logits (F := Ideal) (Cert.Stages.actv (F := Ideal) A b) W bc) (ix2 i j)
      = rowSoft (rowLogit (fun k => A (ix2 i k)) (fun k => b (ix2 (0 : Fin 1) k)) (fun k j' => W (ix2 k j')) (fun j' => bc (ix2 (0 : Fin 1) j'))) j := by
  rw [smax_apply]
  refine congrArg (fun l => rowSoft l j) (funext fun j' => ?_)
  rw [logits_apply]
  unfold rowLogit
  refine congrArg (· + bc (ix2 (0 : Fin 1) j')) (Finset.sum_congr rfl fun k _ => ?_)
  rw [actv_apply]

end Cert.KernelIdeal.Hand.Head2

end
-- ==== Proof.KI.Val2S.lean ====
/-
  The cluster head's region, its assignments output: every tile of soft assignments the body leaves is the
  matching block of rows of the whole-array softmax of the cluster logits, because each row of the softmax
  depends on the same row of the aggregated features only (row r of tile t is row 2048 t + r of the array; the
  bias row, the head's weights and the head's bias are staged whole at every tile); the eight tiles are written
  back one by one and fill the array.
-/
import proofs.«142186_j22943715295834_1_alg».proof.Proof.KI.Reg2
import proofs.«142186_j22943715295834_1_alg».proof.Proof.KI.Val2SRow
import proofs.«142186_j22943715295834_1_alg».proof.Proof.Stages
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Cert.KernelIdeal.Hand.Head2

variable (V : (c : Dev nD) → (b : Ref sig .tc) → Buf (Elt Ideal) ((c : Thread nD τ).loc b))

/-- the stage the region computes row-wise -/
abbrev headS (c : Dev nD) := Cert.Stages.smax (F := Ideal) (Cert.Stages.logits (F := Ideal) (Cert.Stages.actv (F := Ideal) (V c main_v26) (V c main_v27)) (V c main_arg6) (V c main_v28))

namespace Head2

/-- the index maps over the eight tiles: the features and the assignments move by row tile, the rest stay -/
theorem idxS : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem tile_lt (t : Fin cfg2.N) : t.val < 8 := lt_of_lt_of_eq t.isLt N_2

/-- row r of tile t is row 2048 t + r of the array -/
def rowOf (t : Fin cfg2.N) (r : Fin 2048) : Fin 16384 := ⟨2048 * t.val + r.val, by have := tile_lt t; have := r.isLt; omega⟩

/-- the features' block at tile t: rows 2048 t .. of the aggregated features -/
theorem iblk2_0_apply (c : Dev nD) (t : Fin cfg2.N) (r : Fin 2048) (k : Fin 256) :
    iblk2 (F := Ideal) V c 0 t (ix2 r k) = V c main_v26 (ix2 (rowOf t r) k) := by
  show V c main_v26 (((cfg2.win 0).blk t).view.emb (ix2 r k)) = _
  refine congrArg (V c main_v26) ?_
  obtain ⟨e0, e1, -⟩ := idxS t
  funext a; apply Fin.ext
  match a with
  | ⟨0, _⟩ => show win2_0.index t (0 : Fin 2) * 2048 + 1 * r.val = 2048 * t.val + r.val; omega
  | ⟨1, _⟩ => show win2_0.index t (1 : Fin 2) * 256 + 1 * k.val = k.val; omega

/-- the bias row, the head's weights and the head's bias are staged whole -/
theorem iblk2_1_apply (c : Dev nD) (t : Fin cfg2.N) (u : Fin 1) (k : Fin 256) :
    iblk2 (F := Ideal) V c 1 t (ix2 u k) = V c main_v27 (ix2 u k) := by
  show V c main_v27 (((cfg2.win 1).blk t).view.emb (ix2 u k)) = _
  refine congrArg (V c main_v27) ?_
  obtain ⟨-, -, e0, e1, -⟩ := idxS t
  funext a; apply Fin.ext
  match a with
  | ⟨0, _⟩ => show win2_1.index t (0 : Fin 2) * 1 + 1 * u.val = u.val; omega
  | ⟨1, _⟩ => show win2_1.index t (1 : Fin 2) * 256 + 1 * k.val = k.val; omega

theorem iblk2_2_apply (c : Dev nD) (t : Fin cfg2.N) (k : Fin 256) (j : Fin 16) :
    iblk2 (F := Ideal) V c 2 t (ix2 k j) = V c main_arg6 (ix2 k j) := by
  show V c main_arg6 (((cfg2.win 2).blk t).view.emb (ix2 k j)) = _
  refine congrArg (V c main_arg6) ?_
  obtain ⟨-, -, -, -, e0, e1, -⟩ := idxS t
  funext a; apply Fin.ext
  match a with
  | ⟨0, _⟩ => show win2_2.index t (0 : Fin 2) * 256 + 1 * k.val = k.val; omega
  | ⟨1, _⟩ => show win2_2.index t (1 : Fin 2) * 16 + 1 * j.val = j.val; omega

theorem iblk2_3_apply (c : Dev nD) (t : Fin cfg2.N) (u : Fin 1) (j : Fin 16) :
    iblk2 (F := Ideal) V c 3 t (ix2 u j) = V c main_v28 (ix2 u j) := by
  show V c main_v28 (((cfg2.win 3).blk t).view.emb (ix2 u j)) = _
  refine congrArg (V c main_v28) ?_
  obtain ⟨-, -, -, -, -, -, e0, e1, -⟩ := idxS t
  funext a; apply Fin.ext
  match a with
  | ⟨0, _⟩ => show win2_3.index t (0 : Fin 2) * 1 + 1 * u.val = u.val; omega
  | ⟨1, _⟩ => show win2_3.index t (1 : Fin 2) * 16 + 1 * j.val = j.val; omega

/-- where the assignments' block at tile t sits in the array -/
theorem emb4 (t : Fin cfg2.N) (r : Fin 2048) (j : Fin 16) :
    ((cfg2.win 4).blk t).view.emb (ix2 r j) = ix2 (rowOf t r) j := by
  obtain ⟨-, -, -, -, -, -, -, -, e0, e1⟩ := idxS t
  funext a; apply Fin.ext
  match a with
  | ⟨0, _⟩ => show win2_4.index t (0 : Fin 2) * 2048 + 1 * r.val = 2048 * t.val + r.val; omega
  | ⟨1, _⟩ => show win2_4.index t (1 : Fin 2) * 16 + 1 * j.val = j.val; omega

end Head2

/-- the tile's softmax IS block t of the whole-array stage: row r of the tile is computed from row 2048 t + r of the features only -/
theorem sblk2_eq (c : Dev nD) (t : Fin cfg2.N) : sblk2 (F := Ideal) V c t = ((cfg2.win 4).blk t).view.read (Elt Ideal) (headS V c) := by
  funext y
  obtain ⟨r, j, rfl⟩ : ∃ (r : Fin 2048) (j : Fin 16), y = ix2 r j := ⟨(y 0 : Fin 2048), (y 1 : Fin 16), eq_ix2 y⟩
  show k2_pay3 (F := Ideal) (iblk2 V c 0 t) (iblk2 V c 1 t) (iblk2 V c 2 t) (iblk2 V c 3 t) (ix2 r j)
    = headS V c (((cfg2.win 4).blk t).view.emb (ix2 r j))
  rw [emb4 t r j]
  refine (pay3_apply (iblk2 V c 0 t) (iblk2 V c 1 t) (iblk2 V c 2 t) (iblk2 V c 3 t) r j).trans ?_
  refine Eq.trans ?_ (headS_apply (V c main_v26) (V c main_v27) (V c main_arg6) (V c main_v28) (rowOf t r) j).symm
  have h0 : (fun k : Fin 256 => iblk2 (F := Ideal) V c 0 t (ix2 r k)) = fun k => V c main_v26 (ix2 (rowOf t r) k) :=
    funext fun k => iblk2_0_apply V c t r k
  have h1 : (fun k : Fin 256 => iblk2 (F := Ideal) V c 1 t (ix2 (0 : Fin 1) k)) = fun k => V c main_v27 (ix2 (0 : Fin 1) k) :=
    funext fun k => iblk2_1_apply V c t 0 k
  have h2 : (fun (k : Fin 256) (j' : Fin 16) => iblk2 (F := Ideal) V c 2 t (ix2 k j')) = fun k j' => V c main_arg6 (ix2 k j') :=
    funext fun k => funext fun j' => iblk2_2_apply V c t k j'
  have h3 : (fun j' : Fin 16 => iblk2 (F := Ideal) V c 3 t (ix2 (0 : Fin 1) j')) = fun j' => V c main_v28 (ix2 (0 : Fin 1) j') :=
    funext fun j' => iblk2_3_apply V c t 0 j'
  rw [h0, h1, h2, h3]

/-! ## From the tiles to the array -/

namespace Head2

/-- what tile t writes back is block t of the stage -/
theorem flushedS_eq (c : Dev nD) (t : Fin cfg2.N) :
    (dat2 (F := Ideal) V c).flushed 4 t = ((cfg2.win 4).blk t).view.read (Elt Ideal) (headS V c) := by
  show (cfg2.win 4).cut (grid2.coords t) ((dat2 (F := Ideal) V c).after 4 t) = _
  rw [after2_4]
  exact sblk2_eq V c t

/-- an index of the array is in tile t's block iff each coordinate is in the block's range on its axis -/
theorem mem_blkS (t : Fin cfg2.N) (i : S16384x16.Idx) :
    i ∈ ((cfg2.win 4).blk t).view.set ↔ ∀ a : Fin 2, win2_4.index t a * S2048x16.size a ≤ (i a).val ∧ (i a).val < win2_4.index t a * S2048x16.size a + S2048x16.size a := by
  show i ∈ ((View.whole main_v29_0).slice (win2_4.rect t)).set ↔ _
  rw [View.set_slice_whole, Rect.mem_set_unit]
  exact Iff.rfl

/-- the tile that covers row i is i / 2048 -/
theorem coverS (i : S16384x16.Idx) : ∃ t : Fin cfg2.N, (cfg2.win 4).flush t = true ∧ i ∈ ((cfg2.win 4).blk t).view.set := by
  have hi0 : (i 0).val < 16384 := (i 0).isLt
  have hi1 : (i 1).val < 16 := (i 1).isLt
  have hN : cfg2.N = 8 := N_2
  let t : Fin cfg2.N := ⟨(i 0).val / 2048, by rw [hN]; omega⟩
  obtain ⟨-, -, -, -, -, -, -, -, e0, e1⟩ := idxS t
  have e0' : win2_4.index t (0 : Fin 2) = (i 0).val / 2048 := e0
  refine ⟨t, flush2_4 t, ?_⟩
  rw [mem_blkS]
  intro a
  match a with
  | ⟨0, _⟩ => show win2_4.index t (0 : Fin 2) * 2048 ≤ (i 0).val ∧ (i 0).val < win2_4.index t (0 : Fin 2) * 2048 + 2048; omega
  | ⟨1, _⟩ => show win2_4.index t (1 : Fin 2) * 16 ≤ (i 1).val ∧ (i 1).val < win2_4.index t (1 : Fin 2) * 16 + 16; omega

end Head2

/-- the assignments' array after the region: the whole-array stage -/
theorem arr2S_eq (c : Dev nD) : (dat2 (F := Ideal) V c).arrAt 4 cfg2.N = headS V c :=
  (dat2 (F := Ideal) V c).arrAt_eq_of_cover 4 (headS V c) (fun t _ => flushedS_eq V c t) coverS

end Cert.KernelIdeal.Hand

end
-- ==== Proof.KI.Val2G.lean ====
/-
  The cluster head's region, its Gram output. A 16x16 accumulator is cleared at the first tile and gains at every
  tile the Gram matrix of the tile of soft assignments: the tile's transpose times the tile, entry (i, j) the sum
  over the tile's 2048 rows of the products of the row's entries i and j. A tile is a block of 2048 consecutive rows
  of the whole-array softmax S of the cluster logits (row r of tile t is row 2048 t + r), so after tile n entry
  (i, j) of the accumulator is the sum over tiles 0..n of those row sums; after the last tile it is the sum over
  all 16384 rows of S[k, i] * S[k, j], the eight blocks of 2048 rows being the 16384 rows once each. That is the
  Gram matrix of S, the transpose of S times S. Only commutativity and associativity of the extended reals' sum
  are used. The output's one write-back, after the last tile, writes the whole 16x16 array.
-/
import proofs.«142186_j22943715295834_1_alg».proof.Proof.KI.Reg2
import proofs.«142186_j22943715295834_1_alg».proof.Proof.KI.Val2S
import proofs.«142186_j22943715295834_1_alg».proof.Proof.Stages
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

variable (V : (c : Dev nD) → (b : Ref sig .tc) → Buf (Elt Ideal) ((c : Thread nD τ).loc b))

namespace Gram2

/-! ### The two contractions' index maps -/

/-- The tile's product: a [16,2048] transpose times the [2048,16] tile. -/
abbrev DK := Cert.KernelIdeal.dot_S16x2048_S2048x16_S16x16_1_0_0_1_n_n
/-- The whole product: the [16,16384] transpose times the [16384,16] matrix. -/
abbrev DR := Cert.ReferenceIdeal.dot_S16x16384_S16384x16_S16x16_1_0_0_1_n_n

theorem lhsK_0 (j : S16x16.Idx) (k : DK.contr.Idx) : (DK.lhsIdx j k 0 : ℕ) = j 0 := rfl
theorem lhsK_1 (j : S16x16.Idx) (k : DK.contr.Idx) : (DK.lhsIdx j k 1 : ℕ) = k ⟨0, by decide⟩ := rfl
theorem rhsK_0 (j : S16x16.Idx) (k : DK.contr.Idx) : (DK.rhsIdx j k 0 : ℕ) = k ⟨0, by decide⟩ := rfl
theorem rhsK_1 (j : S16x16.Idx) (k : DK.contr.Idx) : (DK.rhsIdx j k 1 : ℕ) = j 1 := rfl

theorem lhsR_0 (j : Cert.ReferenceIdeal.S16x16.Idx) (k : DR.contr.Idx) : (DR.lhsIdx j k 0 : ℕ) = j 0 := rfl
theorem lhsR_1 (j : Cert.ReferenceIdeal.S16x16.Idx) (k : DR.contr.Idx) : (DR.lhsIdx j k 1 : ℕ) = k ⟨0, by decide⟩ := rfl
theorem rhsR_0 (j : Cert.ReferenceIdeal.S16x16.Idx) (k : DR.contr.Idx) : (DR.rhsIdx j k 0 : ℕ) = k ⟨0, by decide⟩ := rfl
theorem rhsR_1 (j : Cert.ReferenceIdeal.S16x16.Idx) (k : DR.contr.Idx) : (DR.rhsIdx j k 1 : ℕ) = j 1 := rfl

/-! ### One tile's Gram matrix, entry by entry -/

/-- The transpose of a [2048,16] tile times the tile, into the zero accumulator: entry (i, j) is the sum over the
    tile's rows of the products of the row's entries i and j. -/
theorem gramTile_apply (s : FVec Ideal S2048x16 .f32) (i j : Fin 16) :
    matmul DK (some .fp32) (transpose S16x2048 [1, 0] s transposes_S2048x16_p1_0_S16x2048) s (constant (F := Ideal) S16x16 .f32 0x00000000#32) (ix2 i j)
      = ∑ r : Fin 2048, s (ix2 r i) * s (ix2 r j) := by
  simp only [matmul]
  rw [Ideal.matmul_constant_zero_apply]
  rw [← Equiv.sum_comp (contrEquiv1 DK 2048 rfl rfl).symm]
  refine Finset.sum_congr rfl fun r _ => ?_
  have hk : (((contrEquiv1 DK 2048 rfl rfl).symm r) ⟨0, by decide⟩ : ℕ) = r.val := contrEquiv1_symm_val DK 2048 rfl rfl r
  congr 1
  · refine transpose_apply _ s _ _ (ix2 r i) fun b => ?_
    match b with
    | ⟨0, _⟩ => show (i : ℕ) = (DK.lhsIdx (ix2 i j) _ 0 : ℕ); exact (lhsK_0 (ix2 i j) _).symm
    | ⟨1, _⟩ => show (r : ℕ) = (DK.lhsIdx (ix2 i j) _ 1 : ℕ); exact ((lhsK_1 (ix2 i j) _).trans hk).symm
  · refine congrArg s (funext fun a => Fin.ext ?_)
    match a with
    | ⟨0, _⟩ => show (DK.rhsIdx (ix2 i j) _ 0 : ℕ) = (r : ℕ); exact (rhsK_0 (ix2 i j) _).trans hk
    | ⟨1, _⟩ => show (DK.rhsIdx (ix2 i j) _ 1 : ℕ) = (j : ℕ); exact rhsK_1 (ix2 i j) _

/-- The whole Gram matrix, entry by entry: the sum over all 16384 rows. -/
theorem gram_apply (S : FVec Ideal Cert.ReferenceIdeal.S16384x16 .f32) (i j : Fin 16) :
    Cert.Stages.gram (F := Ideal) S (ix2 i j) = ∑ r : Fin 16384, S (ix2 r i) * S (ix2 r j) := by
  unfold Cert.Stages.gram
  simp only [Host.dotGeneral]
  rw [Ideal.dotGeneral_apply]
  rw [← Equiv.sum_comp (contrEquiv1 DR 16384 rfl rfl).symm]
  refine Finset.sum_congr rfl fun r _ => ?_
  have hk : (((contrEquiv1 DR 16384 rfl rfl).symm r) ⟨0, by decide⟩ : ℕ) = r.val := contrEquiv1_symm_val DR 16384 rfl rfl r
  congr 1
  · refine transpose_apply _ S _ _ (ix2 r i) fun b => ?_
    match b with
    | ⟨0, _⟩ => show (i : ℕ) = (DR.lhsIdx (ix2 i j) _ 0 : ℕ); exact (lhsR_0 (ix2 i j) _).symm
    | ⟨1, _⟩ => show (r : ℕ) = (DR.lhsIdx (ix2 i j) _ 1 : ℕ); exact ((lhsR_1 (ix2 i j) _).trans hk).symm
  · refine congrArg S (funext fun a => Fin.ext ?_)
    match a with
    | ⟨0, _⟩ => show (DR.rhsIdx (ix2 i j) _ 0 : ℕ) = (r : ℕ); exact (rhsR_0 (ix2 i j) _).trans hk
    | ⟨1, _⟩ => show (DR.rhsIdx (ix2 i j) _ 1 : ℕ) = (j : ℕ); exact rhsR_1 (ix2 i j) _

/-- The body's update of the accumulator, entry by entry: what it held plus the tile's Gram entry. -/
theorem pay4_apply (v3 : Vec Ideal S2048x256 .f32) (v5 : Vec Ideal S1x256 .f32) (v12 : Vec Ideal S256x16 .f32) (v15 : Vec Ideal S1x16 .f32)
    (acc : FVec Ideal S16x16 .f32) (i j : Fin 16) :
    k2_pay1 (k2_pay4 v3 v5 v12 v15 acc) (ix2 i j)
      = acc (ix2 i j) + ∑ r : Fin 2048, k2_pay3 v3 v5 v12 v15 (ix2 r i) * k2_pay3 v3 v5 v12 v15 (ix2 r j) := by
  unfold k2_pay1 k2_pay4
  refine (congrFun (shapeCast_self _ _) (ix2 i j)).trans ?_
  exact congrArg (acc (ix2 i j) + ·) (gramTile_apply (k2_pay3 v3 v5 v12 v15) i j)

/-- The cleared accumulator is zero everywhere. -/
theorem pay2_apply (i j : Fin 16) : k2_pay2 (F := Ideal) (ix2 i j) = 0 := by
  unfold k2_pay2
  refine (congrFun (shapeCast_self _ _) (ix2 i j)).trans ?_
  exact Ideal.ofBits_zero_f32

/-! ### A tile of soft assignments is a block of rows of the whole matrix -/

/-- The printed index maps, decided over the grid: the assignments' window moves one block of rows per tile,
    the Gram output's window stays at block (0, 0). -/
theorem idx_facts : ∀ t : Fin cfg2.N, win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

theorem N_eq : cfg2.N = 8 := N_2

/-- Row `r` of tile `n` is row `2048 n + r` of the matrix. -/
abbrev rowAt (n : ℕ) (hn : n < 8) (r : Fin 2048) : Fin 16384 := ⟨2048 * n + r.val, by have := r.isLt; omega⟩

/-- An entry of the tile the body leaves at tile `t` is the entry of the whole softmax at row `2048 t + r`. -/
theorem sblk2_apply (c : Dev nD) (t : Fin cfg2.N) (r : Fin 2048) (j : Fin 16) :
    sblk2 (F := Ideal) V c t (ix2 r j) = headS V c (ix2 (rowAt t.val (N_eq ▸ t.isLt) r) j) := by
  rw [sblk2_eq]
  show headS V c (((cfg2.win 4).blk t).view.emb (ix2 r j)) = _
  obtain ⟨e0, e1, -, -⟩ := idx_facts t
  refine congrArg (headS V c) (funext fun a => Fin.ext ?_)
  match a with
  | ⟨0, _⟩ => show win2_4.index t (0 : Fin 2) * 2048 + 1 * r.val = 2048 * t.val + r.val; rw [e0]; omega
  | ⟨1, _⟩ => show win2_4.index t (1 : Fin 2) * 16 + 1 * j.val = j.val; rw [e1]; omega

/-- Tile `t`'s Gram entry (i, j): the sum over the tile's 2048 rows of the matrix. -/
def tileTerm (S : FVec Ideal Cert.ReferenceIdeal.S16384x16 .f32) (i j : Fin 16) (t : Fin 8) : EReal :=
  ∑ r : Fin 2048, S (ix2 (rowAt t.val t.isLt r) i) * S (ix2 (rowAt t.val t.isLt r) j)

/-- The tile's Gram entry over the body's tile is the one over the matrix's block of rows. -/
theorem tile_eq (c : Dev nD) (t : Fin cfg2.N) (i j : Fin 16) :
    (∑ r : Fin 2048, k2_pay3 (iblk2 V c 0 t) (iblk2 V c 1 t) (iblk2 V c 2 t) (iblk2 V c 3 t) (ix2 r i)
        * k2_pay3 (iblk2 V c 0 t) (iblk2 V c 1 t) (iblk2 V c 2 t) (iblk2 V c 3 t) (ix2 r j))
      = tileTerm (headS V c) i j ⟨t.val, N_eq ▸ t.isLt⟩ := by
  unfold tileTerm
  refine Finset.sum_congr rfl fun r _ => ?_
  show sblk2 (F := Ideal) V c t (ix2 r i) * sblk2 (F := Ideal) V c t (ix2 r j) = _
  rw [sblk2_apply, sblk2_apply]

/-! ### The accumulator after tile n holds the Gram entries of tiles 0..n -/

theorem filter_succ (n : ℕ) (hn : n + 1 < 8) :
    Finset.univ.filter (fun t : Fin 8 => t.val ≤ n + 1) = insert ⟨n + 1, hn⟩ (Finset.univ.filter (fun t : Fin 8 => t.val ≤ n)) := by
  ext t
  simp only [Finset.mem_filter, Finset.mem_univ, true_and, Finset.mem_insert, Fin.ext_iff]
  omega

theorem accAt2_apply (c : Dev nD) (i j : Fin 16) : ∀ (n : ℕ) (hn : n < cfg2.N),
    accAt2 (F := Ideal) V c n hn (ix2 i j) = ∑ t ∈ Finset.univ.filter (fun t : Fin 8 => t.val ≤ n), tileTerm (headS V c) i j t
  | 0, hn => by
    show k2_pay1 (k2_pay4 (iblk2 V c 0 ⟨0, hn⟩) (iblk2 V c 1 ⟨0, hn⟩) (iblk2 V c 2 ⟨0, hn⟩) (iblk2 V c 3 ⟨0, hn⟩) (k2_pay2 (F := Ideal))) (ix2 i j) = _
    refine (pay4_apply (iblk2 V c 0 ⟨0, hn⟩) (iblk2 V c 1 ⟨0, hn⟩) (iblk2 V c 2 ⟨0, hn⟩) (iblk2 V c 3 ⟨0, hn⟩) (k2_pay2 (F := Ideal)) i j).trans ?_
    rw [pay2_apply, zero_add, tile_eq V c ⟨0, hn⟩ i j]
    have hf : Finset.univ.filter (fun t : Fin 8 => t.val ≤ 0) = {(⟨0, by decide⟩ : Fin 8)} := by
      ext t
      simp only [Finset.mem_filter, Finset.mem_univ, true_and, Finset.mem_singleton, Fin.ext_iff]
      omega
    rw [hf, Finset.sum_singleton]
  | n + 1, hn => by
    have h8 : n + 1 < 8 := N_eq ▸ hn
    show k2_pay1 (k2_pay4 (iblk2 V c 0 ⟨n + 1, hn⟩) (iblk2 V c 1 ⟨n + 1, hn⟩) (iblk2 V c 2 ⟨n + 1, hn⟩) (iblk2 V c 3 ⟨n + 1, hn⟩)
      (accAt2 (F := Ideal) V c n (Nat.lt_of_succ_lt hn))) (ix2 i j) = _
    refine (pay4_apply (iblk2 V c 0 ⟨n + 1, hn⟩) (iblk2 V c 1 ⟨n + 1, hn⟩) (iblk2 V c 2 ⟨n + 1, hn⟩) (iblk2 V c 3 ⟨n + 1, hn⟩)
      (accAt2 (F := Ideal) V c n (Nat.lt_of_succ_lt hn)) i j).trans ?_
    rw [accAt2_apply c i j n (Nat.lt_of_succ_lt hn), tile_eq V c ⟨n + 1, hn⟩ i j, filter_succ n h8,
      Finset.sum_insert (by simp only [Finset.mem_filter, Finset.mem_univ, true_and]; omega), add_comm]

/-! ### Eight tiles of 2048 rows are the 16384 rows -/

/-- (tile, row in the tile) ↦ row of the matrix. -/
def rowEquiv : Fin 8 × Fin 2048 ≃ Fin 16384 := finProdFinEquiv.trans (finCongr (by norm_num))

theorem rowEquiv_apply (x : Fin 8 × Fin 2048) : rowEquiv x = rowAt x.1.val x.1.isLt x.2 := by
  apply Fin.ext
  simp only [rowEquiv, Equiv.trans_apply, finProdFinEquiv_apply_val, finCongr_apply, Fin.coe_cast]
  omega

theorem sum_tiles (S : FVec Ideal Cert.ReferenceIdeal.S16384x16 .f32) (i j : Fin 16) :
    ∑ t : Fin 8, tileTerm S i j t = ∑ k : Fin 16384, S (ix2 k i) * S (ix2 k j) := by
  unfold tileTerm
  rw [← Equiv.sum_comp rowEquiv (fun k : Fin 16384 => S (ix2 k i) * S (ix2 k j)), Fintype.sum_prod_type]
  refine Finset.sum_congr rfl fun t _ => Finset.sum_congr rfl fun r _ => ?_
  rw [rowEquiv_apply]

/-- After the last tile the accumulator is the Gram matrix of the whole softmax. -/
theorem accAt2_last (c : Dev nD) (hn : 7 < cfg2.N) (i j : Fin 16) :
    accAt2 (F := Ideal) V c 7 hn (ix2 i j) = Cert.Stages.gram (F := Ideal) (headS V c) (ix2 i j) := by
  rw [accAt2_apply V c i j 7 hn, gram_apply, ← sum_tiles]
  refine Finset.sum_congr (Finset.filter_true_of_mem fun t _ => ?_) fun _ _ => rfl
  have := t.isLt
  omega

/-! ### The array: the one write-back, after the last tile, writes the whole 16x16 array -/

/-- An index of the array is in tile `t`'s block iff each coordinate is in the block's range on its axis. -/
theorem mem_blk5 (t : Fin cfg2.N) (i : S16x16.Idx) :
    i ∈ ((cfg2.win 5).blk t).view.set ↔ ∀ a : Fin 2, win2_5.index t a * S16x16.size a ≤ (i a).val ∧ (i a).val < win2_5.index t a * S16x16.size a + S16x16.size a := by
  show i ∈ ((View.whole main_v29_1).slice (win2_5.rect t)).set ↔ _
  rw [View.set_slice_whole, Rect.mem_set_unit]
  exact Iff.rfl

/-- What the write-back writes is the whole Gram matrix read through the window's block. -/
theorem flushed5_eq (c : Dev nD) (t : Fin cfg2.N) (hf : (cfg2.win 5).flush t = true) :
    (dat2 (F := Ideal) V c).flushed 5 t = ((cfg2.win 5).blk t).view.read (Elt Ideal) (Cert.Stages.gram (F := Ideal) (headS V c)) := by
  have h8 : t.val < 8 := lt_of_lt_of_eq t.isLt N_eq
  have h7 : t.val = 7 := by have := (flush2_5 t).mp hf; omega
  obtain ⟨n, hn⟩ := t
  obtain rfl : n = 7 := h7
  show (cfg2.win 5).cut (grid2.coords ⟨7, hn⟩) ((dat2 (F := Ideal) V c).after 5 ⟨7, hn⟩) = _
  rw [after2_5]
  obtain ⟨-, -, e0, e1⟩ := idx_facts ⟨7, hn⟩
  funext y
  show accAt2 (F := Ideal) V c 7 hn y = Cert.Stages.gram (F := Ideal) (headS V c) (((cfg2.win 5).blk ⟨7, hn⟩).view.emb y)
  have he : ((cfg2.win 5).blk ⟨7, hn⟩).view.emb y = y := by
    funext a; apply Fin.ext
    match a with
    | ⟨0, _⟩ => show win2_5.index ⟨7, hn⟩ (0 : Fin 2) * 16 + 1 * (y 0).val = (y 0).val; rw [e0]; omega
    | ⟨1, _⟩ => show win2_5.index ⟨7, hn⟩ (1 : Fin 2) * 16 + 1 * (y 1).val = (y 1).val; rw [e1]; omega
  rw [he]
  obtain ⟨i, j, rfl⟩ : ∃ (i : Fin 16) (j : Fin 16), y = ix2 i j := ⟨y 0, y 1, eq_ix2 y⟩
  exact accAt2_last V c hn i j

end Gram2

/-- The Gram output's array after the region: the Gram matrix of the whole-array softmax of the cluster logits. -/
theorem arr2G_eq (c : Dev nD) : (dat2 (F := Ideal) V c).arrAt 5 cfg2.N = Cert.Stages.gram (F := Ideal) (headS V c) :=
  (dat2 (F := Ideal) V c).arrAt_eq_of_cover 5 (Cert.Stages.gram (F := Ideal) (headS V c)) (Gram2.flushed5_eq V c) fun i =>
    ⟨t2_7, (flush2_5 t2_7).mpr rfl, by
      rw [Gram2.mem_blk5]
      obtain ⟨-, -, e0, e1⟩ := Gram2.idx_facts t2_7
      intro a
      match a with
      | ⟨0, _⟩ => show win2_5.index t2_7 (0 : Fin 2) * 16 ≤ (i 0).val ∧ (i 0).val < win2_5.index t2_7 (0 : Fin 2) * 16 + 16
                  have h0 : (i 0).val < 16 := (i 0).isLt
                  rw [e0]; omega
      | ⟨1, _⟩ => show win2_5.index t2_7 (1 : Fin 2) * 16 ≤ (i 1).val ∧ (i 1).val < win2_5.index t2_7 (1 : Fin 2) * 16 + 16
                  have h1 : (i 1).val < 16 := (i 1).isLt
                  rw [e1]; omega⟩

end Cert.KernelIdeal.Hand
end
-- ==== Proof.KI.Value.lean ====
/-
  The tiled program's two results as the stages' composition. Through its run the tiled program's buffers are, at
  every boundary, stages of the launch contents: the first region leaves the first dense product, the host stretch
  after it the aggregation over the edges and the bias as a row, the second region the second dense product of
  the rectified biased aggregate, the next stretch its aggregation, the third region the row softmax of the head's
  logits and its Gram matrix, the last stretches the loss.
-/
import proofs.«142186_j22943715295834_1_alg».proof.Proof.KI.Run
import proofs.«142186_j22943715295834_1_alg».proof.Proof.KI.HostRead
import proofs.«142186_j22943715295834_1_alg».proof.Proof.KI.Val0
import proofs.«142186_j22943715295834_1_alg».proof.Proof.KI.Val1
import proofs.«142186_j22943715295834_1_alg».proof.Proof.KI.Val2S
import proofs.«142186_j22943715295834_1_alg».proof.Proof.KI.Val2G

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Buffers no segment has written yet hold their launch contents -/

theorem W1_keep (c : Dev nD) (r : Ref sig .tc) (h0 : r ∉ hostOps0_W) :
    W1 m ρ c (Proc.devRef .tc r) = m ((c : Thread nD τ).loc r) :=
  (W1_of m ρ c r h0).trans rfl

theorem W2_keep (c : Dev nD) (r : Ref sig .tc) (h0 : r ∉ hostOps0_W) (hA0 : ∀ w, Pipeline.arrRef spec0 w ≠ r) :
    W2 m ρ c (Proc.devRef .tc r) = m ((c : Thread nD τ).loc r) :=
  (W2_of_ne m ρ c r hA0).trans (W1_keep m ρ c r h0)

theorem W3_keep (c : Dev nD) (r : Ref sig .tc) (h0 : r ∉ hostOps0_W) (hA0 : ∀ w, Pipeline.arrRef spec0 w ≠ r) (h1 : r ∉ hostOps1_W) :
    W3 m ρ c (Proc.devRef .tc r) = m ((c : Thread nD τ).loc r) :=
  (W3_of m ρ c r h1).trans (W2_keep m ρ c r h0 hA0)

theorem W4_keep (c : Dev nD) (r : Ref sig .tc) (h0 : r ∉ hostOps0_W) (hA0 : ∀ w, Pipeline.arrRef spec0 w ≠ r) (h1 : r ∉ hostOps1_W)
    (hA1 : ∀ w, Pipeline.arrRef spec1 w ≠ r) : W4 m ρ c (Proc.devRef .tc r) = m ((c : Thread nD τ).loc r) :=
  (W4_of_ne m ρ c r hA1).trans (W3_keep m ρ c r h0 hA0 h1)

theorem W5_keep (c : Dev nD) (r : Ref sig .tc) (h0 : r ∉ hostOps0_W) (hA0 : ∀ w, Pipeline.arrRef spec0 w ≠ r) (h1 : r ∉ hostOps1_W)
    (hA1 : ∀ w, Pipeline.arrRef spec1 w ≠ r) (h2 : r ∉ hostOps2_W) : W5 m ρ c (Proc.devRef .tc r) = m ((c : Thread nD τ).loc r) :=
  (W5_of m ρ c r h2).trans (W4_keep m ρ c r h0 hA0 h1 hA1)

/-! ## The edges' sources and destinations, named by the first stretch and kept -/

theorem W1_src (c : Dev nD) : W1 m ρ c (Proc.devRef .tc main_v1) = Cert.Stages.srcIdx (m ((c : Thread nD τ).loc main_arg1)) :=
  hostOps0_v1 (W0 m ρ c)
theorem W1_dst (c : Dev nD) : W1 m ρ c (Proc.devRef .tc main_v3) = Cert.Stages.dstIdx (m ((c : Thread nD τ).loc main_arg1)) :=
  hostOps0_v3 (W0 m ρ c)

theorem W2_src (c : Dev nD) : W2 m ρ c (Proc.devRef .tc main_v1) = Cert.Stages.srcIdx (m ((c : Thread nD τ).loc main_arg1)) :=
  (W2_of_ne m ρ c main_v1 (by decide)).trans (W1_src m ρ c)
theorem W2_dst (c : Dev nD) : W2 m ρ c (Proc.devRef .tc main_v3) = Cert.Stages.dstIdx (m ((c : Thread nD τ).loc main_arg1)) :=
  (W2_of_ne m ρ c main_v3 (by decide)).trans (W1_dst m ρ c)

theorem W4_src (c : Dev nD) : W4 m ρ c (Proc.devRef .tc main_v1) = Cert.Stages.srcIdx (m ((c : Thread nD τ).loc main_arg1)) :=
  (W4_of_ne m ρ c main_v1 (by decide)).trans ((W3_of m ρ c main_v1 (by decide)).trans (W2_src m ρ c))
theorem W4_dst (c : Dev nD) : W4 m ρ c (Proc.devRef .tc main_v3) = Cert.Stages.dstIdx (m ((c : Thread nD τ).loc main_arg1)) :=
  (W4_of_ne m ρ c main_v3 (by decide)).trans ((W3_of m ρ c main_v3 (by decide)).trans (W2_dst m ρ c))

/-! ## The stages, boundary by boundary -/

/-- The launch contents of the eight arguments, by name. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-- After the first region: the first dense product. -/
theorem W2_v4 (c : Dev nD) : W2 m ρ c (Proc.devRef .tc main_v4) = Cert.Stages.dot0 (F := Ideal) (a0 m c) (a2 m c) := by
  refine (W2_arr m ρ c 2).trans ((arr0_eq (V1 m ρ) c).trans ?_)
  rw [show V1 m ρ c main_arg0 = a0 m c from W1_keep m ρ c main_arg0 (by decide),
    show V1 m ρ c main_arg2 = a2 m c from W1_keep m ρ c main_arg2 (by decide)]

/-- Entering the second region: the aggregate of the first product, and the first bias as a row. -/
theorem W3_v14 (c : Dev nD) : W3 m ρ c (Proc.devRef .tc main_v14) = Cert.Stages.agg (F := Ideal) (Cert.Stages.dot0 (a0 m c) (a2 m c)) (a1 m c) := by
  refine (hostOps1_v14 (W2 m ρ c)).trans ?_
  rw [W2_v4, W2_src, W2_dst, agg_eq_aggOf]
theorem W3_v15 (c : Dev nD) : W3 m ρ c (Proc.devRef .tc main_v15) = Cert.Stages.row256 (F := Ideal) (a3 m c) := by
  refine (hostOps1_v15 (W2 m ρ c)).trans ?_
  rw [show W2 m ρ c (Proc.devRef .tc main_arg3) = a3 m c from W2_keep m ρ c main_arg3 (by decide) (by decide)]

/-- After the second region: the second dense product of the first hidden layer. -/
theorem W4_v16 (c : Dev nD) : W4 m ρ c (Proc.devRef .tc main_v16)
    = Cert.Stages.dot1 (F := Ideal) (Cert.Stages.hidden1 (a0 m c) (a1 m c) (a2 m c) (Cert.Stages.row256 (a3 m c))) (a4 m c) := by
  refine (W4_arr m ρ c 3).trans ((arr1_eq (V3 m ρ) c).trans ?_)
  rw [show V3 m ρ c main_v14 = _ from W3_v14 m ρ c, show V3 m ρ c main_v15 = _ from W3_v15 m ρ c,
    show V3 m ρ c main_arg4 = a4 m c from W3_keep m ρ c main_arg4 (by decide) (by decide) (by decide)]
  rfl

/-- Entering the third region: the aggregate of the second product, and the two remaining biases as rows. -/
theorem W5_v26 (c : Dev nD) : W5 m ρ c (Proc.devRef .tc main_v26)
    = Cert.Stages.agg (F := Ideal) (Cert.Stages.dot1 (Cert.Stages.hidden1 (a0 m c) (a1 m c) (a2 m c) (Cert.Stages.row256 (a3 m c))) (a4 m c)) (a1 m c) := by
  refine (hostOps2_v26 (W4 m ρ c)).trans ?_
  rw [W4_v16, W4_src, W4_dst, agg_eq_aggOf]
theorem W5_v27 (c : Dev nD) : W5 m ρ c (Proc.devRef .tc main_v27) = Cert.Stages.row256 (F := Ideal) (a5 m c) := by
  refine (hostOps2_v27 (W4 m ρ c)).trans ?_
  rw [show W4 m ρ c (Proc.devRef .tc main_arg5) = a5 m c from W4_keep m ρ c main_arg5 (by decide) (by decide) (by decide) (by decide)]
theorem W5_v28 (c : Dev nD) : W5 m ρ c (Proc.devRef .tc main_v28) = Cert.Stages.row16 (F := Ideal) (a7 m c) := by
  refine (hostOps2_v28 (W4 m ρ c)).trans ?_
  rw [show W4 m ρ c (Proc.devRef .tc main_arg7) = a7 m c from W4_keep m ρ c main_arg7 (by decide) (by decide) (by decide) (by decide)]

/-- What the third region computes row by row is the soft assignments of the launch contents. -/
theorem headS_eq (c : Dev nD) : headS (V5 m ρ) c
    = Cert.Stages.outS (F := Ideal) (a0 m c) (a1 m c) (a2 m c) (a3 m c) (a4 m c) (a5 m c) (a6 m c) (a7 m c) := by
  unfold headS
  rw [show V5 m ρ c main_v26 = _ from W5_v26 m ρ c, show V5 m ρ c main_v27 = _ from W5_v27 m ρ c,
    show V5 m ρ c main_v28 = _ from W5_v28 m ρ c,
    show V5 m ρ c main_arg6 = a6 m c from W5_keep m ρ c main_arg6 (by decide) (by decide) (by decide) (by decide) (by decide)]
  rfl

/-- The first result at the end of the run: the soft assignments. -/
theorem W9_s (c : Dev nD) : W9 m ρ c (Proc.devRef .tc main_v29_0)
    = Cert.Stages.outS (F := Ideal) (a0 m c) (a1 m c) (a2 m c) (a3 m c) (a4 m c) (a5 m c) (a6 m c) (a7 m c) :=
  (W9_of m ρ c main_v29_0 (by decide)).trans <| (W8_of m ρ c main_v29_0 (by decide)).trans <| (W7_of m ρ c main_v29_0 (by decide)).trans <|
    (W6_arr m ρ c 4).trans <| (arr2S_eq (V5 m ρ) c).trans (headS_eq m ρ c)

/-- The second result at the end of the run: the loss of the soft assignments' Gram matrix. -/
theorem W9_loss (c : Dev nD) : W9 m ρ c (Proc.devRef .tc main_v36)
    = Cert.Stages.outLoss (F := Ideal) (a0 m c) (a1 m c) (a2 m c) (a3 m c) (a4 m c) (a5 m c) (a6 m c) (a7 m c) := by
  refine (hostTail_v36 (W6 m ρ c)).trans ?_
  rw [show W6 m ρ c (Proc.devRef .tc main_v29_1) = _ from (W6_arr m ρ c 5).trans ((arr2G_eq (V5 m ρ) c).trans (congrArg _ (headS_eq m ρ c)))]
  rfl

/-- THE RUN, READ: every weakly fair execution of the tiled program terminates with its two results at the stages'
    composition of the launch contents and its arguments unchanged. -/
theorem run_value : θ_run defs (onTc (τ := τ) (main (F := Ideal))) ⟨m, fun _ => 0, ρ⟩ (fun r => ∀ c : Dev nD,
      r.2.mem ((c.tc : Thread nD τ).loc main_v29_0) = Cert.Stages.outS (F := Ideal) (a0 m c) (a1 m c) (a2 m c) (a3 m c) (a4 m c) (a5 m c) (a6 m c) (a7 m c)
      ∧ r.2.mem ((c.tc : Thread nD τ).loc main_v36) = Cert.Stages.outLoss (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v29_0 (by decide))).trans (W9_s m ρ c),
     (h c _ (mem_uc main_v36 (by decide))).trans (W9_loss m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩)
    (run_all m ρ)

end Cert.KernelIdeal.Hand

end
-- ==== Proof.RefOps.lean ====
/- The reference program's @main as a list of its host operations, in program order: the three module-local
   functions' operations stand inline at their call sites over the calls' buffer records (@relu twice, @trace once,
   @_where inside @trace). The list is cut into six consecutive stretches: the first three are @main's statements
   1 … 60, the last three its statements 61 … 119 (statement 120 is the return); the fifth begins at the concatenate. -/
import proofs.«142186_j22943715295834_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 22: the two index rows, the first product, the first layer's gather and scatter-add, its bias, @relu's three operations. -/
abbrev ops0 : List (HloOp τ sig (Elt F)) :=
  [ unary main_arg1 main_v0 ((extractStridedSlice S1x262144 ![0, 0] · slices_S2x262144_S1x262144_0_0) : (⟨S2x262144, .i32⟩ : BufTy).Contents (Elt F) → (⟨S1x262144, .i32⟩ : BufTy).Contents (Elt F)),
    reshape main_v0 main_v1 rfl shapeCasts_S1x262144_S262144,
    unary main_arg1 main_v2 ((extractStridedSlice S1x262144 ![1, 0] · slices_S2x262144_S1x262144_1_0) : (⟨S2x262144, .i32⟩ : BufTy).Contents (Elt F) → (⟨S1x262144, .i32⟩ : BufTy).Contents (Elt F)),
    reshape main_v2 main_v3 rfl shapeCasts_S1x262144_S262144,
    binary main_arg0 main_arg2 main_v4 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
    nullary main_c (constantI S_ 32 0#32),
    unary main_c main_v5 (broadcastInDim S262144 ![] bcast_S_S262144 : (⟨S_, .i32⟩ : BufTy).Contents (Elt F) → (⟨S262144, .i32⟩ : BufTy).Contents (Elt F)),
    binary main_v1 main_v5 main_v6 (cmpi .slt : (⟨S262144, .i32⟩ : BufTy).Contents (Elt F) → (⟨S262144, .i32⟩ : BufTy).Contents (Elt F) → (⟨S262144, .i1⟩ : BufTy).Contents (Elt F)),
    nullary main_c_0 (constantI S_ 32 16384#32),
    unary main_c_0 main_v7 (broadcastInDim S262144 ![] bcast_S_S262144 : (⟨S_, .i32⟩ : BufTy).Contents (Elt F) → (⟨S262144, .i32⟩ : BufTy).Contents (Elt F)),
    binary main_v1 main_v7 main_v8 (addi : (⟨S262144, .i32⟩ : BufTy).Contents (Elt F) → (⟨S262144, .i32⟩ : BufTy).Contents (Elt F) → (⟨S262144, .i32⟩ : BufTy).Contents (Elt F)),
    ternary main_v6 main_v8 main_v1 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v9 main_v10 (broadcastInDim S262144x1 ![0] bcast_S262144_S262144x1_0 : (⟨S262144, .i32⟩ : BufTy).Contents (Elt F) → (⟨S262144x1, .i32⟩ : BufTy).Contents (Elt F)),
    binary main_v4 main_v10 main_v11 ((fun x i => Host.gather gather_S16384x256_S262144x1_S262144x256_1_0_n_n_0_1_1256 x i) : (⟨S16384x256, .f32⟩ : BufTy).Contents (Elt F) → (⟨S262144x1, .i32⟩ : BufTy).Contents (Elt F) → (⟨S262144x256, .f32⟩ : BufTy).Contents (Elt F)),
    nullary main_cst (constant S_ .f32 0x00000000#32),
    unary main_cst main_v12 (broadcastInDim S16384x256 ![] bcast_S_S16384x256 : (⟨S_, .f32⟩ : BufTy).Contents (Elt F) → (⟨S16384x256, .f32⟩ : BufTy).Contents (Elt F)),
    unary main_v3 main_v13 (broadcastInDim S262144x1 ![0] bcast_S262144_S262144x1_0 : (⟨S262144, .i32⟩ : BufTy).Contents (Elt F) → (⟨S262144x1, .i32⟩ : BufTy).Contents (Elt F)),
    ternary main_v12 main_v13 main_v11 main_v14 ((fun x i u => Host.scatterAdd scatter_S16384x256_S262144x1_S262144x256_1_0_0_1 x i u) : (⟨S16384x256, .f32⟩ : BufTy).Contents (Elt F) → (⟨S262144x1, .i32⟩ : BufTy).Contents (Elt F) → (⟨S262144x256, .f32⟩ : BufTy).Contents (Elt F) → (⟨S16384x256, .f32⟩ : BufTy).Contents (Elt F)),
    unary main_arg3 main_v15 (broadcastInDim S1x256 ![1] bcast_S256_S1x256_1 : (⟨S256, .f32⟩ : BufTy).Contents (Elt F) → (⟨S1x256, .f32⟩ : BufTy).Contents (Elt F)),
    unary main_v15 main_v16 (broadcastInDim S16384x256 ![0, 1] bcast_S1x256_S16384x256_0_1 : (⟨S1x256, .f32⟩ : BufTy).Contents (Elt F) → (⟨S16384x256, .f32⟩ : BufTy).Contents (Elt F)),
    binary main_v14 main_v16 main_v17 (addf : (⟨S16384x256, .f32⟩ : BufTy).Contents (Elt F) → (⟨S16384x256, .f32⟩ : BufTy).Contents (Elt F) → (⟨S16384x256, .f32⟩ : BufTy).Contents (Elt F)),
    TRef.nullary main_call0.cst (constant S_ .f32 0x00000000#32),
    TRef.unary main_call0.cst main_call0.v0 (broadcastInDim S16384x256 ![] bcast_S_S16384x256),
    TRef.binary (.of main_v17 : TRef sig ⟨S16384x256, .f32⟩) main_call0.v0 main_call0.v1 maximumf ]

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- Statements 23 … 40: the second product, the second layer's gather and scatter-add, its bias, @relu's three operations. -/
abbrev ops1 : List (HloOp τ sig (Elt F)) :=
  [ binary main_v18 main_arg4 main_v19 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    nullary main_c_1 (constantI S_ 32 0#32),
    unary main_c_1 main_v20 (broadcastInDim S262144 ![] bcast_S_S262144 : (⟨S_, .i32⟩ : BufTy).Contents (Elt F) → (⟨S262144, .i32⟩ : BufTy).Contents (Elt F)),
    binary main_v1 main_v20 main_v21 (cmpi .slt : (⟨S262144, .i32⟩ : BufTy).Contents (Elt F) → (⟨S262144, .i32⟩ : BufTy).Contents (Elt F) → (⟨S262144, .i1⟩ : BufTy).Contents (Elt F)),
    nullary main_c_2 (constantI S_ 32 16384#32),
    unary main_c_2 main_v22 (broadcastInDim S262144 ![] bcast_S_S262144 : (⟨S_, .i32⟩ : BufTy).Contents (Elt F) → (⟨S262144, .i32⟩ : BufTy).Contents (Elt F)),
    binary main_v1 main_v22 main_v23 (addi : (⟨S262144, .i32⟩ : BufTy).Contents (Elt F) → (⟨S262144, .i32⟩ : BufTy).Contents (Elt F) → (⟨S262144, .i32⟩ : BufTy).Contents (Elt F)),
    ternary main_v21 main_v23 main_v1 main_v24 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v24 main_v25 (broadcastInDim S262144x1 ![0] bcast_S262144_S262144x1_0 : (⟨S262144, .i32⟩ : BufTy).Contents (Elt F) → (⟨S262144x1, .i32⟩ : BufTy).Contents (Elt F)),
    binary main_v19 main_v25 main_v26 ((fun x i => Host.gather gather_S16384x256_S262144x1_S262144x256_1_0_n_n_0_1_1256 x i) : (⟨S16384x256, .f32⟩ : BufTy).Contents (Elt F) → (⟨S262144x1, .i32⟩ : BufTy).Contents (Elt F) → (⟨S262144x256, .f32⟩ : BufTy).Contents (Elt F)),
    nullary main_cst_3 (constant S_ .f32 0x00000000#32),
    unary main_cst_3 main_v27 (broadcastInDim S16384x256 ![] bcast_S_S16384x256 : (⟨S_, .f32⟩ : BufTy).Contents (Elt F) → (⟨S16384x256, .f32⟩ : BufTy).Contents (Elt F)),
    unary main_v3 main_v28 (broadcastInDim S262144x1 ![0] bcast_S262144_S262144x1_0 : (⟨S262144, .i32⟩ : BufTy).Contents (Elt F) → (⟨S262144x1, .i32⟩ : BufTy).Contents (Elt F)),
    ternary main_v27 main_v28 main_v26 main_v29 ((fun x i u => Host.scatterAdd scatter_S16384x256_S262144x1_S262144x256_1_0_0_1 x i u) : (⟨S16384x256, .f32⟩ : BufTy).Contents (Elt F) → (⟨S262144x1, .i32⟩ : BufTy).Contents (Elt F) → (⟨S262144x256, .f32⟩ : BufTy).Contents (Elt F) → (⟨S16384x256, .f32⟩ : BufTy).Contents (Elt F)),
    unary main_arg5 main_v30 (broadcastInDim S1x256 ![1] bcast_S256_S1x256_1 : (⟨S256, .f32⟩ : BufTy).Contents (Elt F) → (⟨S1x256, .f32⟩ : BufTy).Contents (Elt F)),
    unary main_v30 main_v31 (broadcastInDim S16384x256 ![0, 1] bcast_S1x256_S16384x256_0_1 : (⟨S1x256, .f32⟩ : BufTy).Contents (Elt F) → (⟨S16384x256, .f32⟩ : BufTy).Contents (Elt F)),
    binary main_v29 main_v31 main_v32 (addf : (⟨S16384x256, .f32⟩ : BufTy).Contents (Elt F) → (⟨S16384x256, .f32⟩ : BufTy).Contents (Elt F) → (⟨S16384x256, .f32⟩ : BufTy).Contents (Elt F)),
    TRef.nullary main_call1.cst (constant S_ .f32 0x00000000#32),
    TRef.unary main_call1.cst main_call1.v0 (broadcastInDim S16384x256 ![] bcast_S_S16384x256),
    TRef.binary (.of main_v32 : TRef sig ⟨S16384x256, .f32⟩) main_call1.v0 main_call1.v1 maximumf ]

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- Statements 41 … 60: the third product and its bias, the zero square matrix, the wrapped row and column indices. -/
abbrev ops2 : List (HloOp τ sig (Elt F)) :=
  [ binary main_v33 main_arg6 main_v34 ((fun l r => Host.dotGeneral dot_S16384x256_S256x16_S16384x16_1_0_0_1_n_n none l r) : (⟨S16384x256, .f32⟩ : BufTy).Contents (Elt F) → (⟨S256x16, .f32⟩ : BufTy).Contents (Elt F) → (⟨S16384x16, .f32⟩ : BufTy).Contents (Elt F)),
    unary main_arg7 main_v35 (broadcastInDim S1x16 ![1] bcast_S16_S1x16_1 : (⟨S16, .f32⟩ : BufTy).Contents (Elt F) → (⟨S1x16, .f32⟩ : BufTy).Contents (Elt F)),
    unary main_v35 main_v36 (broadcastInDim S16384x16 ![0, 1] bcast_S1x16_S16384x16_0_1 : (⟨S1x16, .f32⟩ : BufTy).Contents (Elt F) → (⟨S16384x16, .f32⟩ : BufTy).Contents (Elt F)),
    binary main_v34 main_v36 main_v37 (addf : (⟨S16384x16, .f32⟩ : BufTy).Contents (Elt F) → (⟨S16384x16, .f32⟩ : BufTy).Contents (Elt F) → (⟨S16384x16, .f32⟩ : BufTy).Contents (Elt F)),
    nullary main_cst_4 (constant S_ .f32 0x00000000#32),
    unary main_cst_4 main_v38 (broadcastInDim S16384x16384 ![] bcast_S_S16384x16384 : (⟨S_, .f32⟩ : BufTy).Contents (Elt F) → (⟨S16384x16384, .f32⟩ : BufTy).Contents (Elt F)),
    nullary main_c_5 (constantI S_ 32 0#32),
    unary main_c_5 main_v39 (broadcastInDim S262144 ![] bcast_S_S262144 : (⟨S_, .i32⟩ : BufTy).Contents (Elt F) → (⟨S262144, .i32⟩ : BufTy).Contents (Elt F)),
    binary main_v1 main_v39 main_v40 (cmpi .slt : (⟨S262144, .i32⟩ : BufTy).Contents (Elt F) → (⟨S262144, .i32⟩ : BufTy).Contents (Elt F) → (⟨S262144, .i1⟩ : BufTy).Contents (Elt F)),
    nullary main_c_6 (constantI S_ 32 16384#32),
    unary main_c_6 main_v41 (broadcastInDim S262144 ![] bcast_S_S262144 : (⟨S_, .i32⟩ : BufTy).Contents (Elt F) → (⟨S262144, .i32⟩ : BufTy).Contents (Elt F)),
    binary main_v1 main_v41 main_v42 (addi : (⟨S262144, .i32⟩ : BufTy).Contents (Elt F) → (⟨S262144, .i32⟩ : BufTy).Contents (Elt F) → (⟨S262144, .i32⟩ : BufTy).Contents (Elt F)),
    ternary main_v40 main_v42 main_v1 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_7 (constantI S_ 32 0#32),
    unary main_c_7 main_v44 (broadcastInDim S262144 ![] bcast_S_S262144 : (⟨S_, .i32⟩ : BufTy).Contents (Elt F) → (⟨S262144, .i32⟩ : BufTy).Contents (Elt F)),
    binary main_v3 main_v44 main_v45 (cmpi .slt : (⟨S262144, .i32⟩ : BufTy).Contents (Elt F) → (⟨S262144, .i32⟩ : BufTy).Contents (Elt F) → (⟨S262144, .i1⟩ : BufTy).Contents (Elt F)),
    nullary main_c_8 (constantI S_ 32 16384#32),
    unary main_c_8 main_v46 (broadcastInDim S262144 ![] bcast_S_S262144 : (⟨S_, .i32⟩ : BufTy).Contents (Elt F) → (⟨S262144, .i32⟩ : BufTy).Contents (Elt F)),
    binary main_v3 main_v46 main_v47 (addi : (⟨S262144, .i32⟩ : BufTy).Contents (Elt F) → (⟨S262144, .i32⟩ : BufTy).Contents (Elt F) → (⟨S262144, .i32⟩ : BufTy).Contents (Elt F)),
    ternary main_v45 main_v47 main_v3 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) ]

theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

/-- Statements 61 … 62: the two index columns. -/
abbrev ops3 : List (HloOp τ sig (Elt F)) :=
  [ unary main_v43 main_v49 (broadcastInDim S262144x1 ![0] bcast_S262144_S262144x1_0 : (⟨S262144, .i32⟩ : BufTy).Contents (Elt F) → (⟨S262144x1, .i32⟩ : BufTy).Contents (Elt F)),
    unary main_v48 main_v50 (broadcastInDim S262144x1 ![0] bcast_S262144_S262144x1_0 : (⟨S262144, .i32⟩ : BufTy).Contents (Elt F) → (⟨S262144x1, .i32⟩ : BufTy).Contents (Elt F)) ]

theorem ops3_sub : (ops3 : List (HloOp τ sig (Elt F))).Forall fun op => op.bufs ⊆ tcRefs τ sig :=
  ⟨unary_bufs_sub .., unary_bufs_sub ..⟩

/-- Statements 63 … 91: the concatenate, the scatter-add of ones over the index pairs, the row softmax, its three transposes and the four products, the shifted square root. -/
abbrev ops4 : List (HloOp τ sig (Elt F)) :=
  [ binary main_v49 main_v50 main_v51 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    nullary main_cst_9 (constant S_ .f32 0x3F800000#32),
    unary main_cst_9 main_v52 (broadcastInDim S262144 ![] bcast_S_S262144 : (⟨S_, .f32⟩ : BufTy).Contents (Elt F) → (⟨S262144, .f32⟩ : BufTy).Contents (Elt F)),
    ternary main_v38 main_v51 main_v52 main_v53 ((fun x i u => Host.scatterAdd scatter_S16384x16384_S262144x2_S262144_n_01_01_1 x i u) : (⟨S16384x16384, .f32⟩ : BufTy).Contents (Elt F) → (⟨S262144x2, .i32⟩ : BufTy).Contents (Elt F) → (⟨S262144, .f32⟩ : BufTy).Contents (Elt F) → (⟨S16384x16384, .f32⟩ : BufTy).Contents (Elt F)),
    nullary main_cst_10 (constant S_ .f32 0xFF800000#32),
    binary main_v37 main_cst_10 main_v54 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_11 (constant S_ .f32 0xFF800000#32),
    unary main_cst_11 main_v55 (broadcastInDim S16384 ![] bcast_S_S16384 : (⟨S_, .f32⟩ : BufTy).Contents (Elt F) → (⟨S16384, .f32⟩ : BufTy).Contents (Elt F)),
    binary main_v55 main_v54 main_v56 (maximumf : (⟨S16384, .f32⟩ : BufTy).Contents (Elt F) → (⟨S16384, .f32⟩ : BufTy).Contents (Elt F) → (⟨S16384, .f32⟩ : BufTy).Contents (Elt F)),
    unary main_v56 main_v57 (broadcastInDim S16384x1 ![0] bcast_S16384_S16384x1_0 : (⟨S16384, .f32⟩ : BufTy).Contents (Elt F) → (⟨S16384x1, .f32⟩ : BufTy).Contents (Elt F)),
    unary main_v57 main_v58 (broadcastInDim S16384x16 ![0, 1] bcast_S16384x1_S16384x16_0_1 : (⟨S16384x1, .f32⟩ : BufTy).Contents (Elt F) → (⟨S16384x16, .f32⟩ : BufTy).Contents (Elt F)),
    binary main_v37 main_v58 main_v59 (subf : (⟨S16384x16, .f32⟩ : BufTy).Contents (Elt F) → (⟨S16384x16, .f32⟩ : BufTy).Contents (Elt F) → (⟨S16384x16, .f32⟩ : BufTy).Contents (Elt F)),
    unary main_v59 main_v60 (Host.exp : (⟨S16384x16, .f32⟩ : BufTy).Contents (Elt F) → (⟨S16384x16, .f32⟩ : BufTy).Contents (Elt F)),
    nullary main_cst_12 (constant S_ .f32 0x00000000#32),
    binary main_v60 main_cst_12 main_v61 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v61 main_v62 (broadcastInDim S16384x1 ![0] bcast_S16384_S16384x1_0 : (⟨S16384, .f32⟩ : BufTy).Contents (Elt F) → (⟨S16384x1, .f32⟩ : BufTy).Contents (Elt F)),
    unary main_v62 main_v63 (broadcastInDim S16384x16 ![0, 1] bcast_S16384x1_S16384x16_0_1 : (⟨S16384x1, .f32⟩ : BufTy).Contents (Elt F) → (⟨S16384x16, .f32⟩ : BufTy).Contents (Elt F)),
    binary main_v60 main_v63 main_v64 (Host.divf : (⟨S16384x16, .f32⟩ : BufTy).Contents (Elt F) → (⟨S16384x16, .f32⟩ : BufTy).Contents (Elt F) → (⟨S16384x16, .f32⟩ : BufTy).Contents (Elt F)),
    unary main_v64 main_v65 ((transpose S16x16384 [1, 0] · transposes_S16384x16_S16x16384_1_0) : (⟨S16384x16, .f32⟩ : BufTy).Contents (Elt F) → (⟨S16x16384, .f32⟩ : BufTy).Contents (Elt F)),
    binary main_v65 main_v33 main_v66 ((fun l r => Host.dotGeneral dot_S16x16384_S16384x256_S16x256_1_0_0_1_n_n none l r) : (⟨S16x16384, .f32⟩ : BufTy).Contents (Elt F) → (⟨S16384x256, .f32⟩ : BufTy).Contents (Elt F) → (⟨S16x256, .f32⟩ : BufTy).Contents (Elt F)),
    unary main_v64 main_v67 ((transpose S16x16384 [1, 0] · transposes_S16384x16_S16x16384_1_0) : (⟨S16384x16, .f32⟩ : BufTy).Contents (Elt F) → (⟨S16x16384, .f32⟩ : BufTy).Contents (Elt F)),
    binary main_v67 main_v53 main_v68 ((fun l r => Host.dotGeneral dot_S16x16384_S16384x16384_S16x16384_1_0_0_1_n_n none l r) : (⟨S16x16384, .f32⟩ : BufTy).Contents (Elt F) → (⟨S16384x16384, .f32⟩ : BufTy).Contents (Elt F) → (⟨S16x16384, .f32⟩ : BufTy).Contents (Elt F)),
    binary main_v68 main_v64 main_v69 ((fun l r => Host.dotGeneral dot_S16x16384_S16384x16_S16x16_1_0_0_1_n_n none l r) : (⟨S16x16384, .f32⟩ : BufTy).Contents (Elt F) → (⟨S16384x16, .f32⟩ : BufTy).Contents (Elt F) → (⟨S16x16, .f32⟩ : BufTy).Contents (Elt F)),
    unary main_v64 main_v70 ((transpose S16x16384 [1, 0] · transposes_S16384x16_S16x16384_1_0) : (⟨S16384x16, .f32⟩ : BufTy).Contents (Elt F) → (⟨S16x16384, .f32⟩ : BufTy).Contents (Elt F)),
    binary main_v70 main_v64 main_v71 ((fun l r => Host.dotGeneral dot_S16x16384_S16384x16_S16x16_1_0_0_1_n_n none l r) : (⟨S16x16384, .f32⟩ : BufTy).Contents (Elt F) → (⟨S16384x16, .f32⟩ : BufTy).Contents (Elt F) → (⟨S16x16, .f32⟩ : BufTy).Contents (Elt F)),
    nullary main_cst_13 (constant S_ .f32 0x26901D7D#32),
    unary main_cst_13 main_v72 (broadcastInDim S16x16 ![] bcast_S_S16x16 : (⟨S_, .f32⟩ : BufTy).Contents (Elt F) → (⟨S16x16, .f32⟩ : BufTy).Contents (Elt F)),
    binary main_v71 main_v72 main_v73 (addf : (⟨S16x16, .f32⟩ : BufTy).Contents (Elt F) → (⟨S16x16, .f32⟩ : BufTy).Contents (Elt F) → (⟨S16x16, .f32⟩ : BufTy).Contents (Elt F)),
    unary main_v73 main_v74 (Host.sqrt : (⟨S16x16, .f32⟩ : BufTy).Contents (Elt F) → (⟨S16x16, .f32⟩ : BufTy).Contents (Elt F)) ]

theorem ops4_sub : (ops4 : List (HloOp τ sig (Elt F))).Forall fun op => op.bufs ⊆ tcRefs τ sig :=
  ⟨binary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., binary_bufs_sub .., nullary_bufs_sub .., unary_bufs_sub .., binary_bufs_sub .., unary_bufs_sub ..⟩

/-- Statements 92 … 119: @trace's eleven operations (@_where's select among them), the scalar result, the off-diagonal mask and the masked product divided by its row norms along both axes. -/
abbrev ops5 : List (HloOp τ sig (Elt F)) :=
  [ TRef.nullary main_call2.v0 (iotaInDim S16x16 32 0),
    TRef.nullary main_call2.v1 (iotaInDim S16x16 32 1),
    TRef.nullary main_call2.c (constantI S_ 32 0#32),
    TRef.unary main_call2.c main_call2.v2 (broadcastInDim S16x16 ![] bcast_S_S16x16),
    TRef.binary main_call2.v0 main_call2.v2 main_call2.v3 addi,
    TRef.binary main_call2.v3 main_call2.v1 main_call2.v4 (cmpi .eq),
    TRef.nullary main_call2.cst (constant S_ .f32 0x00000000#32),
    TRef.unary main_call2.cst main_call2.v5 (broadcastInDim S16x16 ![] bcast_S_S16x16),
    TRef.ternary main_call2.v4 (.of main_v74 : TRef sig ⟨S16x16, .f32⟩) main_call2.v5 main_call2.call0.v0 select,
    TRef.nullary main_call2.cst_0 (constant S_ .f32 0x00000000#32),
    TRef.binary main_call2.call0.v0 main_call2.cst_0 main_call2.v7 (fun x v => Host.reduceAdd x v reducesTo_S16x16_S_d0_1 h_S_),
    unary main_v75 main_v76 (Host.negf : (⟨S_, .f32⟩ : BufTy).Contents (Elt F) → (⟨S_, .f32⟩ : BufTy).Contents (Elt F)),
    nullary main_cst_14 (constant S_ .f32 0x48800000#32),
    unary main_cst_14 main_v77 (Host.sqrt : (⟨S_, .f32⟩ : BufTy).Contents (Elt F) → (⟨S_, .f32⟩ : BufTy).Contents (Elt F)),
    binary main_v76 main_v77 main_v78 (Host.divf : (⟨S_, .f32⟩ : BufTy).Contents (Elt F) → (⟨S_, .f32⟩ : BufTy).Contents (Elt F) → (⟨S_, .f32⟩ : BufTy).Contents (Elt F)),
    nullary main_v79 (iotaInDim S16x16 32 0),
    nullary main_v80 (iotaInDim S16x16 32 1),
    nullary main_c_15 (constantI S_ 32 0#32),
    unary main_c_15 main_v81 (broadcastInDim S16x16 ![] bcast_S_S16x16 : (⟨S_, .i32⟩ : BufTy).Contents (Elt F) → (⟨S16x16, .i32⟩ : BufTy).Contents (Elt F)),
    binary main_v79 main_v81 main_v82 (addi : (⟨S16x16, .i32⟩ : BufTy).Contents (Elt F) → (⟨S16x16, .i32⟩ : BufTy).Contents (Elt F) → (⟨S16x16, .i32⟩ : BufTy).Contents (Elt F)),
    binary main_v82 main_v80 main_v83 (cmpi .eq : (⟨S16x16, .i32⟩ : BufTy).Contents (Elt F) → (⟨S16x16, .i32⟩ : BufTy).Contents (Elt F) → (⟨S16x16, .i1⟩ : BufTy).Contents (Elt F)),
    unary main_v83 main_v84 (uitofp .f32 : (⟨S16x16, .i1⟩ : BufTy).Contents (Elt F) → (⟨S16x16, .f32⟩ : BufTy).Contents (Elt F)),
    nullary main_cst_16 (constant S_ .f32 0x3F800000#32),
    unary main_cst_16 main_v85 (broadcastInDim S16x16 ![] bcast_S_S16x16 : (⟨S_, .f32⟩ : BufTy).Contents (Elt F) → (⟨S16x16, .f32⟩ : BufTy).Contents (Elt F)),
    binary main_v85 main_v84 main_v86 (subf : (⟨S16x16, .f32⟩ : BufTy).Contents (Elt F) → (⟨S16x16, .f32⟩ : BufTy).Contents (Elt F) → (⟨S16x16, .f32⟩ : BufTy).Contents (Elt F)),
    binary main_v69 main_v86 main_v87 (mulf : (⟨S16x16, .f32⟩ : BufTy).Contents (Elt F) → (⟨S16x16, .f32⟩ : BufTy).Contents (Elt F) → (⟨S16x16, .f32⟩ : BufTy).Contents (Elt F)),
    nullary main_cst_17 (constant S_ .f32 0x00000000#32),
    binary main_v87 main_cst_17 main_v88 ((fun x v => Host.reduceAdd x v reducesTo_S16x16_S16_d1 h_S_) : (⟨S16x16, .f32⟩ : BufTy).Contents (Elt F) → (⟨S_, .f32⟩ : BufTy).Contents (Elt F) → (⟨S16, .f32⟩ : BufTy).Contents (Elt F)),
    unary main_v88 main_v89 (Host.sqrt : (⟨S16, .f32⟩ : BufTy).Contents (Elt F) → (⟨S16, .f32⟩ : BufTy).Contents (Elt F)),
    unary main_v89 main_v90 (broadcastInDim S1x16 ![1] bcast_S16_S1x16_1 : (⟨S16, .f32⟩ : BufTy).Contents (Elt F) → (⟨S1x16, .f32⟩ : BufTy).Contents (Elt F)),
    nullary main_cst_18 (constant S_ .f32 0x26901D7D#32),
    unary main_cst_18 main_v91 (broadcastInDim S1x16 ![] bcast_S_S1x16 : (⟨S_, .f32⟩ : BufTy).Contents (Elt F) → (⟨S1x16, .f32⟩ : BufTy).Contents (Elt F)),
    binary main_v90 main_v91 main_v92 (addf : (⟨S1x16, .f32⟩ : BufTy).Contents (Elt F) → (⟨S1x16, .f32⟩ : BufTy).Contents (Elt F) → (⟨S1x16, .f32⟩ : BufTy).Contents (Elt F)),
    unary main_v92 main_v93 (broadcastInDim S16x16 ![0, 1] bcast_S1x16_S16x16_0_1 : (⟨S1x16, .f32⟩ : BufTy).Contents (Elt F) → (⟨S16x16, .f32⟩ : BufTy).Contents (Elt F)),
    binary main_v87 main_v93 main_v94 (Host.divf : (⟨S16x16, .f32⟩ : BufTy).Contents (Elt F) → (⟨S16x16, .f32⟩ : BufTy).Contents (Elt F) → (⟨S16x16, .f32⟩ : BufTy).Contents (Elt F)),
    unary main_v92 main_v95 ((transpose S16x1 [1, 0] · transposes_S1x16_S16x1_1_0) : (⟨S1x16, .f32⟩ : BufTy).Contents (Elt F) → (⟨S16x1, .f32⟩ : BufTy).Contents (Elt F)),
    unary main_v95 main_v96 (broadcastInDim S16x16 ![0, 1] bcast_S16x1_S16x16_0_1 : (⟨S16x1, .f32⟩ : BufTy).Contents (Elt F) → (⟨S16x16, .f32⟩ : BufTy).Contents (Elt F)),
    binary main_v94 main_v96 main_v97 (Host.divf : (⟨S16x16, .f32⟩ : BufTy).Contents (Elt F) → (⟨S16x16, .f32⟩ : BufTy).Contents (Elt F) → (⟨S16x16, .f32⟩ : BufTy).Contents (Elt F)) ]

theorem ops5_sub : (ops5 : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., unary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub ..⟩

/-- @main's 133 operations, in order. -/
abbrev ops : List (HloOp τ sig (Elt F)) :=
  ops0 ++ (ops1 ++ (ops2 ++ (ops3 ++ (ops4 ++ ops5))))

theorem ops_sub : (ops : List (HloOp τ sig (Elt F))).Forall fun op => op.bufs ⊆ tcRefs τ sig := by
  simp only [ops, List.forall_append]
  exact ⟨ops0_sub, ops1_sub, ops2_sub, ops3_sub, ops4_sub, ops5_sub⟩

end Cert.ReferenceIdeal.Hand

end
-- ==== Proof.RefRun.lean ====
/- The reference program's run: @main is the straight line of the operations of RefOps.lean (each window's
   equation by unfolding the module-local functions at their calls and reassociating the sequencing, the two windows
   joined by `seq_append`), no operation of the line allocates, the signature scopes nothing; so every weakly fair
   execution terminates with each buffer at the operations' fold over the launch contents (`run_seq`). -/
import proofs.«142186_j22943715295834_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- sixty-four binds re-associated: the rewrite under the chain recurses once per statement
set_option maxRecDepth 8192 in
set_option maxHeartbeats 4000000 in
/-- @main's statements 1 … 60 are the first three stretches: @relu's definition unfolded at its two calls and the
    records at their fields, both sides are one chain of `hlo` steps once sequencing is reassociated. -/
theorem main_part0_eq (c : Dev nD) : main_part0 (F := F) c = seq (ops0 ++ (ops1 ++ ops2)) := by
  simp only [main_part0, fn_relu.body, seq, List.cons_append, List.nil_append, bind_assoc, pure_bind] <;> rfl

set_option maxRecDepth 8192 in
set_option maxHeartbeats 4000000 in
/-- @main's statements 61 … 120 are the last three stretches: @trace's and @_where's definitions unfolded at their
    calls. -/
theorem main_part1_eq (c : Dev nD) : main_part1 (F := F) c = seq (ops3 ++ (ops4 ++ ops5)) := by
  simp only [main_part1, fn_trace.body, fn_where.body, seq, List.cons_append, List.nil_append, bind_assoc, pure_bind] <;> rfl

/-- @main is the straight line of its operations. -/
theorem main_eq (c : Dev nD) : main (F := F) c = seq ops := by
  have h : ops (F := F) = (ops0 ++ (ops1 ++ ops2)) ++ (ops3 ++ (ops4 ++ ops5)) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops5_fresh : ∀ op ∈ (ops5 : List (HloOp τ sig (Elt F))), op.fresh = ∅ := by
  intro _ h; (repeat (cases h with | head => rfl | tail _ h => ?_)); exact nomatch h

/-- No operation of the line allocates: each determines its results. -/
theorem ops_fresh : ∀ op ∈ (ops : List (HloOp τ sig (Elt F))), op.fresh = ∅ := by
  intro op h
  simp only [ops, List.mem_append] at h
  rcases h with h | h | h | h | h | h
  exacts [ops0_fresh op h, ops1_fresh op h, ops2_fresh op h, ops3_fresh op h, ops4_fresh op h, ops5_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefOut.lean ====
/- The reference program's fold of host operations, read at its two results as the composition of the named stages:
   stretch by stretch, each stretch's live results as stages of what the stretch reads, every other reference of
   interest carried across the stretches that do not write it; then the stretches composed. The dead values (the
   square adjacency matrix and what is computed from it) are never opened. -/
import proofs.«142186_j22943715295834_1_alg».proof.Proof.RefOps
import proofs.«142186_j22943715295834_1_alg».proof.Proof.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two stretches in a row is the fold over the second after the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch writes, and that it leaves every other reference alone -/

/-- The references the stretch `ops0` writes, in order. -/
abbrev ops0_W : List (Ref sig .tc) := [main_v0, main_v1, main_v2, main_v3, main_v4, main_c, main_v5, main_v6, main_c_0, main_v7, main_v8, main_v9, main_v10, main_v11, main_cst, main_v12, main_v13, main_v14, main_v15, main_v16, main_v17, main_call0_cst, main_call0_v0, main_v18]

theorem ops0_writes : (ops0 : List (HloOp τ sig (Elt F))).Forall fun op => op.writes ⊆ (ops0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference the stretch `ops0` does not write keeps its contents. -/
theorem ops0_of (V : Valuation τ sig (Elt F)) (r : Ref sig .tc) (h : r ∉ ops0_W) :
    after ops0 V (Proc.devRef .tc r) = V (Proc.devRef .tc r) :=
  after_of_writes_sub ops0 V ops0_writes h

/-- The references the stretch `ops1` writes, in order. -/
abbrev ops1_W : List (Ref sig .tc) := [main_v19, main_c_1, main_v20, main_v21, main_c_2, main_v22, main_v23, main_v24, main_v25, main_v26, main_cst_3, main_v27, main_v28, main_v29, main_v30, main_v31, main_v32, main_call1_cst, main_call1_v0, main_v33]

theorem ops1_writes : (ops1 : List (HloOp τ sig (Elt F))).Forall fun op => op.writes ⊆ (ops1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference the stretch `ops1` does not write keeps its contents. -/
theorem ops1_of (V : Valuation τ sig (Elt F)) (r : Ref sig .tc) (h : r ∉ ops1_W) :
    after ops1 V (Proc.devRef .tc r) = V (Proc.devRef .tc r) :=
  after_of_writes_sub ops1 V ops1_writes h

/-- The references the stretch `ops2` writes, in order. -/
abbrev ops2_W : List (Ref sig .tc) := [main_v34, main_v35, main_v36, main_v37, main_cst_4, main_v38, main_c_5, main_v39, main_v40, main_c_6, main_v41, main_v42, main_v43, main_c_7, main_v44, main_v45, main_c_8, main_v46, main_v47, main_v48]

theorem ops2_writes : (ops2 : List (HloOp τ sig (Elt F))).Forall fun op => op.writes ⊆ (ops2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference the stretch `ops2` does not write keeps its contents. -/
theorem ops2_of (V : Valuation τ sig (Elt F)) (r : Ref sig .tc) (h : r ∉ ops2_W) :
    after ops2 V (Proc.devRef .tc r) = V (Proc.devRef .tc r) :=
  after_of_writes_sub ops2 V ops2_writes h

/-- The references the stretch `ops3` writes, in order. -/
abbrev ops3_W : List (Ref sig .tc) := [main_v49, main_v50]

theorem ops3_writes : (ops3 : List (HloOp τ sig (Elt F))).Forall fun op => op.writes ⊆ (ops3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference the stretch `ops3` does not write keeps its contents. -/
theorem ops3_of (V : Valuation τ sig (Elt F)) (r : Ref sig .tc) (h : r ∉ ops3_W) :
    after ops3 V (Proc.devRef .tc r) = V (Proc.devRef .tc r) :=
  after_of_writes_sub ops3 V ops3_writes h

/-- The references the stretch `ops4` writes, in order. -/
abbrev ops4_W : List (Ref sig .tc) := [main_v51, main_cst_9, main_v52, main_v53, main_cst_10, main_v54, main_cst_11, main_v55, main_v56, main_v57, main_v58, main_v59, main_v60, main_cst_12, main_v61, main_v62, main_v63, main_v64, main_v65, main_v66, main_v67, main_v68, main_v69, main_v70, main_v71, main_cst_13, main_v72, main_v73, main_v74]

theorem ops4_writes : (ops4 : List (HloOp τ sig (Elt F))).Forall fun op => op.writes ⊆ (ops4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference the stretch `ops4` does not write keeps its contents. -/
theorem ops4_of (V : Valuation τ sig (Elt F)) (r : Ref sig .tc) (h : r ∉ ops4_W) :
    after ops4 V (Proc.devRef .tc r) = V (Proc.devRef .tc r) :=
  after_of_writes_sub ops4 V ops4_writes h

/-- The references the stretch `ops5` writes, in order. -/
abbrev ops5_W : List (Ref sig .tc) := [main_call2_v0, main_call2_v1, main_call2_c, main_call2_v2, main_call2_v3, main_call2_v4, main_call2_cst, main_call2_v5, main_call2_v6, main_call2_cst_0, main_v75, main_v76, main_cst_14, main_v77, main_v78, main_v79, main_v80, main_c_15, main_v81, main_v82, main_v83, main_v84, main_cst_16, main_v85, main_v86, main_v87, main_cst_17, main_v88, main_v89, main_v90, main_cst_18, main_v91, main_v92, main_v93, main_v94, main_v95, main_v96, main_v97]

theorem ops5_writes : (ops5 : List (HloOp τ sig (Elt F))).Forall fun op => op.writes ⊆ (ops5_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A reference the stretch `ops5` does not write keeps its contents. -/
theorem ops5_of (V : Valuation τ sig (Elt F)) (r : Ref sig .tc) (h : r ∉ ops5_W) :
    after ops5 V (Proc.devRef .tc r) = V (Proc.devRef .tc r) :=
  after_of_writes_sub ops5 V ops5_writes h

/-! ## The live results of each stretch, as stages of what the stretch reads

Each by computation: the fold unrolled and each operation's result rewritten at the reference read (its function's value
at the reference it writes, what was there at any other), the typed references' casts the identity at these literal
references. The gathers, scatters, reductions,
the concatenate and the transposes stay folded: the equations never look inside them. -/

attribute [local irreducible] Host.gather Host.scatterAdd Host.reduce Host.reduceAdd Host.exp Host.divf Host.sqrt Host.negf concatenate transpose

/-- The aggregation over the edges with the two index rows given: the rows of `h` at the wrapped sources, summed
    into the destinations. `Cert.Stages.agg h e` is this at the two rows of the edge table. -/
def aggAt (h : Cert.Stages.C (F := F) S16384x256 .f32) (src dst : Cert.Stages.C (F := F) S262144 .i32) :
    Cert.Stages.C (F := F) S16384x256 .f32 :=
  Host.scatterAdd scatter_S16384x256_S262144x1_S262144x256_1_0_0_1
    (broadcastInDim S16384x256 ![] bcast_S_S16384x256 (constant S_ .f32 0x00000000#32))
    (broadcastInDim S262144x1 ![0] bcast_S262144_S262144x1_0 dst)
    (Host.gather gather_S16384x256_S262144x1_S262144x256_1_0_n_n_0_1_1256 h
      (broadcastInDim S262144x1 ![0] bcast_S262144_S262144x1_0 (Cert.Stages.normIdx src)))

theorem agg_eq_aggAt (h : Cert.Stages.C (F := F) S16384x256 .f32) (e : Cert.Stages.C (F := F) S2x262144 .i32) :
    Cert.Stages.agg h e = aggAt h (Cert.Stages.srcIdx e) (Cert.Stages.dstIdx e) := rfl

/-- The shifted entrywise square root of the Gram matrix: what the loss takes the trace of. -/
def rootOf (g : Cert.Stages.C (F := F) S16x16 .f32) : Cert.Stages.C (F := F) S16x16 .f32 :=
  Host.sqrt (addf g (broadcastInDim S16x16 ![] bcast_S_S16x16 (constant S_ .f32 0x26901D7D#32)))

/-- The loss from the shifted root's trace. -/
def lossOfRoot (r : Cert.Stages.C (F := F) S16x16 .f32) : Cert.Stages.C (F := F) S_ .f32 :=
  Host.divf (Host.negf (Cert.Stages.traceOf r)) (Host.sqrt (constant S_ .f32 0x48800000#32))

theorem lossOf_eq (g : Cert.Stages.C (F := F) S16x16 .f32) : Cert.Stages.lossOf g = lossOfRoot (rootOf g) := rfl

set_option maxRecDepth 8192 in
set_option maxHeartbeats 1000000 in
/-- The first stretch leaves the edges' sources in `main_v1`. -/
theorem ops0_v1 (V : Valuation τ sig (Elt F)) :
    after ops0 V (main_v1 : DevRef τ sig) = Cert.Stages.srcIdx (V (main_arg1 : DevRef τ sig)) := by
  after_results_simp
  rfl

set_option maxRecDepth 8192 in
set_option maxHeartbeats 1000000 in
/-- The first stretch leaves the edges' destinations in `main_v3`. -/
theorem ops0_v3 (V : Valuation τ sig (Elt F)) :
    after ops0 V (main_v3 : DevRef τ sig) = Cert.Stages.dstIdx (V (main_arg1 : DevRef τ sig)) := by
  after_results_simp
  rfl

set_option maxRecDepth 8192 in
set_option maxHeartbeats 1000000 in
/-- The first stretch leaves the second layer's input in `main_v18`. -/
theorem ops0_v18 (V : Valuation τ sig (Elt F)) :
    after ops0 V (main_v18 : DevRef τ sig)
      = Cert.Stages.hidden1 (V (main_arg0 : DevRef τ sig)) (V (main_arg1 : DevRef τ sig)) (V (main_arg2 : DevRef τ sig))
          (Cert.Stages.row256 (V (main_arg3 : DevRef τ sig))) := by
  after_results_simp
  rfl

set_option maxRecDepth 8192 in
set_option maxHeartbeats 1000000 in
/-- The second stretch leaves the head's input in `main_v33`, from the second layer's input and the two index rows. -/
theorem ops1_v33 (V : Valuation τ sig (Elt F)) :
    after ops1 V (main_v33 : DevRef τ sig)
      = Cert.Stages.actv (aggAt (Cert.Stages.dot1 (V (main_v18 : DevRef τ sig)) (V (main_arg4 : DevRef τ sig)))
            (V (main_v1 : DevRef τ sig)) (V (main_v3 : DevRef τ sig)))
          (Cert.Stages.row256 (V (main_arg5 : DevRef τ sig))) := by
  after_results_simp
  rfl

set_option maxRecDepth 8192 in
set_option maxHeartbeats 1000000 in
/-- The third stretch leaves the cluster logits in `main_v37`. -/
theorem ops2_v37 (V : Valuation τ sig (Elt F)) :
    after ops2 V (main_v37 : DevRef τ sig)
      = Cert.Stages.logits (V (main_v33 : DevRef τ sig)) (V (main_arg6 : DevRef τ sig))
          (Cert.Stages.row16 (V (main_arg7 : DevRef τ sig))) := by
  after_results_simp
  rfl

set_option maxRecDepth 8192 in
set_option maxHeartbeats 1000000 in
/-- The fifth stretch leaves the rows' softmax in `main_v64`. -/
theorem ops4_v64 (V : Valuation τ sig (Elt F)) :
    after ops4 V (main_v64 : DevRef τ sig) = Cert.Stages.smax (V (main_v37 : DevRef τ sig)) := by
  after_results_simp
  rfl

set_option maxRecDepth 8192 in
set_option maxHeartbeats 1000000 in
/-- The fifth stretch leaves the shifted root of the softmax's Gram matrix in `main_v74`. -/
theorem ops4_v74 (V : Valuation τ sig (Elt F)) :
    after ops4 V (main_v74 : DevRef τ sig)
      = rootOf (Cert.Stages.gram (Cert.Stages.smax (V (main_v37 : DevRef τ sig)))) := by
  after_results_simp
  rfl

set_option maxRecDepth 8192 in
set_option maxHeartbeats 1000000 in
/-- The sixth stretch leaves the loss in `main_v78`, from the shifted root. -/
theorem ops5_v78 (V : Valuation τ sig (Elt F)) :
    after ops5 V (main_v78 : DevRef τ sig) = lossOfRoot (V (main_v74 : DevRef τ sig)) := by
  after_results_simp
  rfl

/-! ## The stretches composed -/

/-- The whole fold, one stretch after the other. -/
theorem after_ops (V : Valuation τ sig (Elt F)) :
    after ops V = after ops5 (after ops4 (after ops3 (after ops2 (after ops1 (after ops0 V))))) := by
  show after (ops0 ++ (ops1 ++ (ops2 ++ (ops3 ++ (ops4 ++ ops5))))) V = _
  rw [after_app, after_app, after_app, after_app, after_app]

/-- The cluster logits after the first four stretches, from the launch contents. -/
theorem logits_eq (V : Valuation τ sig (Elt F)) :
    after ops3 (after ops2 (after ops1 (after ops0 V))) (main_v37 : DevRef τ sig)
      = Cert.Stages.logits
          (Cert.Stages.hidden2
            (Cert.Stages.hidden1 (V (main_arg0 : DevRef τ sig)) (V (main_arg1 : DevRef τ sig)) (V (main_arg2 : DevRef τ sig))
              (Cert.Stages.row256 (V (main_arg3 : DevRef τ sig))))
            (V (main_arg1 : DevRef τ sig)) (V (main_arg4 : DevRef τ sig)) (Cert.Stages.row256 (V (main_arg5 : DevRef τ sig))))
          (V (main_arg6 : DevRef τ sig)) (Cert.Stages.row16 (V (main_arg7 : DevRef τ sig))) := by
  rw [ops3_of _ main_v37 (by decide), ops2_v37, ops1_v33,
    ops1_of _ main_arg6 (by decide), ops0_of _ main_arg6 (by decide),
    ops1_of _ main_arg7 (by decide), ops0_of _ main_arg7 (by decide),
    ops0_v18, ops0_v1, ops0_v3, ops0_of _ main_arg4 (by decide), ops0_of _ main_arg5 (by decide),
    ← agg_eq_aggAt]
  rfl

/-- The reference's first result is the soft cluster assignments of its eight arguments. -/
theorem outS_eq (V : Valuation τ sig (Elt F)) :
    after ops V (main_v64 : DevRef τ sig) = Cert.Stages.outS (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, ops5_of _ main_v64 (by decide), ops4_v64, logits_eq]
  rfl

/-- The reference's second result is the loss of its eight arguments. -/
theorem outLoss_eq (V : Valuation τ sig (Elt F)) :
    after ops V (main_v78 : DevRef τ sig) = Cert.Stages.outLoss (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [after_ops, ops5_v78, ops4_v74, logits_eq, ← lossOf_eq]
  rfl

/-- No stretch writes `main_arg0`. -/
theorem arg0_eq (V : Valuation τ sig (Elt F)) :
    after ops V (main_arg0 : DevRef τ sig) = V (main_arg0 : DevRef τ sig) := by
  rw [after_ops]
  exact (ops5_of _ main_arg0 (by decide)).trans <| (ops4_of _ main_arg0 (by decide)).trans <|
    (ops3_of _ main_arg0 (by decide)).trans <| (ops2_of _ main_arg0 (by decide)).trans <|
    (ops1_of _ main_arg0 (by decide)).trans <| ops0_of _ main_arg0 (by decide)

/-- No stretch writes `main_arg1`. -/
theorem arg1_eq (V : Valuation τ sig (Elt F)) :
    after ops V (main_arg1 : DevRef τ sig) = V (main_arg1 : DevRef τ sig) := by
  rw [after_ops]
  exact (ops5_of _ main_arg1 (by decide)).trans <| (ops4_of _ main_arg1 (by decide)).trans <|
    (ops3_of _ main_arg1 (by decide)).trans <| (ops2_of _ main_arg1 (by decide)).trans <|
    (ops1_of _ main_arg1 (by decide)).trans <| ops0_of _ main_arg1 (by decide)

/-- No stretch writes `main_arg2`. -/
theorem arg2_eq (V : Valuation τ sig (Elt F)) :
    after ops V (main_arg2 : DevRef τ sig) = V (main_arg2 : DevRef τ sig) := by
  rw [after_ops]
  exact (ops5_of _ main_arg2 (by decide)).trans <| (ops4_of _ main_arg2 (by decide)).trans <|
    (ops3_of _ main_arg2 (by decide)).trans <| (ops2_of _ main_arg2 (by decide)).trans <|
    (ops1_of _ main_arg2 (by decide)).trans <| ops0_of _ main_arg2 (by decide)

/-- No stretch writes `main_arg3`. -/
theorem arg3_eq (V : Valuation τ sig (Elt F)) :
    after ops V (main_arg3 : DevRef τ sig) = V (main_arg3 : DevRef τ sig) := by
  rw [after_ops]
  exact (ops5_of _ main_arg3 (by decide)).trans <| (ops4_of _ main_arg3 (by decide)).trans <|
    (ops3_of _ main_arg3 (by decide)).trans <| (ops2_of _ main_arg3 (by decide)).trans <|
    (ops1_of _ main_arg3 (by decide)).trans <| ops0_of _ main_arg3 (by decide)

/-- No stretch writes `main_arg4`. -/
theorem arg4_eq (V : Valuation τ sig (Elt F)) :
    after ops V (main_arg4 : DevRef τ sig) = V (main_arg4 : DevRef τ sig) := by
  rw [after_ops]
  exact (ops5_of _ main_arg4 (by decide)).trans <| (ops4_of _ main_arg4 (by decide)).trans <|
    (ops3_of _ main_arg4 (by decide)).trans <| (ops2_of _ main_arg4 (by decide)).trans <|
    (ops1_of _ main_arg4 (by decide)).trans <| ops0_of _ main_arg4 (by decide)

/-- No stretch writes `main_arg5`. -/
theorem arg5_eq (V : Valuation τ sig (Elt F)) :
    after ops V (main_arg5 : DevRef τ sig) = V (main_arg5 : DevRef τ sig) := by
  rw [after_ops]
  exact (ops5_of _ main_arg5 (by decide)).trans <| (ops4_of _ main_arg5 (by decide)).trans <|
    (ops3_of _ main_arg5 (by decide)).trans <| (ops2_of _ main_arg5 (by decide)).trans <|
    (ops1_of _ main_arg5 (by decide)).trans <| ops0_of _ main_arg5 (by decide)

/-- No stretch writes `main_arg6`. -/
theorem arg6_eq (V : Valuation τ sig (Elt F)) :
    after ops V (main_arg6 : DevRef τ sig) = V (main_arg6 : DevRef τ sig) := by
  rw [after_ops]
  exact (ops5_of _ main_arg6 (by decide)).trans <| (ops4_of _ main_arg6 (by decide)).trans <|
    (ops3_of _ main_arg6 (by decide)).trans <| (ops2_of _ main_arg6 (by decide)).trans <|
    (ops1_of _ main_arg6 (by decide)).trans <| ops0_of _ main_arg6 (by decide)

/-- No stretch writes `main_arg7`. -/
theorem arg7_eq (V : Valuation τ sig (Elt F)) :
    after ops V (main_arg7 : DevRef τ sig) = V (main_arg7 : DevRef τ sig) := by
  rw [after_ops]
  exact (ops5_of _ main_arg7 (by decide)).trans <| (ops4_of _ main_arg7 (by decide)).trans <|
    (ops3_of _ main_arg7 (by decide)).trans <| (ops2_of _ main_arg7 (by decide)).trans <|
    (ops1_of _ main_arg7 (by decide)).trans <| ops0_of _ main_arg7 (by decide)

end Cert.ReferenceIdeal.Hand

end
-- ==== Proof.RefValue.lean ====
/-
  The reference program's run, read: every weakly fair execution terminates with its two results at the stages'
  composition of the launch contents of its eight arguments, and the arguments unchanged.
-/
import proofs.«142186_j22943715295834_1_alg».proof.Proof.RefRun
import proofs.«142186_j22943715295834_1_alg».proof.Proof.RefOut

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = Cert.Stages.outS (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_v78) = Cert.Stages.outLoss (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c main_v64).trans (outS_eq (launchContents m c)),
     (h c main_v78).trans (outLoss_eq (launchContents m c)),
     (h c main_arg0).trans (arg0_eq (launchContents m c)),
     (h c main_arg1).trans (arg1_eq (launchContents m c)),
     (h c main_arg2).trans (arg2_eq (launchContents m c)),
     (h c main_arg3).trans (arg3_eq (launchContents m c)),
     (h c main_arg4).trans (arg4_eq (launchContents m c)),
     (h c main_arg5).trans (arg5_eq (launchContents m c)),
     (h c main_arg6).trans (arg6_eq (launchContents m c)),
     (h c main_arg7).trans (arg7_eq (launchContents m c))⟩)
    (run_main (F := F) m ρ)

end Cert.ReferenceIdeal.Hand

end
-- ==== Proof.lean ====
/-
  Equivalence over the extended reals of a tiled graph-convolution pooling program and its plain reference.

  Both compute, from node features, an edge table and three dense layers' weights and biases: two rounds of
  "dense product, gather of rows at the edges' sources, sum into the edges' destinations, bias, rectifier", then
  the row softmax of a third dense product plus bias (the soft cluster assignments, the first result), and from
  the assignments' Gram matrix the balance loss, minus the trace of its entrywise square root (shifted by a small
  constant) over the root of the element count (the second result).

  The tiled program runs each dense product, fused with the bias and rectifier before it, in row tiles of 2048
  nodes, and the softmax likewise; its Gram matrix is accumulated tile by tile. A row of a product, of a bias
  addition, of a rectifier and of a softmax depends on that row of the operand only, so the tiles are the rows
  of the whole-array stages; the Gram matrix's entry is a sum over all rows, which the tiles' partial sums
  regroup. At the exact values a change of float format is the identity, and only associativity and
  commutativity of addition are used, so no finiteness of the inputs is needed for the values. The gather and
  the sum over edges are the same host operations in both programs and are carried as one function.

  The frames: the tiled program's run goes region by region through the several-regions launch, each region's
  staging buffers and the carried accumulator named exactly; the reference is a straight line of host operations.
-/
import proofs.«142186_j22943715295834_1_alg».proof.Defs
import proofs.«142186_j22943715295834_1_alg».proof.Proof.Gen.Kernel
import proofs.«142186_j22943715295834_1_alg».proof.Proof.Gen.KernelIdeal
import proofs.«142186_j22943715295834_1_alg».proof.Proof.Gen.ReferenceIdeal
import proofs.«142186_j22943715295834_1_alg».proof.Proof.Gen.Pre_finite_inputs
import proofs.«142186_j22943715295834_1_alg».proof.Proof.K.Run
import proofs.«142186_j22943715295834_1_alg».proof.Proof.KI.Value
import proofs.«142186_j22943715295834_1_alg».proof.Proof.RefValue
import Idealize.ShloMosaic.Adequacy
import Idealize.ShloMosaic.Init

noncomputable section

namespace Cert.Proof

open Idealize.ShloMosaic Idealize.ShloMosaic.TcCoe Idealize.SL.Sem

/-- The word-level tiled program runs and leaves its arguments unchanged. -/
theorem frame_p : Cert.frame_Kernel := fun m ρ _ => Cert.Kernel.Hand.frame (F := Bits) m ρ

/-- So does the tiled program at the exact values. -/
theorem frame_pi : Cert.frame_KernelIdeal := fun m ρ _ => Cert.KernelIdeal.Hand.frame (F := Ideal) m ρ

/-- The reference, a straight line of host operations, runs; no operation writes an argument. -/
theorem frame_ri : Cert.frame_ReferenceIdeal := fun m ρ _ =>
  (θ_run Cert.ReferenceIdeal.defs _ _).mono (fun _ h c => (h c).2.2) (Cert.ReferenceIdeal.Hand.run_value (F := Ideal) m ρ)

/-- The ideal pass rewrote nothing. -/
theorem preserves : Cert.preserves_Kernel_KernelIdeal := trivial

/-- The stages' composition respects equality of the eight inputs. -/
theorem outS_congr {F : FTy → Type} [FloatOps F] {x x' e e' w0 w0' b0 b0' w1 w1' b1 b1' wc wc' bc bc'}
    (h0 : x = x') (h1 : e = e') (h2 : w0 = w0') (h3 : b0 = b0') (h4 : w1 = w1') (h5 : b1 = b1') (h6 : wc = wc') (h7 : bc = bc') :
    Cert.Stages.outS (F := F) x e w0 b0 w1 b1 wc bc = Cert.Stages.outS x' e' w0' b0' w1' b1' wc' bc' := by
  subst h0 h1 h2 h3 h4 h5 h6 h7; rfl

theorem outLoss_congr {F : FTy → Type} [FloatOps F] {x x' e e' w0 w0' b0 b0' w1 w1' b1 b1' wc wc' bc bc'}
    (h0 : x = x') (h1 : e = e') (h2 : w0 = w0') (h3 : b0 = b0') (h4 : w1 = w1') (h5 : b1 = b1') (h6 : wc = wc') (h7 : bc = bc') :
    Cert.Stages.outLoss (F := F) x e w0 b0 w1 b1 wc bc = Cert.Stages.outLoss x' e' w0' b0' w1' b1' wc' bc' := by
  subst h0 h1 h2 h3 h4 h5 h6 h7; rfl

/-- Both programs end with the stages' composition of their (agreeing) arguments. -/
theorem algebraic : Cert.algebraic_KernelIdeal_ReferenceIdeal := by
  intro m ρ m' ρ' _ hagree
  refine ⟨_, _, Cert.KernelIdeal.Hand.run_value m ρ, ?_⟩
  refine (θ_run Cert.ReferenceIdeal.defs _ _).mono (fun r h c => ?_) (Cert.ReferenceIdeal.Hand.run_value (F := Ideal) m' ρ')
  obtain ⟨e0, e1, e2, e3, e4, e5, e6, e7⟩ := hagree c
  obtain ⟨hs, hl, k0, k1, k2, k3, k4, k5, k6, k7⟩ := h c
  exact ⟨hs.trans (outS_congr e0 e1 e2 e3 e4 e5 e6 e7), hl.trans (outLoss_congr e0 e1 e2 e3 e4 e5 e6 e7), k0, k1, k2, k3, k4, k5, k6, k7⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
